-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024 : Shape := ⟨1, ![1024]⟩
abbrev S3072x1024 : Shape := ⟨2, ![3072, 1024]⟩
abbrev S16x1x1 : Shape := ⟨3, ![16, 1, 1]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S16x1x1 : S_.BroadcastsInDim S16x1x1 (![] : Fin 0 → Fin S16x1x1.rank)
  reducesTo_S16x1x1_S_d0_1_2 : S16x1x1.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S16x1x1 1) : IVec S_ 1 :=
  let main_c_5 : IVec S_ 1 := constantI S_ 1 1#1
  let main_v17 : IVec S_ 1 := (fun x v => Host.reduce IntOp.andi x v reducesTo_S16x1x1_S_d0_1_2 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x4096x1024 .f32) (main_arg1 : FVec F S1024 .f32) (main_arg2 : FVec F S3072x1024 .f32) (main_arg3 : FVec F S16x1x1 .f32) (main_arg4 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S16x1x1 .f32 := Host.absf main_arg3
  let main_cst_4 : FVec F S_ .f32 := constant S_ .f32 0x7F800000#32
  let main_v15 : FVec F S16x1x1 .f32 := broadcastInDim S16x1x1 ![] bcast_S_S16x1x1 main_cst_4
  let main_v16 : IVec S16x1x1 1 := cmpf .olt main_v14 main_v15
  fn_part1 (F := F) main_arg4 main_v13 main_v16
-- ==== Kernel.lean ====
abbrev S4x4096x1024 : Shape := ⟨3, ![4, 4096, 1024]⟩
abbrev S1024 : Shape := ⟨1, ![1024]⟩
abbrev S3072x1024 : Shape := ⟨2, ![3072, 1024]⟩
abbrev S16x1x1 : Shape := ⟨3, ![16, 1, 1]⟩
abbrev S1024x1024 : Shape := ⟨2, ![1024, 1024]⟩
abbrev S4x8x128x128 : Shape := ⟨4, ![4, 8, 128, 128]⟩
abbrev S4x2x1024 : Shape := ⟨3, ![4, 2, 1024]⟩
abbrev S1x512x1024 : Shape := ⟨3, ![1, 512, 1024]⟩
abbrev S1x8x128x128 : Shape := ⟨4, ![1, 8, 128, 128]⟩
abbrev S1x2x1024 : Shape := ⟨3, ![1, 2, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S8x128x128 : Shape := ⟨3, ![8, 128, 128]⟩
abbrev S2x1024 : Shape := ⟨2, ![2, 1024]⟩
abbrev S1x1x1024 : Shape := ⟨3, ![1, 1, 1024]⟩
abbrev S512x128 : Shape := ⟨2, ![512, 128]⟩
abbrev S128x128 : Shape := ⟨2, ![128, 128]⟩
abbrev S1x1x128x128 : Shape := ⟨4, ![1, 1, 128, 128]⟩
abbrev S4x8x2x64x2x64 : Shape := ⟨6, ![4, 8, 2, 64, 2, 64]⟩
abbrev S4x8x1x64x1x64 : Shape := ⟨6, ![4, 8, 1, 64, 1, 64]⟩
abbrev S4x8x64x64 : Shape := ⟨4, ![4, 8, 64, 64]⟩
abbrev S4x8x1x64x64 : Shape := ⟨5, ![4, 8, 1, 64, 64]⟩
abbrev S4x8x2x64x64 : Shape := ⟨5, ![4, 8, 2, 64, 64]⟩
abbrev S4x16x64x64 : Shape := ⟨4, ![4, 16, 64, 64]⟩
abbrev S4x1x1024 : Shape := ⟨3, ![4, 1, 1024]⟩
abbrev S4x1024 : Shape := ⟨2, ![4, 1024]⟩
abbrev S4x16x64 : Shape := ⟨3, ![4, 16, 64]⟩
abbrev S_ : Shape := ⟨0, ![]⟩
abbrev S16 : Shape := ⟨1, ![16]⟩
abbrev S4x16x64x1 : Shape := ⟨4, ![4, 16, 64, 1]⟩
abbrev S4x16x1x64 : Shape := ⟨4, ![4, 16, 1, 64]⟩
abbrev S1x16x1x1 : Shape := ⟨4, ![1, 16, 1, 1]⟩
abbrev S1x1024x256 : Shape := ⟨3, ![1, 1024, 256]⟩
abbrev S1x4x64x64 : Shape := ⟨4, ![1, 4, 64, 64]⟩
abbrev S1024x256 : Shape := ⟨2, ![1024, 256]⟩
abbrev S1x1024x1024 : Shape := ⟨3, ![1, 1024, 1024]⟩
abbrev S1x1x64x64 : Shape := ⟨4, ![1, 1, 64, 64]⟩
abbrev S64x64 : Shape := ⟨2, ![64, 64]⟩
abbrev S64x256 : Shape := ⟨2, ![64, 256]⟩
abbrev S256x256 : Shape := ⟨2, ![256, 256]⟩

abbrev nBuf : Space → Nat
  | .hbm => 68
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S3072x1024, .f32⟩
  | .hbm, ⟨3, _⟩ => ⟨S16x1x1, .f32⟩
  | .hbm, ⟨4, _⟩ => ⟨S1024x1024, .f32⟩
  | .hbm, ⟨5, _⟩ => ⟨S3072x1024, .bf16⟩
  | .hbm, ⟨6, _⟩ => ⟨S1024x1024, .bf16⟩
  | .hbm, ⟨7, _⟩ => ⟨S4x4096x1024, .bf16⟩
  | .hbm, ⟨8, _⟩ => ⟨S4x8x128x128, .f32⟩
  | .hbm, ⟨9, _⟩ => ⟨S4x2x1024, .f32⟩
  | .hbm, ⟨10, _⟩ => ⟨S4x8x2x64x2x64, .f32⟩
  | .hbm, ⟨11, _⟩ => ⟨S4x8x1x64x1x64, .f32⟩
  | .hbm, ⟨12, _⟩ => ⟨S4x8x64x64, .f32⟩
  | .hbm, ⟨13, _⟩ => ⟨S4x8x1x64x1x64, .f32⟩
  | .hbm, ⟨14, _⟩ => ⟨S4x8x64x64, .f32⟩
  | .hbm, ⟨15, _⟩ => ⟨S4x8x1x64x64, .f32⟩
  | .hbm, ⟨16, _⟩ => ⟨S4x8x1x64x64, .f32⟩
  | .hbm, ⟨17, _⟩ => ⟨S4x8x2x64x64, .f32⟩
  | .hbm, ⟨18, _⟩ => ⟨S4x16x64x64, .f32⟩
  | .hbm, ⟨19, _⟩ => ⟨S4x1x1024, .f32⟩
  | .hbm, ⟨20, _⟩ => ⟨S4x1024, .f32⟩
  | .hbm, ⟨21, _⟩ => ⟨S4x16x64, .f32⟩
  | .hbm, ⟨22, _⟩ => ⟨S4x1x1024, .f32⟩
  | .hbm, ⟨23, _⟩ => ⟨S4x1024, .f32⟩
  | .hbm, ⟨24, _⟩ => ⟨S4x16x64, .f32⟩
  | .hbm, ⟨25, _⟩ => ⟨S4x16x64, .f32⟩
  | .hbm, ⟨26, _⟩ => ⟨S_, .f32⟩
  | .hbm, ⟨27, _⟩ => ⟨S4x16x64, .f32⟩
  | .hbm, ⟨28, _⟩ => ⟨S4x16x64, .f32⟩
  | .hbm, ⟨29, _⟩ => ⟨S_, .f32⟩
  | .hbm, ⟨30, _⟩ => ⟨S4x16x64, .f32⟩
  | .hbm, ⟨31, _⟩ => ⟨S4x16x64, .f32⟩
  | .hbm, ⟨32, _⟩ => ⟨S4x16x64, .f32⟩
  | .hbm, ⟨33, _⟩ => ⟨S_, .f32⟩
  | .hbm, ⟨34, _⟩ => ⟨S4x16x64, .f32⟩
  | .hbm, ⟨35, _⟩ => ⟨S4x16x64, .f32⟩
  | .hbm, ⟨36, _⟩ => ⟨S_, .f32⟩
  | .hbm, ⟨37, _⟩ => ⟨S4x16x64, .f32⟩
  | .hbm, ⟨38, _⟩ => ⟨S4x16x64, .f32⟩
  | .hbm, ⟨39, _⟩ => ⟨S16x1x1, .f32⟩
  | .hbm, ⟨40, _⟩ => ⟨S16, .f32⟩
  | .hbm, ⟨41, _⟩ => ⟨S4x16x64x1, .f32⟩
  | .hbm, ⟨42, _⟩ => ⟨S4x16x64x64, .f32⟩
  | .hbm, ⟨43, _⟩ => ⟨S4x16x64x64, .f32⟩
  | .hbm, ⟨44, _⟩ => ⟨S4x16x1x64, .f32⟩
  | .hbm, ⟨45, _⟩ => ⟨S4x16x64x64, .f32⟩
  | .hbm, ⟨46, _⟩ => ⟨S4x16x64x64, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S1x16x1x1, .f32⟩
  | .hbm, ⟨51, _⟩ => ⟨S4x16x64x64, .f32⟩
  | .hbm, ⟨52, _⟩ => ⟨S4x16x64x64, .f32⟩
  | .hbm, ⟨53, _⟩ => ⟨S_, .f32⟩
  | .hbm, ⟨54, _⟩ => ⟨S4x16x64, .f32⟩
  | .hbm, ⟨55, _⟩ => ⟨S_, .f32⟩
  | .hbm, ⟨56, _⟩ => ⟨S4x16x64, .f32⟩
  | .hbm, ⟨57, _⟩ => ⟨S4x16x64, .f32⟩
  | .hbm, ⟨58, _⟩ => ⟨S4x16x64x1, .f32⟩
  | .hbm, ⟨59, _⟩ => ⟨S4x16x64x64, .f32⟩
  | .hbm, ⟨60, _⟩ => ⟨S4x16x64x64, .f32⟩
  | .hbm, ⟨61, _⟩ => ⟨S4x16x64x64, .f32⟩
  | .hbm, ⟨62, _⟩ => ⟨S_, .f32⟩
  | .hbm, ⟨63, _⟩ => ⟨S4x16x64, .f32⟩
  | .hbm, ⟨64, _⟩ => ⟨S4x16x64x1, .f32⟩
  | .hbm, ⟨65, _⟩ => ⟨S4x16x64x64, .f32⟩
  | .hbm, ⟨66, _⟩ => ⟨S4x16x64x64, .f32⟩
  | .hbm, ⟨67, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024, .f32⟩
  | .local _ .vmem, ⟨3, _⟩ => ⟨S3072x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x8x128x128, .f32⟩
  | .local _ .vmem, ⟨7, _⟩ => ⟨S1x8x128x128, .f32⟩
  | .local _ .vmem, ⟨8, _⟩ => ⟨S1x2x1024, .f32⟩
  | .local _ .vmem, ⟨9, _⟩ => ⟨S1x2x1024, .f32⟩
  | .local _ .vmem, ⟨10, _⟩ => ⟨S1x1024x256, .bf16⟩
  | .local _ .vmem, ⟨11, _⟩ => ⟨S1x1024x256, .bf16⟩
  | .local _ .vmem, ⟨12, _⟩ => ⟨S1x4x64x64, .f32⟩
  | .local _ .vmem, ⟨13, _⟩ => ⟨S1x4x64x64, .f32⟩
  | .local _ .vmem, ⟨14, _⟩ => ⟨S1024x256, .bf16⟩
  | .local _ .vmem, ⟨15, _⟩ => ⟨S1024x256, .bf16⟩
  | .local _ .vmem, ⟨16, _⟩ => ⟨S1x1024x1024, .f32⟩
  | .local _ .vmem, ⟨17, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨3, ![4, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x4x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S3072x1024_S1024x1024_0_0 : ∀ a, (![0, 0] : Fin 2 → Nat) a + S1024x1024.size a ≤ S3072x1024.size a
  h_S1024x1024 : 0 < S1024x1024.numel
  shapeCasts_S1024x1024_S1024x1024 : S1024x1024.ShapeCasts S1024x1024
  inb_S3072x1024_S1024x1024_1024_0 : ∀ a, (![1024, 0] : Fin 2 → Nat) a + S1024x1024.size a ≤ S3072x1024.size a
  inb_S3072x1024_S1024x1024_2048_0 : ∀ a, (![2048, 0] : Fin 2 → Nat) a + S1024x1024.size a ≤ S3072x1024.size a
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x8x128x128_S1x8x128x128_0_0_0_0 : ∀ a, (![0, 0, 0, 0] : Fin 4 → Nat) a + S1x8x128x128.size a ≤ S1x8x128x128.size a
  h_S1x8x128x128 : 0 < S1x8x128x128.numel
  shapeCasts_S1x8x128x128_S8x128x128 : S1x8x128x128.ShapeCasts S8x128x128
  shapeCasts_S8x128x128_S1x8x128x128 : S8x128x128.ShapeCasts S1x8x128x128
  inb_S1x2x1024_S1x2x1024_0_0_0 : ∀ a, (![0, 0, 0] : Fin 3 → Nat) a + S1x2x1024.size a ≤ S1x2x1024.size a
  h_S1x2x1024 : 0 < S1x2x1024.numel
  shapeCasts_S1x2x1024_S2x1024 : S1x2x1024.ShapeCasts S2x1024
  shapeCasts_S2x1024_S1x2x1024 : S2x1024.ShapeCasts S1x2x1024
  reduces_S512x1024_S1024 : S512x1024.Reduces [0] S1024
  inb_S1x2x1024_S1x1x1024_0_0_0 : ∀ a, (![0, 0, 0] : Fin 3 → Nat) a + S1x1x1024.size a ≤ S1x2x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x2x1024_S1x1x1024_0_1_0 : ∀ a, (![0, 1, 0] : Fin 3 → Nat) a + S1x1x1024.size a ≤ S1x2x1024.size a
  slices_S512x1024_o0_0_S512x128 : S512x1024.Slices ![0, 0] S512x128
  inb_S1x8x128x128_S1x1x128x128_0_0_0_0 : ∀ a, (![0, 0, 0, 0] : Fin 4 → Nat) a + S1x1x128x128.size a ≤ S1x8x128x128.size a
  h_S1x1x128x128 : 0 < S1x1x128x128.numel
  shapeCasts_S1x1x128x128_S128x128 : S1x1x128x128.ShapeCasts S128x128
  shapeCasts_S128x128_S1x1x128x128 : S128x128.ShapeCasts S1x1x128x128
  slices_S512x1024_o0_128_S512x128 : S512x1024.Slices ![0, 128] S512x128
  inb_S1x8x128x128_S1x1x128x128_0_1_0_0 : ∀ a, (![0, 1, 0, 0] : Fin 4 → Nat) a + S1x1x128x128.size a ≤ S1x8x128x128.size a
  slices_S512x1024_o0_256_S512x128 : S512x1024.Slices ![0, 256] S512x128
  inb_S1x8x128x128_S1x1x128x128_0_2_0_0 : ∀ a, (![0, 2, 0, 0] : Fin 4 → Nat) a + S1x1x128x128.size a ≤ S1x8x128x128.size a
  slices_S512x1024_o0_384_S512x128 : S512x1024.Slices ![0, 384] S512x128
  inb_S1x8x128x128_S1x1x128x128_0_3_0_0 : ∀ a, (![0, 3, 0, 0] : Fin 4 → Nat) a + S1x1x128x128.size a ≤ S1x8x128x128.size a
  slices_S512x1024_o0_512_S512x128 : S512x1024.Slices ![0, 512] S512x128
  inb_S1x8x128x128_S1x1x128x128_0_4_0_0 : ∀ a, (![0, 4, 0, 0] : Fin 4 → Nat) a + S1x1x128x128.size a ≤ S1x8x128x128.size a
  slices_S512x1024_o0_640_S512x128 : S512x1024.Slices ![0, 640] S512x128
  inb_S1x8x128x128_S1x1x128x128_0_5_0_0 : ∀ a, (![0, 5, 0, 0] : Fin 4 → Nat) a + S1x1x128x128.size a ≤ S1x8x128x128.size a
  slices_S512x1024_o0_768_S512x128 : S512x1024.Slices ![0, 768] S512x128
  inb_S1x8x128x128_S1x1x128x128_0_6_0_0 : ∀ a, (![0, 6, 0, 0] : Fin 4 → Nat) a + S1x1x128x128.size a ≤ S1x8x128x128.size a
  slices_S512x1024_o0_896_S512x128 : S512x1024.Slices ![0, 896] S512x128
  inb_S1x8x128x128_S1x1x128x128_0_7_0_0 : ∀ a, (![0, 7, 0, 0] : Fin 4 → Nat) a + S1x1x128x128.size a ≤ S1x8x128x128.size a
  shapeCasts_S4x8x128x128_S4x8x2x64x2x64 : S4x8x128x128.ShapeCasts S4x8x2x64x2x64
  slices_S4x8x2x64x2x64_S4x8x1x64x1x64_0_0_0_0_0_0 : S4x8x2x64x2x64.Slices ![0, 0, 0, 0, 0, 0] S4x8x1x64x1x64
  shapeCasts_S4x8x1x64x1x64_S4x8x64x64 : S4x8x1x64x1x64.ShapeCasts S4x8x64x64
  slices_S4x8x2x64x2x64_S4x8x1x64x1x64_0_0_1_0_1_0 : S4x8x2x64x2x64.Slices ![0, 0, 1, 0, 1, 0] S4x8x1x64x1x64
  bcast_S4x8x64x64_S4x8x1x64x64_0_1_3_4 : S4x8x64x64.BroadcastsInDim S4x8x1x64x64 (![0, 1, 3, 4] : Fin 4 → Fin S4x8x1x64x64.rank)
  concatenates_S4x8x1x64x64_S4x8x1x64x64_S4x8x2x64x64_d2 : Shape.Concatenates [S4x8x1x64x64, S4x8x1x64x64] S4x8x2x64x64 2
  shapeCasts_S4x8x2x64x64_S4x16x64x64 : S4x8x2x64x64.ShapeCasts S4x16x64x64
  slices_S4x2x1024_S4x1x1024_0_0_0 : S4x2x1024.Slices ![0, 0, 0] S4x1x1024
  shapeCasts_S4x1x1024_S4x1024 : S4x1x1024.ShapeCasts S4x1024
  shapeCasts_S4x1024_S4x16x64 : S4x1024.ShapeCasts S4x16x64
  slices_S4x2x1024_S4x1x1024_0_1_0 : S4x2x1024.Slices ![0, 1, 0] S4x1x1024
  bcast_S_S4x16x64 : S_.BroadcastsInDim S4x16x64 (![] : Fin 0 → Fin S4x16x64.rank)
  shapeCasts_S16x1x1_S16 : S16x1x1.ShapeCasts S16
  bcast_S4x16x64_S4x16x64x1_0_1_2 : S4x16x64.BroadcastsInDim S4x16x64x1 (![0, 1, 2] : Fin 3 → Fin S4x16x64x1.rank)
  bcast_S4x16x64x1_S4x16x64x64_0_1_2_3 : S4x16x64x1.BroadcastsInDim S4x16x64x64 (![0, 1, 2, 3] : Fin 4 → Fin S4x16x64x64.rank)
  bcast_S4x16x64_S4x16x1x64_0_1_3 : S4x16x64.BroadcastsInDim S4x16x1x64 (![0, 1, 3] : Fin 3 → Fin S4x16x1x64.rank)
  bcast_S4x16x1x64_S4x16x64x64_0_1_2_3 : S4x16x1x64.BroadcastsInDim S4x16x64x64 (![0, 1, 2, 3] : Fin 4 → Fin S4x16x64x64.rank)
  bcast_S_S16 : S_.BroadcastsInDim S16 (![] : Fin 0 → Fin S16.rank)
  bcast_S16_S1x16x1x1_1 : S16.BroadcastsInDim S1x16x1x1 (![1] : Fin 1 → Fin S1x16x1x1.rank)
  bcast_S1x16x1x1_S4x16x64x64_0_1_2_3 : S1x16x1x1.BroadcastsInDim S4x16x64x64 (![0, 1, 2, 3] : Fin 4 → Fin S4x16x64x64.rank)
  reducesTo_S4x16x64x64_S4x16x64_d3 : S4x16x64x64.ReducesTo [3] S4x16x64
  h_S_ : 0 < S_.numel
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x4x64x64_S1x1x64x64_0_0_0_0 : ∀ a, (![0, 0, 0, 0] : Fin 4 → Nat) a + S1x1x64x64.size a ≤ S1x4x64x64.size a
  h_S1x1x64x64 : 0 < S1x1x64x64.numel
  shapeCasts_S1x1x64x64_S64x64 : S1x1x64x64.ShapeCasts S64x64
  inb_S1x4x64x64_S1x1x64x64_0_1_0_0 : ∀ a, (![0, 1, 0, 0] : Fin 4 → Nat) a + S1x1x64x64.size a ≤ S1x4x64x64.size a
  inb_S1x4x64x64_S1x1x64x64_0_2_0_0 : ∀ a, (![0, 2, 0, 0] : Fin 4 → Nat) a + S1x1x64x64.size a ≤ S1x4x64x64.size a
  inb_S1x4x64x64_S1x1x64x64_0_3_0_0 : ∀ a, (![0, 3, 0, 0] : Fin 4 → Nat) a + S1x1x64x64.size a ≤ S1x4x64x64.size a
  concatenates_S64x64_S64x64_S64x64_S64x64_S64x256_d1 : Shape.Concatenates [S64x64, S64x64, S64x64, S64x64] S64x256 1
  concatenates_S64x256_S64x256_S64x256_S64x256_S256x256_d0 : Shape.Concatenates [S64x256, S64x256, S64x256, S64x256] S256x256 0
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  dot_S512x1024_S1024x1024_S512x1024_1_1_0_0_n_n_wf : DotDims.WF S512x1024 S1024x1024 S512x1024 [1] [1] [0] [0] [] []
  dot_S512x128_S512x128_S128x128_0_0_1_1_n_n_wf : DotDims.WF S512x128 S512x128 S128x128 [0] [0] [1] [1] [] []
  dot_S1024x256_S256x256_S1024x256_1_1_0_0_n_n_wf : DotDims.WF S1024x256 S256x256 S1024x256 [1] [1] [0] [0] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x1024.size a ≤ S3072x1024.size a
  hwx0_2 : ∀ i : grid0.Coords, EltTy.bits .bf16 = 32 ∨ (Rect.block (s := S3072x1024) S3072x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S4x4096x1024.size a
  hwx0_3 : ∀ i : grid0.Coords, EltTy.bits .bf16 = 32 ∨ (Rect.block (s := S4x4096x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128x128.size a ≤ S4x8x128x128.size a
  hwx0_4 : ∀ i : grid0.Coords, EltTy.bits .f32 = 32 ∨ (Rect.block (s := S4x8x128x128) S1x8x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x1024.size a ≤ S4x2x1024.size a
  hwx0_5 : ∀ i : grid0.Coords, EltTy.bits .f32 = 32 ∨ (Rect.block (s := S4x2x1024) S1x2x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S4x4096x1024.size a
  hwx1_0 : ∀ i : grid1.Coords, EltTy.bits .bf16 = 32 ∨ (Rect.block (s := S4x4096x1024) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4x64x64.size a ≤ S4x16x64x64.size a
  hwx1_1 : ∀ i : grid1.Coords, EltTy.bits .f32 = 32 ∨ (Rect.block (s := S4x16x64x64) S1x4x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S1024x1024.size a
  hwx1_2 : ∀ i : grid1.Coords, EltTy.bits .bf16 = 32 ∨ (Rect.block (s := S1024x1024) S1024x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x4096x1024.size a
  hwx1_3 : ∀ i : grid1.Coords, EltTy.bits .f32 = 32 ∨ (Rect.block (s := S4x4096x1024) S1x1024x1024.size (cc1_transform_3 i) (hinb1_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x128_S512x128_S128x128_0_0_1_1_n_n : DotDims S512x128 S512x128 S128x128 where
  lhsContracting := [0]
  rhsContracting := [0]
  lhsNonContracting := [1]
  rhsNonContracting := [1]
  lhsBatch := []
  rhsBatch := []
  wf := dot_S512x128_S512x128_S128x128_0_0_1_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3072x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x8x128x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1x2x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2_0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x4x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024 : Shape := ⟨1, ![1024]⟩
abbrev S3072x1024 : Shape := ⟨2, ![3072, 1024]⟩
abbrev S16x1x1 : Shape := ⟨3, ![16, 1, 1]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3072 : Shape := ⟨3, ![4, 4096, 3072]⟩
abbrev S4x4096x3x16x64 : Shape := ⟨5, ![4, 4096, 3, 16, 64]⟩
abbrev S3x4x16x64x4096 : Shape := ⟨5, ![3, 4, 16, 64, 4096]⟩
abbrev S1x4x16x64x4096 : Shape := ⟨5, ![1, 4, 16, 64, 4096]⟩
abbrev S4x16x64x4096 : Shape := ⟨4, ![4, 16, 64, 4096]⟩
abbrev S4x16x64 : Shape := ⟨3, ![4, 16, 64]⟩
abbrev S4x16x64x1 : Shape := ⟨4, ![4, 16, 64, 1]⟩
abbrev S1x16x1x1 : Shape := ⟨4, ![1, 16, 1, 1]⟩
abbrev S4x16x64x64 : Shape := ⟨4, ![4, 16, 64, 64]⟩
abbrev S4x4096x16x64 : Shape := ⟨4, ![4, 4096, 16, 64]⟩

abbrev nBuf : Space → Nat
  | .hbm => 77
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S3072x1024, .f32⟩
  | .hbm, ⟨3, _⟩ => ⟨S16x1x1, .f32⟩
  | .hbm, ⟨4, _⟩ => ⟨S1024x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S_, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x4096x3072, .f32⟩
  | .hbm, ⟨23, _⟩ => ⟨S4x4096x3x16x64, .f32⟩
  | .hbm, ⟨24, _⟩ => ⟨S3x4x16x64x4096, .f32⟩
  | .hbm, ⟨25, _⟩ => ⟨S1x4x16x64x4096, .f32⟩
  | .hbm, ⟨26, _⟩ => ⟨S4x16x64x4096, .f32⟩
  | .hbm, ⟨27, _⟩ => ⟨S1x4x16x64x4096, .f32⟩
  | .hbm, ⟨28, _⟩ => ⟨S4x16x64x4096, .f32⟩
  | .hbm, ⟨29, _⟩ => ⟨S1x4x16x64x4096, .f32⟩
  | .hbm, ⟨30, _⟩ => ⟨S4x16x64x4096, .f32⟩
  | .hbm, ⟨31, _⟩ => ⟨S4x16x64x4096, .f32⟩
  | .hbm, ⟨32, _⟩ => ⟨S_, .f32⟩
  | .hbm, ⟨33, _⟩ => ⟨S4x16x64, .f32⟩
  | .hbm, ⟨34, _⟩ => ⟨S4x16x64x1, .f32⟩
  | .hbm, ⟨35, _⟩ => ⟨S4x16x64x1, .f32⟩
  | .hbm, ⟨36, _⟩ => ⟨S_, .f32⟩
  | .hbm, ⟨37, _⟩ => ⟨S4x16x64x1, .f32⟩
  | .hbm, ⟨38, _⟩ => ⟨S4x16x64x1, .f32⟩
  | .hbm, ⟨39, _⟩ => ⟨S4x16x64x4096, .f32⟩
  | .hbm, ⟨40, _⟩ => ⟨S4x16x64x4096, .f32⟩
  | .hbm, ⟨41, _⟩ => ⟨S16x1x1, .f32⟩
  | .hbm, ⟨42, _⟩ => ⟨S1x16x1x1, .f32⟩
  | .hbm, ⟨43, _⟩ => ⟨S4x16x64x4096, .f32⟩
  | .hbm, ⟨44, _⟩ => ⟨S4x16x64x4096, .f32⟩
  | .hbm, ⟨45, _⟩ => ⟨S4x16x64x4096, .f32⟩
  | .hbm, ⟨46, _⟩ => ⟨S_, .f32⟩
  | .hbm, ⟨47, _⟩ => ⟨S4x16x64, .f32⟩
  | .hbm, ⟨48, _⟩ => ⟨S4x16x64x1, .f32⟩
  | .hbm, ⟨49, _⟩ => ⟨S4x16x64x1, .f32⟩
  | .hbm, ⟨50, _⟩ => ⟨S_, .f32⟩
  | .hbm, ⟨51, _⟩ => ⟨S4x16x64x1, .f32⟩
  | .hbm, ⟨52, _⟩ => ⟨S4x16x64x1, .f32⟩
  | .hbm, ⟨53, _⟩ => ⟨S4x16x64x4096, .f32⟩
  | .hbm, ⟨54, _⟩ => ⟨S4x16x64x4096, .f32⟩
  | .hbm, ⟨55, _⟩ => ⟨S4x16x64x64, .f32⟩
  | .hbm, ⟨56, _⟩ => ⟨S_, .f32⟩
  | .hbm, ⟨57, _⟩ => ⟨S4x16x64x64, .f32⟩
  | .hbm, ⟨58, _⟩ => ⟨S4x16x64x64, .f32⟩
  | .hbm, ⟨59, _⟩ => ⟨S_, .f32⟩
  | .hbm, ⟨60, _⟩ => ⟨S4x16x64, .f32⟩
  | .hbm, ⟨61, _⟩ => ⟨S_, .f32⟩
  | .hbm, ⟨62, _⟩ => ⟨S4x16x64, .f32⟩
  | .hbm, ⟨63, _⟩ => ⟨S4x16x64, .f32⟩
  | .hbm, ⟨64, _⟩ => ⟨S4x16x64x1, .f32⟩
  | .hbm, ⟨65, _⟩ => ⟨S4x16x64x64, .f32⟩
  | .hbm, ⟨66, _⟩ => ⟨S4x16x64x64, .f32⟩
  | .hbm, ⟨67, _⟩ => ⟨S4x16x64x64, .f32⟩
  | .hbm, ⟨68, _⟩ => ⟨S_, .f32⟩
  | .hbm, ⟨69, _⟩ => ⟨S4x16x64, .f32⟩
  | .hbm, ⟨70, _⟩ => ⟨S4x16x64x1, .f32⟩
  | .hbm, ⟨71, _⟩ => ⟨S4x16x64x64, .f32⟩
  | .hbm, ⟨72, _⟩ => ⟨S4x16x64x64, .f32⟩
  | .hbm, ⟨73, _⟩ => ⟨S4x16x64x4096, .f32⟩
  | .hbm, ⟨74, _⟩ => ⟨S4x4096x16x64, .f32⟩
  | .hbm, ⟨75, _⟩ => ⟨S4x4096x1024, .f32⟩
  | .hbm, ⟨76, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]

class Facts₀ : Prop where
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bcast_S_S4x4096x1024 : S_.BroadcastsInDim S4x4096x1024 (![] : Fin 0 → Fin S4x4096x1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  shapeCasts_S4x4096x3072_S4x4096x3x16x64 : S4x4096x3072.ShapeCasts S4x4096x3x16x64
  transposes_S4x4096x3x16x64_S3x4x16x64x4096_2_0_3_4_1 : S4x4096x3x16x64.Transposes [2, 0, 3, 4, 1] S3x4x16x64x4096
  slices_S3x4x16x64x4096_S1x4x16x64x4096_0_0_0_0_0 : S3x4x16x64x4096.Slices ![0, 0, 0, 0, 0] S1x4x16x64x4096
  shapeCasts_S1x4x16x64x4096_S4x16x64x4096 : S1x4x16x64x4096.ShapeCasts S4x16x64x4096
  slices_S3x4x16x64x4096_S1x4x16x64x4096_1_0_0_0_0 : S3x4x16x64x4096.Slices ![1, 0, 0, 0, 0] S1x4x16x64x4096
  slices_S3x4x16x64x4096_S1x4x16x64x4096_2_0_0_0_0 : S3x4x16x64x4096.Slices ![2, 0, 0, 0, 0] S1x4x16x64x4096
  reducesTo_S4x16x64x4096_S4x16x64_d3 : S4x16x64x4096.ReducesTo [3] S4x16x64
  bcast_S4x16x64_S4x16x64x1_0_1_2 : S4x16x64.BroadcastsInDim S4x16x64x1 (![0, 1, 2] : Fin 3 → Fin S4x16x64x1.rank)
  bcast_S_S4x16x64x1 : S_.BroadcastsInDim S4x16x64x1 (![] : Fin 0 → Fin S4x16x64x1.rank)
  bcast_S4x16x64x1_S4x16x64x4096_0_1_2_3 : S4x16x64x1.BroadcastsInDim S4x16x64x4096 (![0, 1, 2, 3] : Fin 4 → Fin S4x16x64x4096.rank)
  bcast_S16x1x1_S1x16x1x1_1_2_3 : S16x1x1.BroadcastsInDim S1x16x1x1 (![1, 2, 3] : Fin 3 → Fin S1x16x1x1.rank)
  bcast_S1x16x1x1_S4x16x64x4096_0_1_2_3 : S1x16x1x1.BroadcastsInDim S4x16x64x4096 (![0, 1, 2, 3] : Fin 4 → Fin S4x16x64x4096.rank)
  bcast_S_S4x16x64x64 : S_.BroadcastsInDim S4x16x64x64 (![] : Fin 0 → Fin S4x16x64x64.rank)
  reducesTo_S4x16x64x64_S4x16x64_d3 : S4x16x64x64.ReducesTo [3] S4x16x64
  bcast_S_S4x16x64 : S_.BroadcastsInDim S4x16x64 (![] : Fin 0 → Fin S4x16x64.rank)
  bcast_S4x16x64x1_S4x16x64x64_0_1_2_3 : S4x16x64x1.BroadcastsInDim S4x16x64x64 (![0, 1, 2, 3] : Fin 4 → Fin S4x16x64x64.rank)
  transposes_S4x16x64x4096_S4x4096x16x64_0_3_1_2 : S4x16x64x4096.Transposes [0, 3, 1, 2] S4x4096x16x64
  shapeCasts_S4x4096x16x64_S4x4096x1024 : S4x4096x16x64.ShapeCasts S4x4096x1024
  dot_S4x4096x1024_S3072x1024_S4x4096x3072_2_1_01_0_n_n_wf : DotDims.WF S4x4096x1024 S3072x1024 S4x4096x3072 [2] [1] [0, 1] [0] [] []
  dot_S4x16x64x4096_S4x16x64x4096_S4x16x64x64_3_3_2_2_01_01_wf : DotDims.WF S4x16x64x4096 S4x16x64x4096 S4x16x64x64 [3] [3] [2] [2] [0, 1] [0, 1]
  dot_S4x16x64x64_S4x16x64x4096_S4x16x64x4096_3_2_2_3_01_01_wf : DotDims.WF S4x16x64x64 S4x16x64x4096 S4x16x64x4096 [3] [2] [2] [3] [0, 1] [0, 1]
  dot_S4x4096x1024_S1024x1024_S4x4096x1024_2_1_01_0_n_n_wf : DotDims.WF S4x4096x1024 S1024x1024 S4x4096x1024 [2] [1] [0, 1] [0] [] []

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x16x64x4096_S4x16x64x4096_S4x16x64x64_3_3_2_2_01_01 : DotDims S4x16x64x4096 S4x16x64x4096 S4x16x64x64 where
  lhsContracting := [3]
  rhsContracting := [3]
  lhsNonContracting := [2]
  rhsNonContracting := [2]
  lhsBatch := [0, 1]
  rhsBatch := [0, 1]
  wf := dot_S4x16x64x4096_S4x16x64x4096_S4x16x64x64_3_3_2_2_01_01_wf
def dot_S4x16x64x64_S4x16x64x4096_S4x16x64x4096_3_2_2_3_01_01 : DotDims S4x16x64x64 S4x16x64x4096 S4x16x64x4096 where
  lhsContracting := [3]
  rhsContracting := [2]
  lhsNonContracting := [2]
  rhsNonContracting := [3]
  lhsBatch := [0, 1]
  rhsBatch := [0, 1]
  wf := dot_S4x16x64x64_S4x16x64x4096_S4x16x64x4096_3_2_2_3_01_01_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.Spec.lean ====
/-
  The mathematics of both programs, index by index, over the extended reals.

  The layer is cross-covariance attention after a row normalisation.  With x : [4, 4096, 1024] (batch b, token n,
  channel c), a gain gamma, a projection w : [3072, 1024], one temperature per head and an output
  projection wo : [1024, 1024]:
    * every token row is divided by its Euclidean norm clipped below at eps, scaled by sqrt 1024 = 32 and by gamma;
    * the row is projected to 3072 features: 1024 of q, 1024 of k, 1024 of v, each 16 heads of 64;
    * per batch and head, q and k are normalised ALONG THE TOKEN AXIS (each of the 64 features of a head by the clipped
      norm of its 4096 values), q is scaled by exp(temperature), and the 64 x 64 matrix of inner products over tokens,
      times 8, goes through a row softmax;
    * that matrix is applied to v (64 features of a head) and the 1024 resulting features are projected by wo.
  The two programs differ in the ORDER of these operations.  The reference does them as written.  The kernel
  multiplies the row by the reciprocal of its clipped norm and by the literal 32; sums q*q, k*k and the 128 x 128
  products of head PAIRS tile by tile over 8 tiles of 512 tokens; takes the two diagonal 64 x 64 blocks of a pair; scales
  the raw inner products afterwards by the two reciprocal norms and by 8 * exp(temperature); and applies the attention
  matrix four heads at a time as a 256 x 256 matrix that is zero off its diagonal 64 x 64 blocks, adding the four
  partial output projections.  Everything below only NAMES these quantities; that the two orders agree on real
  inputs is proved elsewhere.
-/
import Idealize.ShloMosaic.PureOps.Ideal
import Idealize.ShloMosaic.Lib.ValueIdx

noncomputable section

namespace XCov

open Idealize.ShloMosaic Idealize.ShloMosaic.ValueIdx

/-! ## Shapes and constants -/

abbrev SX : Shape := ⟨3, ![4, 4096, 1024]⟩
abbrev SGam : Shape := ⟨1, ![1024]⟩
abbrev SW : Shape := ⟨2, ![3072, 1024]⟩
abbrev STmp : Shape := ⟨3, ![16, 1, 1]⟩
abbrev SWo : Shape := ⟨2, ![1024, 1024]⟩
abbrev SGram : Shape := ⟨4, ![4, 8, 128, 128]⟩
abbrev SSsq : Shape := ⟨3, ![4, 2, 1024]⟩
abbrev SAtt : Shape := ⟨4, ![4, 16, 64, 64]⟩
abbrev SRow : Shape := ⟨3, ![4, 16, 64]⟩
abbrev SRow1 : Shape := ⟨4, ![4, 16, 64, 1]⟩
abbrev S0 : Shape := ⟨0, ![]⟩

/-- The clip of a norm, 1e-12 rounded to single precision (the same word in both programs). -/
abbrev eps : EReal := Ideal.ofBits .f32 0x2B8CBCCC#32
/-- 1.0 -/
abbrev one : EReal := Ideal.ofBits .f32 0x3F800000#32
/-- 32.0, the kernel's literal for sqrt 1024 -/
abbrev c32 : EReal := Ideal.ofBits .f32 0x42000000#32
/-- 1024.0, whose square root the reference takes -/
abbrev c1024 : EReal := Ideal.ofBits .f32 0x44800000#32
/-- 8.0, the attention scale -/
abbrev c8 : EReal := Ideal.ofBits .f32 0x41000000#32

/-! ## Coordinates -/

/-- Token `r` of tile `tl` (8 tiles of 512 tokens). -/
def tok (tl : Fin 8) (r : Fin 512) : Fin 4096 := ⟨tl.val * 512 + r.val, by omega⟩
/-- Token `r` of block `nb` (4 blocks of 1024 tokens). -/
def tokB (nb : Fin 4) (r : Fin 1024) : Fin 4096 := ⟨nb.val * 1024 + r.val, by omega⟩
/-- Feature `i` of head pair `hp` (8 pairs of 128 features). -/
def featP (hp : Fin 8) (i : Fin 128) : Fin 1024 := ⟨hp.val * 128 + i.val, by omega⟩
/-- Feature `d` of head `h` (16 heads of 64 features). -/
def featH (h : Fin 16) (d : Fin 64) : Fin 1024 := ⟨h.val * 64 + d.val, by omega⟩
/-- Feature `j` of head group `g` (4 groups of 256 features). -/
def featG (g : Fin 4) (j : Fin 256) : Fin 1024 := ⟨g.val * 256 + j.val, by omega⟩
/-- The q, k and v thirds of the 3072 projected features. -/
def oQ (f : Fin 1024) : Fin 3072 := ⟨f.val, by omega⟩
def oK (f : Fin 1024) : Fin 3072 := ⟨1024 + f.val, by omega⟩
def oV (f : Fin 1024) : Fin 3072 := ⟨2048 + f.val, by omega⟩
/-- Head pair of a head, and the head's place (0 or 1) inside its pair. -/
def pairOf (h : Fin 16) : Fin 8 := ⟨h.val / 2, by omega⟩
/-- Feature `d` of head `h` counted inside the head's pair. -/
def inPair (h : Fin 16) (d : Fin 64) : Fin 128 := ⟨(h.val % 2) * 64 + d.val, by omega⟩
/-- Head number of the 64-block `j / 64` of group `g`. -/
def headG (g : Fin 4) (j : Fin 256) : Fin 16 := ⟨g.val * 4 + j.val / 64, by omega⟩
/-- Place inside its 64-block. -/
def in64 (j : Fin 256) : Fin 64 := ⟨j.val % 64, by omega⟩
/-- Head and place of a feature among 1024. -/
def headF (i : Fin 1024) : Fin 16 := ⟨i.val / 64, by omega⟩
def in64F (i : Fin 1024) : Fin 64 := ⟨i.val % 64, by omega⟩

/-! ## The normalised row and the projection -/

section
variable (X : SX.Idx → EReal) (Gam : SGam.Idx → EReal) (W : SW.Idx → EReal) (Tmp : STmp.Idx → EReal) (Wo : SWo.Idx → EReal)

/-- Norm of token row (b, n), clipped below at eps. -/
def rowNorm (b : Fin 4) (n : Fin 4096) : EReal :=
  max (Ideal.sqrt (∑ c : Fin 1024, X (ix3 b n c) * X (ix3 b n c))) eps

/-- The kernel's normalised row: times the reciprocal of the clipped norm, times the literal 32, times the gain. -/
def xnK (b : Fin 4) (n : Fin 4096) (c : Fin 1024) : EReal :=
  X (ix3 b n c) * Ideal.div one (rowNorm X b n) * c32 * Gam (ix1 c)

/-- The reference's normalised row: divided by the clipped norm, times sqrt 1024, times the gain. -/
def xnR (b : Fin 4) (n : Fin 4096) (c : Fin 1024) : EReal :=
  Ideal.div (X (ix3 b n c)) (rowNorm X b n) * Ideal.sqrt c1024 * Gam (ix1 c)

/-- Projected feature `o` of the normalised row `xn b n`. -/
def proj (xn : Fin 4 → Fin 4096 → Fin 1024 → EReal) (b : Fin 4) (n : Fin 4096) (o : Fin 3072) : EReal :=
  ∑ c : Fin 1024, xn b n c * W (ix2 o c)

/-! ## What the kernel's first call leaves: v, and the sums over tokens taken tile by tile -/

/-- v, token-major. -/
def vK (b : Fin 4) (n : Fin 4096) (f : Fin 1024) : EReal := proj W (xnK X Gam) b n (oV f)
def vKarr : SX.Idx → EReal := fun j => vK X Gam W (j 0) (j 1) (j 2)

/-- Inner products over tokens of q-feature i and k-feature j of head pair hp, tile by tile. -/
def gramK (b : Fin 4) (hp : Fin 8) (i j : Fin 128) : EReal :=
  ∑ tl : Fin 8, ∑ r : Fin 512,
    proj W (xnK X Gam) b (tok tl r) (oQ (featP hp i)) * proj W (xnK X Gam) b (tok tl r) (oK (featP hp j))
def gramKarr : SGram.Idx → EReal := fun j => gramK X Gam W (j 0) (j 1) (j 2) (j 3)

/-- Sums of squares over tokens of q-feature f (s = 0) or k-feature f (s = 1), tile by tile. -/
def ssqK (b : Fin 4) (s : Fin 2) (f : Fin 1024) : EReal :=
  ∑ tl : Fin 8, ∑ r : Fin 512,
    proj W (xnK X Gam) b (tok tl r) (if s.val = 0 then oQ f else oK f)
      * proj W (xnK X Gam) b (tok tl r) (if s.val = 0 then oQ f else oK f)
def ssqKarr : SSsq.Idx → EReal := fun j => ssqK X Gam W (j 0) (j 1) (j 2)

end

/-! ## The kernel's scaling of the raw inner products, from the two arrays of sums -/

section
variable (G : SGram.Idx → EReal) (S : SSsq.Idx → EReal) (Tmp : STmp.Idx → EReal)

/-- Reciprocal of the clipped norm of feature d of head h: of q (s = 0) or of k (s = 1). -/
def invNorm (s : Fin 2) (b : Fin 4) (h : Fin 16) (d : Fin 64) : EReal :=
  Ideal.div one (max (Ideal.sqrt (S (ix3 b s (featH h d)))) eps)

/-- The kernel's logits: the diagonal block of the pair's products, times both reciprocal norms, times 8 exp(temperature). -/
def logitK (b : Fin 4) (h : Fin 16) (d e : Fin 64) : EReal :=
  G (ix4 b (pairOf h) (inPair h d) (inPair h e)) * invNorm S 0 b h d * invNorm S 1 b h e
    * (c8 * Ideal.exp (Tmp (ix3 h 0 0)))
def logitKarr : SAtt.Idx → EReal := fun j => logitK G S Tmp (j 0) (j 1) (j 2) (j 3)

end

/-! ## The row softmax, the same chain of host operations in both programs -/

/-- Softmax along the last axis as both programs print it: the row maximum (a reduction from -inf, once more
    against -inf), subtracted; the exponential; the row sum (from 0); the quotient.  It is carried as ONE function and
    never opened: the two programs apply it to logits that are proved equal. -/
def softmaxRows (hred : SAtt.ReducesTo [3] SRow) (h0 : 0 < S0.numel) (hb0 : S0.BroadcastsInDim SRow (![] : Fin 0 → Fin SRow.rank))
    (hb1 : SRow.BroadcastsInDim SRow1 (![0, 1, 2] : Fin 3 → Fin SRow1.rank))
    (hb2 : SRow1.BroadcastsInDim SAtt (![0, 1, 2, 3] : Fin 4 → Fin SAtt.rank))
    (s : FVec Ideal SAtt .f32) : FVec Ideal SAtt .f32 :=
  let mx : FVec Ideal SRow .f32 := Host.reduce FloatOps.maximumf s (constant (F := Ideal) S0 .f32 0xFF800000#32) hred h0
  let mx' : FVec Ideal SRow .f32 := maximumf (broadcastInDim SRow ![] hb0 (constant (F := Ideal) S0 .f32 0xFF800000#32)) mx
  let e : FVec Ideal SAtt .f32 := Host.exp (subf s (broadcastInDim SAtt ![0, 1, 2, 3] hb2 (broadcastInDim SRow1 ![0, 1, 2] hb1 mx')))
  let sm : FVec Ideal SRow .f32 := Host.reduceAdd e (constant (F := Ideal) S0 .f32 0x00000000#32) hred h0
  Host.divf e (broadcastInDim SAtt ![0, 1, 2, 3] hb2 (broadcastInDim SRow1 ![0, 1, 2] hb1 sm))

/-! ## The kernel's second call: attention applied four heads at a time, and the output projection in four parts -/

section
variable (V : SX.Idx → EReal) (A : SAtt.Idx → EReal) (Wo : SWo.Idx → EReal)

/-- Entry (j, i) of group g's 256 x 256 matrix: the head's attention inside a diagonal 64-block, zero outside. -/
def blockDiag (b : Fin 4) (g : Fin 4) (j i : Fin 256) : EReal :=
  if j.val / 64 = i.val / 64 then A (ix4 b (headG g j) (in64 j) (in64 i)) else 0

/-- Attention applied to the 256 v-features of group g of token (b, n). -/
def applyK (b : Fin 4) (n : Fin 4096) (g : Fin 4) (j : Fin 256) : EReal :=
  ∑ i : Fin 256, V (ix3 b n (featG g i)) * blockDiag A b g j i

/-- The kernel's result: the four groups' partial output projections added. -/
def outK (b : Fin 4) (n : Fin 4096) (o : Fin 1024) : EReal :=
  ∑ g : Fin 4, ∑ j : Fin 256, applyK V A b n g j * Wo (ix2 o (featG g j))
def outKarr : SX.Idx → EReal := fun j => outK V A Wo (j 0) (j 1) (j 2)

end

/-! ## The reference -/

section
variable (X : SX.Idx → EReal) (Gam : SGam.Idx → EReal) (W : SW.Idx → EReal) (Tmp : STmp.Idx → EReal) (Wo : SWo.Idx → EReal)

/-- q, k, v of the reference: feature d of head h at token n. -/
def qR (b : Fin 4) (h : Fin 16) (d : Fin 64) (n : Fin 4096) : EReal := proj W (xnR X Gam) b n (oQ (featH h d))
def kR (b : Fin 4) (h : Fin 16) (d : Fin 64) (n : Fin 4096) : EReal := proj W (xnR X Gam) b n (oK (featH h d))
def vR (b : Fin 4) (h : Fin 16) (d : Fin 64) (n : Fin 4096) : EReal := proj W (xnR X Gam) b n (oV (featH h d))

/-- Norm over the 4096 tokens, clipped below at eps. -/
def tokNorm (p : Fin 4096 → EReal) : EReal := max (Ideal.sqrt (∑ n : Fin 4096, p n * p n)) eps

/-- The reference's logits: inner product over tokens of normalised, temperature-scaled q with normalised k, times 8. -/
def logitR (b : Fin 4) (h : Fin 16) (d e : Fin 64) : EReal :=
  (∑ n : Fin 4096, Ideal.div (qR X Gam W b h d n) (tokNorm (qR X Gam W b h d)) * Ideal.exp (Tmp (ix3 h 0 0))
      * Ideal.div (kR X Gam W b h e n) (tokNorm (kR X Gam W b h e))) * c8
def logitRarr : SAtt.Idx → EReal := fun j => logitR X Gam W Tmp (j 0) (j 1) (j 2) (j 3)

/-- The reference's result for an attention matrix A: A applied to v, then the output projection over all 1024 features. -/
def outR (A : SAtt.Idx → EReal) (b : Fin 4) (n : Fin 4096) (o : Fin 1024) : EReal :=
  ∑ i : Fin 1024, (∑ e : Fin 64, A (ix4 b (headF i) (in64F i) e) * vR X Gam W b (headF i) e n) * Wo (ix2 o i)
def outRarr (A : SAtt.Idx → EReal) : SX.Idx → EReal := fun j => outR X Gam W Wo A (j 0) (j 1) (j 2)

end

end XCov

end
-- ==== Proof.Covers.lean ====
/- Every index of each array a call writes back lies in the block of some grid point that writes back: the blocks tile the arrays. -/
import proofs.«430979_j3951369912721_3_alg».proof.Proof.Gen.KernelIdeal.Frame

set_option maxRecDepth 16384

noncomputable section

namespace Cert.KernelIdeal.Covers

open Cert.KernelIdeal Cert.KernelIdeal.Gen
open Idealize.ShloMosaic Idealize.ShloMosaic.TcCoe Idealize.SL.Sem
open Idealize.ShloMosaic.Pipeline (Dat)

/-! ## The first call: grid (4, 8), point t is (batch, tile) = (t / 8, t % 8) -/

/-- The block indices of the three written-back arrays at point t. -/
theorem idx0 : ∀ t : Fin cfg0.N,
    win0_3.index t (0 : Fin 3) = t.val / 8 ∧ win0_3.index t (1 : Fin 3) = t.val % 8 ∧ win0_3.index t (2 : Fin 3) = 0
    ∧ win0_4.index t (0 : Fin 4) = t.val / 8 ∧ win0_4.index t (1 : Fin 4) = 0 ∧ win0_4.index t (2 : Fin 4) = 0 ∧ win0_4.index t (3 : Fin 4) = 0
    ∧ win0_5.index t (0 : Fin 3) = t.val / 8 ∧ win0_5.index t (1 : Fin 3) = 0 ∧ win0_5.index t (2 : Fin 3) = 0 :=
  (by decide +kernel : ∀ t : Fin grid0.N, _)

/-- An index is in point t's block iff each coordinate is in the block's range on its axis. -/
theorem mem_blk0_3 (t : Fin cfg0.N) (i : S4x4096x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v2_0).slice (win0_3.rect t)).set ↔ _
  rw [View.set_slice_whole, Rect.mem_set_unit]
  exact Iff.rfl

theorem cover0_3_idx (i : S4x4096x1024.Idx) :
    ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 1024 := (i 2).isLt
  obtain ⟨t, tv⟩ : ∃ t : Fin cfg0.N, t.val = (i 0).val * 8 + (i 1).val / 512 :=
    ⟨⟨(i 0).val * 8 + (i 1).val / 512, (show (i 0).val * 8 + (i 1).val / 512 < 32 by omega).trans_eq N_0.symm⟩, rfl⟩
  refine ⟨t, flush0_3 t, ?_⟩
  rw [mem_blk0_3]
  obtain ⟨e0, e1, e2, -⟩ := idx0 t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- The array of q k products of head pairs: one block per batch, written back at the batch's last tile. -/
theorem mem_blk0_4 (t : Fin cfg0.N) (i : S4x8x128x128.Idx) :
    i ∈ ((cfg0.win 4).blk t).view.set ↔ ∀ a : Fin 4, win0_4.index t a * S1x8x128x128.size a ≤ (i a).val ∧ (i a).val < win0_4.index t a * S1x8x128x128.size a + S1x8x128x128.size a := by
  show i ∈ ((View.whole main_v2_1).slice (win0_4.rect t)).set ↔ _
  rw [View.set_slice_whole, Rect.mem_set_unit]
  exact Iff.rfl

theorem cover0_4_idx (i : S4x8x128x128.Idx) :
    ∃ t : Fin cfg0.N, (cfg0.win 4).flush t = true ∧ i ∈ ((cfg0.win 4).blk t).view.set := by
  have h0 : (i 0).val < 4 := (i 0).isLt
  have h1 : (i 1).val < 8 := (i 1).isLt
  have h2 : (i 2).val < 128 := (i 2).isLt
  have h3 : (i 3).val < 128 := (i 3).isLt
  obtain ⟨t, tv⟩ : ∃ t : Fin cfg0.N, t.val = (i 0).val * 8 + 7 :=
    ⟨⟨(i 0).val * 8 + 7, (show (i 0).val * 8 + 7 < 32 by omega).trans_eq N_0.symm⟩, rfl⟩
  refine ⟨t, (flush0_4 t).mpr (by omega), ?_⟩
  rw [mem_blk0_4]
  obtain ⟨-, -, -, e0, e1, e2, e3, -⟩ := idx0 t
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 8 ≤ (i 1).val ∧ (i 1).val < win0_4.index t (1 : Fin 4) * 8 + 8; omega
  | ⟨2, _⟩ => show win0_4.index t (2 : Fin 4) * 128 ≤ (i 2).val ∧ (i 2).val < win0_4.index t (2 : Fin 4) * 128 + 128; omega
  | ⟨3, _⟩ => show win0_4.index t (3 : Fin 4) * 128 ≤ (i 3).val ∧ (i 3).val < win0_4.index t (3 : Fin 4) * 128 + 128; omega

/-- The array of sums of squares: one block per batch, written back at the batch's last tile. -/
theorem mem_blk0_5 (t : Fin cfg0.N) (i : S4x2x1024.Idx) :
    i ∈ ((cfg0.win 5).blk t).view.set ↔ ∀ a : Fin 3, win0_5.index t a * S1x2x1024.size a ≤ (i a).val ∧ (i a).val < win0_5.index t a * S1x2x1024.size a + S1x2x1024.size a := by
  show i ∈ ((View.whole main_v2_2).slice (win0_5.rect t)).set ↔ _
  rw [View.set_slice_whole, Rect.mem_set_unit]
  exact Iff.rfl

theorem cover0_5_idx (i : S4x2x1024.Idx) :
    ∃ t : Fin cfg0.N, (cfg0.win 5).flush t = true ∧ i ∈ ((cfg0.win 5).blk t).view.set := by
  have h0 : (i 0).val < 4 := (i 0).isLt
  have h1 : (i 1).val < 2 := (i 1).isLt
  have h2 : (i 2).val < 1024 := (i 2).isLt
  obtain ⟨t, tv⟩ : ∃ t : Fin cfg0.N, t.val = (i 0).val * 8 + 7 :=
    ⟨⟨(i 0).val * 8 + 7, (show (i 0).val * 8 + 7 < 32 by omega).trans_eq N_0.symm⟩, rfl⟩
  refine ⟨t, (flush0_5 t).mpr (by omega), ?_⟩
  rw [mem_blk0_5]
  obtain ⟨-, -, -, -, -, -, -, e0, e1, e2⟩ := idx0 t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2 ≤ (i 1).val ∧ (i 1).val < win0_5.index t (1 : Fin 3) * 2 + 2; omega
  | ⟨2, _⟩ => show win0_5.index t (2 : Fin 3) * 1024 ≤ (i 2).val ∧ (i 2).val < win0_5.index t (2 : Fin 3) * 1024 + 1024; omega

/-! ## The second call: grid (4, 4, 4), point t is (batch, token block, head group) = (t / 16, t / 4 % 4, t % 4) -/

/-- The block index of the result array at point t. -/
theorem idx1 : ∀ t : Fin cfg1.N,
    win1_3.index t (0 : Fin 3) = t.val / 16 ∧ win1_3.index t (1 : Fin 3) = t.val / 4 % 4 ∧ win1_3.index t (2 : Fin 3) = 0 :=
  (by decide +kernel : ∀ t : Fin grid1.N, _)

theorem mem_blk1_3 (t : Fin cfg1.N) (i : S4x4096x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v52).slice (win1_3.rect t)).set ↔ _
  rw [View.set_slice_whole, Rect.mem_set_unit]
  exact Iff.rfl

theorem cover1_3_idx (i : S4x4096x1024.Idx) :
    ∃ t : Fin cfg1.N, (cfg1.win 3).flush t = true ∧ i ∈ ((cfg1.win 3).blk t).view.set := by
  have h0 : (i 0).val < 4 := (i 0).isLt
  have h1 : (i 1).val < 4096 := (i 1).isLt
  have h2 : (i 2).val < 1024 := (i 2).isLt
  obtain ⟨t, tv⟩ : ∃ t : Fin cfg1.N, t.val = ((i 0).val * 4 + (i 1).val / 1024) * 4 + 3 :=
    ⟨⟨((i 0).val * 4 + (i 1).val / 1024) * 4 + 3, (show ((i 0).val * 4 + (i 1).val / 1024) * 4 + 3 < 64 by omega).trans_eq N_1.symm⟩, rfl⟩
  refine ⟨t, (flush1_3 t).mpr (by omega), ?_⟩
  rw [mem_blk1_3]
  obtain ⟨e0, e1, e2⟩ := idx1 t
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1024 ≤ (i 2).val ∧ (i 2).val < win1_3.index t (2 : Fin 3) * 1024 + 1024; omega

/-! ## The covers, in the form the whole-array post takes them -/

theorem cover0_3 (c : Dev nD) : ∀ i : ((cfg0.win 3).arr.view.loc (c.tc : Thread nD τ)).2.ty.Idx,
    ∃ t : Fin cfg0.N, (cfg0.win 3).flush t = true ∧ i ∈ ((cfg0.win 3).blk t).view.set :=
  fun i => cover0_3_idx i

theorem cover0_4 (c : Dev nD) : ∀ i : ((cfg0.win 4).arr.view.loc (c.tc : Thread nD τ)).2.ty.Idx,
    ∃ t : Fin cfg0.N, (cfg0.win 4).flush t = true ∧ i ∈ ((cfg0.win 4).blk t).view.set :=
  fun i => cover0_4_idx i

theorem cover0_5 (c : Dev nD) : ∀ i : ((cfg0.win 5).arr.view.loc (c.tc : Thread nD τ)).2.ty.Idx,
    ∃ t : Fin cfg0.N, (cfg0.win 5).flush t = true ∧ i ∈ ((cfg0.win 5).blk t).view.set :=
  fun i => cover0_5_idx i

theorem cover1_3 (c : Dev nD) : ∀ i : ((cfg1.win 3).arr.view.loc (c.tc : Thread nD τ)).2.ty.Idx,
    ∃ t : Fin cfg1.N, (cfg1.win 3).flush t = true ∧ i ∈ ((cfg1.win 3).blk t).view.set :=
  fun i => cover1_3_idx i

end Cert.KernelIdeal.Covers

end
-- ==== Proof.R0Tile.lean ====
/- The three projected tiles of one grid point of the first call, read at an index.

   Point t of the grid (4 batches by 8 token tiles) holds rows t % 8 * 512 … of batch t / 8 of x, the whole gain and the
   whole weight.  The body divides each of the 512 rows by its clipped norm (times the reciprocal, times 32, times the
   gain) and multiplies the normalised block by three blocks of 1024 weight rows: rows 0 …, 1024 … and 2048 … of the
   weight, which give q, k and v.  Each entry of a tile is therefore the sum over the 1024 channels of the normalised
   row times one weight row, with no leading zero: the projection the specification names. -/
import proofs.«430979_j3951369912721_3_alg».proof.Proof.Gen.KernelIdeal.Frame
import proofs.«430979_j3951369912721_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat)

namespace Tile

/-! ## Two layout readings the rows' norms need -/

/-- A vector cast to a column reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (r, c) of the block's normalised rows. -/
def xnBlk (x0 : FVec Ideal S1x512x1024 .f32) (x1 : FVec Ideal S1024 .f32) (r : Fin 512) (c : Fin 1024) : EReal :=
  x0 (ix3 (0 : Fin 1) r c) * Ideal.div XCov.one (max (Ideal.sqrt (∑ c' : Fin 1024, x0 (ix3 (0 : Fin 1) r c') * x0 (ix3 (0 : Fin 1) r c'))) XCov.eps) * XCov.c32 * x1 (ix1 c)

theorem rowSq (x0 : FVec Ideal S1x512x1024 .f32) (r : Fin 512) (hφ : FKind.Formats .f32) (hacc : (0x00000000#32 : BitVec 32) = FKind.add.neutral .f32 hφ) :
    multiReduction (F := Ideal) .add [1] S512 (mulf (shapeCast S512x1024 x0 shapeCasts_S1x512x1024_S512x1024) (shapeCast S512x1024 x0 shapeCasts_S1x512x1024_S512x1024)) 0x00000000#32 reduces_S512x1024_S512 hφ hacc (ix1 r)
      = ∑ c' : Fin 1024, x0 (ix3 (0 : Fin 1) r c') * x0 (ix3 (0 : Fin 1) r c') := by
  refine (Ideal.multiReduction_add_single _ 0x00000000#32 reduces_S512x1024_S512 hφ hacc (ix1 r)).trans ?_
  show ∑ k : Fin 1024, mulf (shapeCast S512x1024 x0 shapeCasts_S1x512x1024_S512x1024) (shapeCast S512x1024 x0 shapeCasts_S1x512x1024_S512x1024) (reduces_S512x1024_S512.lift (ix1 r) k) = _
  refine Finset.sum_congr rfl fun (k : Fin 1024) _ => ?_
  have e : reduces_S512x1024_S512.lift (ix1 r) k = ix2 r k := by
    funext a; apply Fin.ext
    match a with
    | ⟨0, _⟩ => rfl
    | ⟨1, _⟩ => rfl
  rw [e, mulf_apply, shapeCast_1ab_ab_apply]

theorem pay3_apply (x0 : FVec Ideal S1x512x1024 .f32) (x1 : FVec Ideal S1024 .f32) (r : Fin 512) (c : Fin 1024) :
    k0_pay3 (F := Ideal) x0 x1 (ix2 r c) = xnBlk x0 x1 r c := by
  unfold k0_pay3 xnBlk
  dsimp only
  refine congrArg₂ (fun a b : EReal => a * b) (congrArg₂ (fun a b : EReal => a * b) (congrArg₂ (fun a b : EReal => a * b) ?_ ?_) rfl) ?_
  · exact shapeCast_1ab_ab_apply x0 _ r c
  · refine (broadcastTo_a1_ab_apply _ _ r c).trans ?_
    refine congrArg (Ideal.div XCov.one) (congrArg (fun a : EReal => max a XCov.eps) (congrArg Ideal.sqrt ?_))
    refine (shapeCast_a_a1_apply _ _ r 0).trans ?_
    exact rowSq x0 r _ _
  · refine (broadcastTo_1b_ab_apply _ _ r c).trans ?_
    exact shapeCast_a_1a_apply x1 _ 0 c

/-! ## The projection: rows of the normalised block against rows of a weight block -/

theorem lhs_proj_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_proj_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_proj_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_proj_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product into the zero accumulator at (r, f): row r of the left operand against row f of the right one. -/
theorem proj_apply (l : FVec Ideal S512x1024 .bf16) (w : FVec Ideal S1024x1024 .bf16) (r : Fin 512) (f : Fin 1024) :
    matmul dot_S512x1024_S1024x1024_S512x1024_1_1_0_0_n_n none l w (constant (F := Ideal) S512x1024 .f32 0x00000000#32) (ix2 r f)
      = ∑ k : Fin 1024, l (ix2 r k) * w (ix2 f k) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 r f) ((ValueIdx.contrEquiv1 dot_S512x1024_S1024x1024_S512x1024_1_1_0_0_n_n 1024 rfl rfl).symm k) = ix2 r k := funext fun a => Fin.ext (by
    match a with
    | ⟨0, _⟩ => exact lhs_proj_0 _ _
    | ⟨1, _⟩ => exact (lhs_proj_1 _ _).trans hk)
  have er : dot_S512x1024_S1024x1024_S512x1024_1_1_0_0_n_n.rhsIdx (ix2 r f) ((ValueIdx.contrEquiv1 dot_S512x1024_S1024x1024_S512x1024_1_1_0_0_n_n 1024 rfl rfl).symm k) = ix2 f k := funext fun a => Fin.ext (by
    match a with
    | ⟨0, _⟩ => exact rhs_proj_0 _ _
    | ⟨1, _⟩ => exact (rhs_proj_1 _ _).trans hk)
  rw [el, er]

/-- The q (k) tile at (r, f): the block's normalised row r against row f of the weight block. -/
theorem pay4_apply (x0 : FVec Ideal S1x512x1024 .f32) (x1 : FVec Ideal S1024 .f32) (w : FVec Ideal S1024x1024 .bf16) (r : Fin 512) (f : Fin 1024) :
    k0_pay4 (F := Ideal) x0 x1 w (ix2 r f) = ∑ k : Fin 1024, xnBlk x0 x1 r k * w (ix2 f k) := by
  unfold k0_pay4
  refine (proj_apply (k0_pay3 (F := Ideal) x0 x1) (shapeCast S1024x1024 w shapeCasts_S1024x1024_S1024x1024) r f).trans ?_
  refine Finset.sum_congr rfl fun k _ => ?_
  rw [pay3_apply, shapeCast_self]

theorem pay5_apply (x0 : FVec Ideal S1x512x1024 .f32) (x1 : FVec Ideal S1024 .f32) (w : FVec Ideal S1024x1024 .bf16) (r : Fin 512) (f : Fin 1024) :
    k0_pay5 (F := Ideal) x0 x1 w (ix2 r f) = ∑ k : Fin 1024, xnBlk x0 x1 r k * w (ix2 f k) := by
  unfold k0_pay5
  refine (proj_apply (k0_pay3 (F := Ideal) x0 x1) (shapeCast S1024x1024 w shapeCasts_S1024x1024_S1024x1024) r f).trans ?_
  refine Finset.sum_congr rfl fun k _ => ?_
  rw [pay3_apply, shapeCast_self]

/-- The v tile as it is stored, at (0, r, f). -/
theorem pay6_apply (x0 : FVec Ideal S1x512x1024 .f32) (x1 : FVec Ideal S1024 .f32) (w : FVec Ideal S1024x1024 .bf16) (u : Fin 1) (r : Fin 512) (f : Fin 1024) :
    k0_pay6 (F := Ideal) x0 x1 w (ix3 u r f) = ∑ k : Fin 1024, xnBlk x0 x1 r k * w (ix2 f k) := by
  unfold k0_pay6
  refine (shapeCast_ab_1ab_apply _ _ u r f).trans ?_
  refine (proj_apply (k0_pay3 (F := Ideal) x0 x1) (shapeCast S1024x1024 w shapeCasts_S1024x1024_S1024x1024) r f).trans ?_
  refine Finset.sum_congr rfl fun k _ => ?_
  rw [pay3_apply, shapeCast_self]

/-! ## The three row blocks of the weight block, as the body loads them -/

theorem ld_rowsQ (x2 : Vec Ideal S3072x1024 .bf16) (inb : ∀ a, (![0, 0] : Fin 2 → Nat) a + S1024x1024.size a ≤ S3072x1024.size a) (f k : Fin 1024) :
    View.ld (Val := Elt Ideal) (e' := .bf16) x2 (Rect.unit (s := S3072x1024) ![0, 0] S1024x1024.size inb) (ix2 f k) = x2 (ix2 (XCov.oQ f) k) := by
  show x2 _ = x2 _
  congr 1
  funext a
  apply Fin.ext
  match a with
  | ⟨0, _⟩ => show 0 + 1 * f.val = f.val; omega
  | ⟨1, _⟩ => show 0 + 1 * k.val = k.val; omega

theorem ld_rowsK (x2 : Vec Ideal S3072x1024 .bf16) (inb : ∀ a, (![1024, 0] : Fin 2 → Nat) a + S1024x1024.size a ≤ S3072x1024.size a) (f k : Fin 1024) :
    View.ld (Val := Elt Ideal) (e' := .bf16) x2 (Rect.unit (s := S3072x1024) ![1024, 0] S1024x1024.size inb) (ix2 f k) = x2 (ix2 (XCov.oK f) k) := by
  show x2 _ = x2 _
  congr 1
  funext a
  apply Fin.ext
  match a with
  | ⟨0, _⟩ => show 1024 + 1 * f.val = 1024 + f.val; omega
  | ⟨1, _⟩ => show 0 + 1 * k.val = k.val; omega

theorem ld_rowsV (x2 : Vec Ideal S3072x1024 .bf16) (inb : ∀ a, (![2048, 0] : Fin 2 → Nat) a + S1024x1024.size a ≤ S3072x1024.size a) (f k : Fin 1024) :
    View.ld (Val := Elt Ideal) (e' := .bf16) x2 (Rect.unit (s := S3072x1024) ![2048, 0] S1024x1024.size inb) (ix2 f k) = x2 (ix2 (XCov.oV f) k) := by
  show x2 _ = x2 _
  congr 1
  funext a
  apply Fin.ext
  match a with
  | ⟨0, _⟩ => show 2048 + 1 * f.val = 2048 + f.val; omega
  | ⟨1, _⟩ => show 0 + 1 * k.val = k.val; omega

/-! ## From a block to the arrays -/

/-- The block's normalised row is the array's, when the block is tile tl of batch b of x and the gain is read whole. -/
theorem xnBlk_eq (x0 : FVec Ideal S1x512x1024 .f32) (x1 : FVec Ideal S1024 .f32) (X : XCov.SX.Idx → EReal) (Gam : XCov.SGam.Idx → EReal)
    (b : Fin 4) (tl : Fin 8) (h0 : ∀ (r : Fin 512) (cc : Fin 1024), x0 (ix3 (0 : Fin 1) r cc) = X (ix3 b (XCov.tok tl r) cc))
    (h1 : ∀ cc : Fin 1024, x1 (ix1 cc) = Gam (ix1 cc)) (r : Fin 512) (k : Fin 1024) :
    xnBlk x0 x1 r k = XCov.xnK X Gam b (XCov.tok tl r) k := by
  unfold xnBlk XCov.xnK XCov.rowNorm
  simp only [h0, h1]

/-- A tile entry is the projection of the array's normalised row onto the weight row the block's row f is. -/
theorem tile_eq (x0 : FVec Ideal S1x512x1024 .f32) (x1 : FVec Ideal S1024 .f32) (w : FVec Ideal S1024x1024 .bf16)
    (X : XCov.SX.Idx → EReal) (Gam : XCov.SGam.Idx → EReal) (W : XCov.SW.Idx → EReal) (b : Fin 4) (tl : Fin 8) (o : Fin 3072)
    (h0 : ∀ (r : Fin 512) (cc : Fin 1024), x0 (ix3 (0 : Fin 1) r cc) = X (ix3 b (XCov.tok tl r) cc))
    (h1 : ∀ cc : Fin 1024, x1 (ix1 cc) = Gam (ix1 cc)) (r : Fin 512) (f : Fin 1024)
    (hw : ∀ k : Fin 1024, w (ix2 f k) = W (ix2 o k)) :
    ∑ k : Fin 1024, xnBlk x0 x1 r k * w (ix2 f k) = XCov.proj W (XCov.xnK X Gam) b (XCov.tok tl r) o := by
  unfold XCov.proj
  refine Finset.sum_congr rfl fun k _ => ?_
  rw [xnBlk_eq x0 x1 X Gam b tl h0 h1 r k, hw k]

/-! ## The blocks at a grid point -/

variable (V : (c : Dev nD) → (b : Ref sig .tc) → Buf (Elt Ideal) ((c : Thread nD τ).loc b))

/-- The windows' index maps over the grid: point t is token tile t % 8 of batch t / 8; the gain and the weight are read whole. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 1) = 0
    ∧ win0_2.index t (0 : Fin 2) = 0 ∧ win0_2.index t (1 : Fin 2) = 0 :=
  (by decide +kernel : ∀ t : Fin grid0.N, _)

/-- The x block at point t: rows tl*512 … of batch b. -/
theorem xblk_apply (c : Dev nD) (t : Fin cfg0.N) (hb : t.val / 8 < 4) (htl : t.val % 8 < 8) (r : Fin 512) (cc : Fin 1024) :
    (iblk0 V c 0 t : Vec Ideal S1x512x1024 .f32) (ix3 (0 : Fin 1) r cc) = V c main_arg0 (ix3 (⟨t.val / 8, hb⟩ : Fin 4) (XCov.tok ⟨t.val % 8, htl⟩ r) cc) := by
  obtain ⟨e0, e1, e2, -, -, -⟩ := idx_facts t
  show V c main_arg0 (((cfg0.win 0).blk t).view.emb (ix3 (0 : Fin 1) r cc)) = V c main_arg0 _
  congr 1
  funext a
  apply Fin.ext
  match a with
  | ⟨0, _⟩ => show win0_0.index t (0 : Fin 3) * 1 + 1 * 0 = t.val / 8; omega
  | ⟨1, _⟩ => show win0_0.index t (1 : Fin 3) * 512 + 1 * r.val = t.val % 8 * 512 + r.val; omega
  | ⟨2, _⟩ => show win0_0.index t (2 : Fin 3) * 1024 + 1 * cc.val = cc.val; omega

/-- The gain block is the gain. -/
theorem gblk_apply (c : Dev nD) (t : Fin cfg0.N) (cc : Fin 1024) :
    (iblk0 V c 1 t : Vec Ideal S1024 .f32) (ix1 cc) = V c main_arg1 (ix1 cc) := by
  obtain ⟨-, -, -, e0, -, -⟩ := idx_facts t
  show V c main_arg1 (((cfg0.win 1).blk t).view.emb (ix1 cc)) = V c main_arg1 _
  congr 1
  funext a
  apply Fin.ext
  match a with
  | ⟨0, _⟩ => show win0_1.index t (0 : Fin 1) * 1024 + 1 * cc.val = cc.val; omega

/-- The weight block is the weight. -/
theorem wblk_apply (c : Dev nD) (t : Fin cfg0.N) (o : Fin 3072) (cc : Fin 1024) :
    (iblk0 V c 2 t : Vec Ideal S3072x1024 .bf16) (ix2 o cc) = V c main_v0 (ix2 o cc) := by
  obtain ⟨-, -, -, -, e0, e1⟩ := idx_facts t
  show V c main_v0 (((cfg0.win 2).blk t).view.emb (ix2 o cc)) = V c main_v0 _
  congr 1
  funext a
  apply Fin.ext
  match a with
  | ⟨0, _⟩ => show win0_2.index t (0 : Fin 2) * 3072 + 1 * o.val = o.val; omega
  | ⟨1, _⟩ => show win0_2.index t (1 : Fin 2) * 1024 + 1 * cc.val = cc.val; omega

end Tile

open Tile

variable (V : (c : Dev nD) → (b : Ref sig .tc) → Buf (Elt Ideal) ((c : Thread nD τ).loc b))

/-! ## The three tiles at a grid point -/

/-- The q tile of point t at (r, f): feature f of q at token r of tile t % 8 of batch t / 8. -/
theorem qTile (c : Dev nD) (t : Fin cfg0.N) (r : Fin 512) (f : Fin 1024) (hb : t.val / 8 < 4) (htl : t.val % 8 < 8) :
    k0_pay4 (F := Ideal) (iblk0 V c 0 t) (iblk0 V c 1 t) (View.ld (Val := Elt Ideal) (iblk0 V c 2 t) (Rect.unit (s := S3072x1024) ![0, 0] S1024x1024.size inb_S3072x1024_S1024x1024_0_0)) (ix2 r f)
      = XCov.proj (V c main_v0) (XCov.xnK (V c main_arg0) (V c main_arg1)) ⟨t.val / 8, hb⟩ (XCov.tok ⟨t.val % 8, htl⟩ r) (XCov.oQ f) := by
  refine (pay4_apply (iblk0 V c 0 t) (iblk0 V c 1 t) (View.ld (Val := Elt Ideal) (iblk0 V c 2 t) (Rect.unit (s := S3072x1024) ![0, 0] S1024x1024.size inb_S3072x1024_S1024x1024_0_0)) r f).trans ?_
  refine tile_eq (iblk0 V c 0 t) (iblk0 V c 1 t) _ (V c main_arg0) (V c main_arg1) (V c main_v0) ⟨t.val / 8, hb⟩ ⟨t.val % 8, htl⟩ (XCov.oQ f)
    (fun r cc => xblk_apply V c t hb htl r cc) (fun cc => gblk_apply V c t cc) r f (fun k => ?_)
  exact (ld_rowsQ (iblk0 V c 2 t) inb_S3072x1024_S1024x1024_0_0 f k).trans (wblk_apply V c t (XCov.oQ f) k)

/-- The k tile of point t at (r, f). -/
theorem kTile (c : Dev nD) (t : Fin cfg0.N) (r : Fin 512) (f : Fin 1024) (hb : t.val / 8 < 4) (htl : t.val % 8 < 8) :
    k0_pay5 (F := Ideal) (iblk0 V c 0 t) (iblk0 V c 1 t) (View.ld (Val := Elt Ideal) (iblk0 V c 2 t) (Rect.unit (s := S3072x1024) ![1024, 0] S1024x1024.size inb_S3072x1024_S1024x1024_1024_0)) (ix2 r f)
      = XCov.proj (V c main_v0) (XCov.xnK (V c main_arg0) (V c main_arg1)) ⟨t.val / 8, hb⟩ (XCov.tok ⟨t.val % 8, htl⟩ r) (XCov.oK f) := by
  refine (pay5_apply (iblk0 V c 0 t) (iblk0 V c 1 t) (View.ld (Val := Elt Ideal) (iblk0 V c 2 t) (Rect.unit (s := S3072x1024) ![1024, 0] S1024x1024.size inb_S3072x1024_S1024x1024_1024_0)) r f).trans ?_
  refine tile_eq (iblk0 V c 0 t) (iblk0 V c 1 t) _ (V c main_arg0) (V c main_arg1) (V c main_v0) ⟨t.val / 8, hb⟩ ⟨t.val % 8, htl⟩ (XCov.oK f)
    (fun r cc => xblk_apply V c t hb htl r cc) (fun cc => gblk_apply V c t cc) r f (fun k => ?_)
  exact (ld_rowsK (iblk0 V c 2 t) inb_S3072x1024_S1024x1024_1024_0 f k).trans (wblk_apply V c t (XCov.oK f) k)

/-- The v tile of point t, as it is stored into the v block, at (0, r, f). -/
theorem vTile (c : Dev nD) (t : Fin cfg0.N) (r : Fin 512) (f : Fin 1024) (hb : t.val / 8 < 4) (htl : t.val % 8 < 8) :
    k0_pay6 (F := Ideal) (iblk0 V c 0 t) (iblk0 V c 1 t) (View.ld (Val := Elt Ideal) (iblk0 V c 2 t) (Rect.unit (s := S3072x1024) ![2048, 0] S1024x1024.size inb_S3072x1024_S1024x1024_2048_0)) (ix3 (0 : Fin 1) r f)
      = XCov.proj (V c main_v0) (XCov.xnK (V c main_arg0) (V c main_arg1)) ⟨t.val / 8, hb⟩ (XCov.tok ⟨t.val % 8, htl⟩ r) (XCov.oV f) := by
  refine (pay6_apply (iblk0 V c 0 t) (iblk0 V c 1 t) (View.ld (Val := Elt Ideal) (iblk0 V c 2 t) (Rect.unit (s := S3072x1024) ![2048, 0] S1024x1024.size inb_S3072x1024_S1024x1024_2048_0)) (0 : Fin 1) r f).trans ?_
  refine tile_eq (iblk0 V c 0 t) (iblk0 V c 1 t) _ (V c main_arg0) (V c main_arg1) (V c main_v0) ⟨t.val / 8, hb⟩ ⟨t.val % 8, htl⟩ (XCov.oV f)
    (fun r cc => xblk_apply V c t hb htl r cc) (fun cc => gblk_apply V c t cc) r f (fun k => ?_)
  exact (ld_rowsV (iblk0 V c 2 t) inb_S3072x1024_S1024x1024_2048_0 f k).trans (wblk_apply V c t (XCov.oV f) k)

end Cert.KernelIdeal.R0

end
-- ==== Proof.R0Val.lean ====
/- What the first call's write-backs leave in the v array: every block the projection of its tile's normalised rows. -/
import proofs.«430979_j3951369912721_3_alg».proof.Proof.Gen.KernelIdeal.Frame
import proofs.«430979_j3951369912721_3_alg».proof.Proof.Spec
import proofs.«430979_j3951369912721_3_alg».proof.Proof.Covers
import proofs.«430979_j3951369912721_3_alg».proof.Proof.R0Tile
import Idealize.ShloMosaic.Lib.Pipeline.Value
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Val3

theorem hz3 : (![0, 0, 0] : Fin 3 → Nat) = fun _ => 0 := funext fun a => by fin_cases a <;> rfl
theorem hz1 : (![0] : Fin 1 → Nat) = fun _ => 0 := funext fun a => by fin_cases a; rfl

/-- At a first tile, the v block left by the body is the projection payload of the x block, the gain and rows 2048..3071 of the weights. -/
theorem out_A_3 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S3072x1024 .bf16) (harg4 : arg4.IsWhole) (arg5 : Memref sig .tc .vmem S1x512x1024 .bf16) (harg5 : arg5.IsWhole) (arg6 : Memref sig .tc .vmem S1x8x128x128 .f32) (harg6 : arg6.IsWhole) (arg7 : Memref sig .tc .vmem S1x2x1024 .f32) (harg7 : arg7.IsWhole) (hc0 : cond0_0 i)
    (x0 : Vec Ideal S1x512x1024 .f32) (x1 : Vec Ideal S1024 .f32) (x2 : Vec Ideal S3072x1024 .bf16) :
    out0_A_3 (F := Ideal) c i arg2 harg2 arg3 harg3 arg4 harg4 arg5 harg5 arg6 harg6 arg7 harg7 hc0 x0 x1 x2
      = k0_pay6 (F := Ideal) x0 x1 (View.ld (Val := Elt Ideal) x2 (Rect.unit (s := S3072x1024) ![2048, 0] S1024x1024.size inb_S3072x1024_S1024x1024_2048_0)) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  rw [View.canon_unit_zero hz3]
  simp only [View.readAt_eq_ld, harg2.read_unread, harg3.read_unread, harg4.read_unread, View.ld_unit_zero (S := S1x512x1024) hz3, View.ld_unit_zero (S := S1024) hz1]

/-- At a later tile likewise: the v block does not depend on what the sums held before. -/
theorem out_B_3 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S3072x1024 .bf16) (harg4 : arg4.IsWhole) (arg5 : Memref sig .tc .vmem S1x512x1024 .bf16) (harg5 : arg5.IsWhole) (arg6 : Memref sig .tc .vmem S1x8x128x128 .f32) (harg6 : arg6.IsWhole) (arg7 : Memref sig .tc .vmem S1x2x1024 .f32) (harg7 : arg7.IsWhole) (hc0 : ¬cond0_0 i)
    (x0 : Vec Ideal S1x512x1024 .f32) (x1 : Vec Ideal S1024 .f32) (x2 : Vec Ideal S3072x1024 .bf16) (xo4 : Vec Ideal S1x8x128x128 .f32) (xo5 : Vec Ideal S1x2x1024 .f32) :
    out0_B_3 (F := Ideal) c i arg2 harg2 arg3 harg3 arg4 harg4 arg5 harg5 arg6 harg6 arg7 harg7 hc0 x0 x1 x2 xo4 xo5
      = k0_pay6 (F := Ideal) x0 x1 (View.ld (Val := Elt Ideal) x2 (Rect.unit (s := S3072x1024) ![2048, 0] S1024x1024.size inb_S3072x1024_S1024x1024_2048_0)) := by
  unfold out0_B_3
  rw [View.read_writes_eq_canon _ _ _ (cover0_B_3 c i arg2 harg2 arg3 harg3 arg4 harg4 arg5 harg5 arg6 harg6 arg7 harg7 hc0 x0 x1 x2 xo4 xo5)]
  unfold kernelRun0_B
  dsimp only
  rw [View.canon_unit_zero hz3]
  simp only [View.readAt_eq_ld, harg2.read_unread, harg3.read_unread, harg4.read_unread, View.ld_unit_zero (S := S1x512x1024) hz3, View.ld_unit_zero (S := S1024) hz1]

/-- What a point leaves in the v block is the projection payload of its input blocks, whichever case the point is in. -/
theorem vPiece (c : Dev nD) (t : Fin cfg0.N) :
    (outsAt0 (F := Ideal) V c t.val t.isLt).1
      = k0_pay6 (F := Ideal) (iblk0 V c 0 t) (iblk0 V c 1 t) (View.ld (Val := Elt Ideal) (iblk0 V c 2 t) (Rect.unit (s := S3072x1024) ![2048, 0] S1024x1024.size inb_S3072x1024_S1024x1024_2048_0)) := by
  by_cases h0 : t.val % 8 = 0
  · rw [outsAt0_A V c t h0]; dsimp only; exact out_A_3 ..
  · rw [outsAt0_B V c t h0]; dsimp only; exact out_B_3 ..

/-- What point t writes back is block t of the array of projected v features: batch t / 8, tokens of tile t % 8. -/
theorem flushed3_eq (c : Dev nD) (t : Fin cfg0.N) :
    (dat0 (F := Ideal) V c).flushed 3 t
      = ((cfg0.win 3).blk t).view.read (Elt Ideal) (XCov.vKarr (V c main_arg0) (V c main_arg1) (V c main_v0)) := by
  show (cfg0.win 3).cut (grid0.coords t) ((dat0 (F := Ideal) V c).after 3 t) = _
  rw [after0_3, vPiece]
  have hN : t.val < 32 := t.isLt.trans_eq N_0
  have hb : t.val / 8 < 4 := by omega
  have htl : t.val % 8 < 8 := by omega
  obtain ⟨e0, e1, e2, -⟩ := Covers.idx0 t
  funext y
  obtain ⟨u, r, f, rfl⟩ : ∃ (u : Fin 1) (r : Fin 512) (f : Fin 1024), y = ix3 u r f := ⟨y 0, y 1, y 2, eq_ix3 y⟩
  obtain rfl : u = 0 := Subsingleton.elim _ _
  have hemb : ((cfg0.win 3).blk t).view.emb (ix3 (0 : Fin 1) r f) = ix3 (⟨t.val / 8, hb⟩ : Fin 4) (XCov.tok ⟨t.val % 8, htl⟩ r) f := by
    funext a; apply Fin.ext
    match a with
    | ⟨0, _⟩ => show win0_3.index t (0 : Fin 3) * 1 + 1 * 0 = t.val / 8; omega
    | ⟨1, _⟩ => show win0_3.index t (1 : Fin 3) * 512 + 1 * r.val = t.val % 8 * 512 + r.val; omega
    | ⟨2, _⟩ => show win0_3.index t (2 : Fin 3) * 1024 + 1 * f.val = f.val; omega
  show k0_pay6 (F := Ideal) (iblk0 V c 0 t) (iblk0 V c 1 t) (View.ld (Val := Elt Ideal) (iblk0 V c 2 t) (Rect.unit (s := S3072x1024) ![2048, 0] S1024x1024.size inb_S3072x1024_S1024x1024_2048_0)) (ix3 (0 : Fin 1) r f)
    = XCov.vKarr (V c main_arg0) (V c main_arg1) (V c main_v0) (((cfg0.win 3).blk t).view.emb (ix3 (0 : Fin 1) r f))
  rw [vTile V c t r f hb htl, hemb]
  rfl

end Val3

/-- The v array after the first call: every entry the projection of its token's normalised row. -/
theorem arr3 (c : Dev nD) : (dat0 (F := Ideal) V c).arrAt 3 cfg0.N = XCov.vKarr (V c main_arg0) (V c main_arg1) (V c main_v0) :=
  (dat0 (F := Ideal) V c).arrAt_eq_of_cover 3 (XCov.vKarr (V c main_arg0) (V c main_arg1) (V c main_v0))
    (fun t _ => Val3.flushed3_eq V c t) (Covers.cover0_3 c)

end Cert.KernelIdeal.R0

end
-- ==== Proof.R0Gram.lean ====
/- What the first call's write-backs leave in the array of head-pair inner products: the sum over the eight tiles. -/
import proofs.«430979_j3951369912721_3_alg».proof.Proof.Gen.KernelIdeal.Frame
import proofs.«430979_j3951369912721_3_alg».proof.Proof.Spec
import proofs.«430979_j3951369912721_3_alg».proof.Proof.Covers
import proofs.«430979_j3951369912721_3_alg».proof.Proof.R0Tile
import Idealize.ShloMosaic.Lib.Pipeline.Value
import Idealize.ShloMosaic.Lib.Pipeline.CanonAppend
import Idealize.ShloMosaic.Lib.ValueLayout
import Idealize.ShloMosaic.Lib.Tactic
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat)

namespace Gram

/-! ## The product of a head pair's q columns with its k columns

The body takes, for each of the eight head pairs, the 128 q columns and the 128 k columns of the pair out of the
[512, 1024] tiles, and multiplies them contracting the 512 tokens: entry (i, j) of the [128, 128] result is the sum over
the tokens r of q(r, 128 hp + i) k(r, 128 hp + j). -/
/-- The operands' indices at result index (i, j) and contraction position k: (k, i) on the left, (k, j) on the right,
    coordinate by coordinate. -/
theorem lhs_gram_0 (i : S128x128.Idx) (q : dot_S512x128_S512x128_S128x128_0_0_1_1_n_n.contr.Idx) :
    (dot_S512x128_S512x128_S128x128_0_0_1_1_n_n.lhsIdx i q 0).val = (q ⟨0, by decide⟩).val :=
  dot_S512x128_S512x128_S128x128_0_0_1_1_n_n.lhsIdx_val_of_single rfl i q
theorem lhs_gram_1 (i : S128x128.Idx) (q : dot_S512x128_S512x128_S128x128_0_0_1_1_n_n.contr.Idx) :
    (dot_S512x128_S512x128_S128x128_0_0_1_1_n_n.lhsIdx i q 1).val = (i 0).val := by
  unfold DotDims.lhsIdx
  rw [dif_neg (show ¬(1 : Fin S512x128.rank) ∈ dot_S512x128_S512x128_S128x128_0_0_1_1_n_n.lhsBatch by decide), dif_pos (show (1 : Fin S512x128.rank) ∈ dot_S512x128_S512x128_S128x128_0_0_1_1_n_n.lhsNonContracting by decide)]
  rfl
theorem rhs_gram_0 (i : S128x128.Idx) (q : dot_S512x128_S512x128_S128x128_0_0_1_1_n_n.contr.Idx) :
    (dot_S512x128_S512x128_S128x128_0_0_1_1_n_n.rhsIdx i q 0).val = (q ⟨0, by decide⟩).val :=
  dot_S512x128_S512x128_S128x128_0_0_1_1_n_n.rhsIdx_val_of_single rfl i q
theorem rhs_gram_1 (i : S128x128.Idx) (q : dot_S512x128_S512x128_S128x128_0_0_1_1_n_n.contr.Idx) :
    (dot_S512x128_S512x128_S128x128_0_0_1_1_n_n.rhsIdx i q 1).val = (i 1).val := by
  unfold DotDims.rhsIdx
  rw [dif_neg (show ¬(1 : Fin S512x128.rank) ∈ dot_S512x128_S512x128_S128x128_0_0_1_1_n_n.rhsBatch by decide), dif_pos (show (1 : Fin S512x128.rank) ∈ dot_S512x128_S512x128_S128x128_0_0_1_1_n_n.rhsNonContracting by decide)]
  rfl

/-- The product of two [512,128] slices contracted over their 512 rows, into the zero accumulator: entry (i, j) is the
    sum over the rows of the i-th column of the first times the j-th column of the second. -/
theorem gram_mm (A B : FVec Ideal S512x128 .bf16) (i j : Fin 128) :
    matmul dot_S512x128_S512x128_S128x128_0_0_1_1_n_n none A B (constant (F := Ideal) S128x128 .f32 0x00000000#32) (ix2 i j)
      = ∑ r : Fin 512, A (ix2 r i) * B (ix2 r j) := by
  simp only [matmul]
  rw [Ideal.matmul_constant_zero_apply, ← Equiv.sum_comp (ValueIdx.contrEquiv1 dot_S512x128_S512x128_S128x128_0_0_1_1_n_n 512 rfl rfl).symm]
  refine Finset.sum_congr rfl fun k _ => ?_
  have hk := ValueIdx.contrEquiv1_symm_val dot_S512x128_S512x128_S128x128_0_0_1_1_n_n 512 rfl rfl k
  have el : dot_S512x128_S512x128_S128x128_0_0_1_1_n_n.lhsIdx (ix2 i j) ((ValueIdx.contrEquiv1 dot_S512x128_S512x128_S128x128_0_0_1_1_n_n 512 rfl rfl).symm k) = ix2 k i := funext fun a => Fin.ext (by
    match a with
    | ⟨0, _⟩ => exact (lhs_gram_0 _ _).trans hk
    | ⟨1, _⟩ => exact lhs_gram_1 _ _)
  have er : dot_S512x128_S512x128_S128x128_0_0_1_1_n_n.rhsIdx (ix2 i j) ((ValueIdx.contrEquiv1 dot_S512x128_S512x128_S128x128_0_0_1_1_n_n 512 rfl rfl).symm k) = ix2 k j := funext fun a => Fin.ext (by
    match a with
    | ⟨0, _⟩ => exact (rhs_gram_0 _ _).trans hk
    | ⟨1, _⟩ => exact rhs_gram_1 _ _)
  rw [el, er]

/-! ## One head pair's update, read at an index -/

/-- The inner products over the 512 tokens of a tile of q-feature `a` and k-feature `b` of head pair `hp`. -/
def QK (Q K : FVec Ideal S512x1024 .f32) (hp : Fin 8) (a b : Fin 128) : EReal :=
  ∑ r : Fin 512, Q (ix2 r (XCov.featP hp a)) * K (ix2 r (XCov.featP hp b))

/-- Column `o + a` of the tile, with `o = 128 hp`, is feature `a` of head pair `hp`. -/
theorem featP_eq (hp : Fin 8) (a : Fin 128) (o : ℕ) (ho : o = hp.val * 128) (h : o + a.val < 1024) :
    (⟨o + a.val, h⟩ : Fin 1024) = XCov.featP hp a := Fin.ext (by simp [XCov.featP, ho])

/-- One head pair's update: the previous [1,1,128,128] contents plus the product of the pair's q columns (transposed)
    with its k columns, both cut from the tile at column offset `o`. -/
theorem pair_core (o : ℕ) (hp : Fin 8) (ho : o = hp.val * 128) (hs : S512x1024.Slices ![0, o] S512x128)
    (Q K : FVec Ideal S512x1024 .f32) (prev : Vec Ideal S1x1x128x128 .f32)
    (hc1 : S1x1x128x128.ShapeCasts S128x128) (hc2 : S128x128.ShapeCasts S1x1x128x128) (hb : FTy.bits .bf16 < FTy.bits .f32)
    (z0 z1 : Fin 1) (a b : Fin 128) :
    shapeCast S1x1x128x128 (addf (shapeCast S128x128 prev hc1)
        (matmul dot_S512x128_S512x128_S128x128_0_0_1_1_n_n none (truncf .bf16 (extractStridedSlice S512x128 ![0, o] Q hs) hb)
          (truncf .bf16 (extractStridedSlice S512x128 ![0, o] K hs) hb) (constant (F := Ideal) S128x128 .f32 0x00000000#32))) hc2 (ix4 z0 z1 a b)
      = prev (ix4 z0 z1 a b) + QK Q K hp a b := by
  have hz0 : z0.val = 0 := by have := z0.isLt; omega
  have hz1 : z1.val = 0 := by have := z1.isLt; omega
  have hrm : (S128x128.rowMajor (ix2 a b)).val = (S1x1x128x128.rowMajor (ix4 z0 z1 a b)).val := by
    rw [Shape.rowMajor_val_two, Shape.rowMajor_val_four]
    show a.val * 128 + b.val = ((z0.val * 1 + z1.val) * 128 + a.val) * 128 + b.val
    rw [hz0, hz1]; omega
  refine (shapeCast_apply _ hc2 (ix4 z0 z1 a b) (ix2 a b) hrm).trans ?_
  refine (addf_apply _ _ (ix2 a b)).trans ?_
  refine congrArg₂ (· + ·) (shapeCast_apply prev hc1 (ix2 a b) (ix4 z0 z1 a b) hrm.symm) ?_
  refine (gram_mm _ _ a b).trans ?_
  unfold QK
  refine Finset.sum_congr rfl fun r _ => ?_
  refine congrArg₂ (· * ·) ?_ ?_
  · refine (truncf_apply _ hb (ix2 r a)).trans ((slice2_axis1_eq o Q hs r a).trans ?_)
    exact congrArg (fun f => Q (ix2 r f)) (featP_eq hp a o ho _)
  · refine (truncf_apply _ hb (ix2 r b)).trans ((slice2_axis1_eq o K hs r b).trans ?_)
    exact congrArg (fun f => K (ix2 r f)) (featP_eq hp b o ho _)

/-- The eight updates of the body are that one, at the column offsets 0, 128, …, 896 of the pairs 0, 1, …, 7. -/
theorem pay_pair0 (Q K : FVec Ideal S512x1024 .f32) (prev : Vec Ideal S1x1x128x128 .f32) (z0 z1 : Fin 1) (a b : Fin 128) :
    k0_pay11 Q K prev (ix4 z0 z1 a b) = prev (ix4 z0 z1 a b) + QK Q K 0 a b := by
  unfold k0_pay11
  exact pair_core 0 0 rfl _ Q K prev _ _ _ z0 z1 a b
theorem pay_pair1 (Q K : FVec Ideal S512x1024 .f32) (prev : Vec Ideal S1x1x128x128 .f32) (z0 z1 : Fin 1) (a b : Fin 128) :
    k0_pay14 (k0_pay12 Q) (k0_pay13 K) prev (ix4 z0 z1 a b) = prev (ix4 z0 z1 a b) + QK Q K 1 a b := by
  unfold k0_pay14 k0_pay12 k0_pay13
  exact pair_core 128 1 rfl _ Q K prev _ _ _ z0 z1 a b
theorem pay_pair2 (Q K : FVec Ideal S512x1024 .f32) (prev : Vec Ideal S1x1x128x128 .f32) (z0 z1 : Fin 1) (a b : Fin 128) :
    k0_pay15 Q K prev (ix4 z0 z1 a b) = prev (ix4 z0 z1 a b) + QK Q K 2 a b := by
  unfold k0_pay15
  exact pair_core 256 2 rfl _ Q K prev _ _ _ z0 z1 a b
theorem pay_pair3 (Q K : FVec Ideal S512x1024 .f32) (prev : Vec Ideal S1x1x128x128 .f32) (z0 z1 : Fin 1) (a b : Fin 128) :
    k0_pay16 Q K prev (ix4 z0 z1 a b) = prev (ix4 z0 z1 a b) + QK Q K 3 a b := by
  unfold k0_pay16
  exact pair_core 384 3 rfl _ Q K prev _ _ _ z0 z1 a b
theorem pay_pair4 (Q K : FVec Ideal S512x1024 .f32) (prev : Vec Ideal S1x1x128x128 .f32) (z0 z1 : Fin 1) (a b : Fin 128) :
    k0_pay18 K (k0_pay17 Q) prev (ix4 z0 z1 a b) = prev (ix4 z0 z1 a b) + QK Q K 4 a b := by
  unfold k0_pay18 k0_pay17
  exact pair_core 512 4 rfl _ Q K prev _ _ _ z0 z1 a b
theorem pay_pair5 (Q K : FVec Ideal S512x1024 .f32) (prev : Vec Ideal S1x1x128x128 .f32) (z0 z1 : Fin 1) (a b : Fin 128) :
    k0_pay19 Q K prev (ix4 z0 z1 a b) = prev (ix4 z0 z1 a b) + QK Q K 5 a b := by
  unfold k0_pay19
  exact pair_core 640 5 rfl _ Q K prev _ _ _ z0 z1 a b
theorem pay_pair6 (Q K : FVec Ideal S512x1024 .f32) (prev : Vec Ideal S1x1x128x128 .f32) (z0 z1 : Fin 1) (a b : Fin 128) :
    k0_pay1 (k0_pay20 Q K prev) (ix4 z0 z1 a b) = prev (ix4 z0 z1 a b) + QK Q K 6 a b := by
  unfold k0_pay1 k0_pay20
  exact pair_core 768 6 rfl _ Q K prev _ _ _ z0 z1 a b
theorem pay_pair7 (Q K : FVec Ideal S512x1024 .f32) (prev : Vec Ideal S1x1x128x128 .f32) (z0 z1 : Fin 1) (a b : Fin 128) :
    k0_pay2 Q K prev (ix4 z0 z1 a b) = prev (ix4 z0 z1 a b) + QK Q K 7 a b := by
  unfold k0_pay2
  exact pair_core 896 7 rfl _ Q K prev _ _ _ z0 z1 a b

/-! ## The eight stores read back as one function -/

/-- Zero offsets, as the body spells them. -/
theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- The inner products depend on the pair and the two features through their numbers only. -/
theorem QK_congr (Q K : FVec Ideal S512x1024 .f32) {hp hp' : Fin 8} {a a' b b' : Fin 128} (h1 : hp.val = hp'.val)
    (h2 : a.val = a'.val) (h3 : b.val = b'.val) : QK Q K hp a b = QK Q K hp' a' b' := by
  obtain rfl := Fin.ext h1; obtain rfl := Fin.ext h2; obtain rfl := Fin.ext h3; rfl

/-- The eight stores of the head pairs' updates over contents `prev` of the [1,8,128,128] block (last store first),
    followed by any earlier stores `M`. -/
def gramPieces (Q K : FVec Ideal S512x1024 .f32) (prev : Vec Ideal S1x8x128x128 .f32)
    (M : List (View.Piece (Elt Ideal) S1x8x128x128 .f32)) : List (View.Piece (Elt Ideal) S1x8x128x128 .f32) :=
  ⟨Rect.unit ![0, 7, 0, 0] ![1, 1, 128, 128] inb_S1x8x128x128_S1x1x128x128_0_7_0_0, k0_pay2 Q K (View.ld prev (Rect.unit ![0, 7, 0, 0] ![1, 1, 128, 128] inb_S1x8x128x128_S1x1x128x128_0_7_0_0))⟩
  :: ⟨Rect.unit ![0, 6, 0, 0] ![1, 1, 128, 128] inb_S1x8x128x128_S1x1x128x128_0_6_0_0, (fun v => k0_pay1 (k0_pay20 Q K v)) (View.ld prev (Rect.unit ![0, 6, 0, 0] ![1, 1, 128, 128] inb_S1x8x128x128_S1x1x128x128_0_6_0_0))⟩
  :: ⟨Rect.unit ![0, 5, 0, 0] ![1, 1, 128, 128] inb_S1x8x128x128_S1x1x128x128_0_5_0_0, k0_pay19 Q K (View.ld prev (Rect.unit ![0, 5, 0, 0] ![1, 1, 128, 128] inb_S1x8x128x128_S1x1x128x128_0_5_0_0))⟩
  :: ⟨Rect.unit ![0, 4, 0, 0] ![1, 1, 128, 128] inb_S1x8x128x128_S1x1x128x128_0_4_0_0, k0_pay18 K (k0_pay17 Q) (View.ld prev (Rect.unit ![0, 4, 0, 0] ![1, 1, 128, 128] inb_S1x8x128x128_S1x1x128x128_0_4_0_0))⟩
  :: ⟨Rect.unit ![0, 3, 0, 0] ![1, 1, 128, 128] inb_S1x8x128x128_S1x1x128x128_0_3_0_0, k0_pay16 Q K (View.ld prev (Rect.unit ![0, 3, 0, 0] ![1, 1, 128, 128] inb_S1x8x128x128_S1x1x128x128_0_3_0_0))⟩
  :: ⟨Rect.unit ![0, 2, 0, 0] ![1, 1, 128, 128] inb_S1x8x128x128_S1x1x128x128_0_2_0_0, k0_pay15 Q K (View.ld prev (Rect.unit ![0, 2, 0, 0] ![1, 1, 128, 128] inb_S1x8x128x128_S1x1x128x128_0_2_0_0))⟩
  :: ⟨Rect.unit ![0, 1, 0, 0] ![1, 1, 128, 128] inb_S1x8x128x128_S1x1x128x128_0_1_0_0, k0_pay14 (k0_pay12 Q) (k0_pay13 K) (View.ld prev (Rect.unit ![0, 1, 0, 0] ![1, 1, 128, 128] inb_S1x8x128x128_S1x1x128x128_0_1_0_0))⟩
  :: ⟨Rect.unit ![0, 0, 0, 0] ![1, 1, 128, 128] inb_S1x8x128x128_S1x1x128x128_0_0_0_0, k0_pay11 Q K (View.ld prev (Rect.unit ![0, 0, 0, 0] ![1, 1, 128, 128] inb_S1x8x128x128_S1x1x128x128_0_0_0_0))⟩
  :: M

/-- What they leave at pair `hp`, entry (a, b): the previous entry plus the tile's inner products. -/
theorem gramPieces_canon (Q K : FVec Ideal S512x1024 .f32) (prev : Vec Ideal S1x8x128x128 .f32)
    (M : List (View.Piece (Elt Ideal) S1x8x128x128 .f32)) (z : Fin 1) (hp : Fin 8) (a b : Fin 128) :
    View.canon (gramPieces Q K prev M) (ix4 z hp a b) = prev (ix4 z hp a b) + QK Q K hp a b := by
  unfold gramPieces
  refine View.canon_append_of_pieces (fun y : S1x8x128x128.Idx => prev y + QK Q K (y 1) (y 2) (y 3)) M
    [⟨Rect.unit ![0, 7, 0, 0] ![1, 1, 128, 128] inb_S1x8x128x128_S1x1x128x128_0_7_0_0, k0_pay2 Q K (View.ld prev (Rect.unit ![0, 7, 0, 0] ![1, 1, 128, 128] inb_S1x8x128x128_S1x1x128x128_0_7_0_0))⟩,
     ⟨Rect.unit ![0, 6, 0, 0] ![1, 1, 128, 128] inb_S1x8x128x128_S1x1x128x128_0_6_0_0, (fun v => k0_pay1 (k0_pay20 Q K v)) (View.ld prev (Rect.unit ![0, 6, 0, 0] ![1, 1, 128, 128] inb_S1x8x128x128_S1x1x128x128_0_6_0_0))⟩,
     ⟨Rect.unit ![0, 5, 0, 0] ![1, 1, 128, 128] inb_S1x8x128x128_S1x1x128x128_0_5_0_0, k0_pay19 Q K (View.ld prev (Rect.unit ![0, 5, 0, 0] ![1, 1, 128, 128] inb_S1x8x128x128_S1x1x128x128_0_5_0_0))⟩,
     ⟨Rect.unit ![0, 4, 0, 0] ![1, 1, 128, 128] inb_S1x8x128x128_S1x1x128x128_0_4_0_0, k0_pay18 K (k0_pay17 Q) (View.ld prev (Rect.unit ![0, 4, 0, 0] ![1, 1, 128, 128] inb_S1x8x128x128_S1x1x128x128_0_4_0_0))⟩,
     ⟨Rect.unit ![0, 3, 0, 0] ![1, 1, 128, 128] inb_S1x8x128x128_S1x1x128x128_0_3_0_0, k0_pay16 Q K (View.ld prev (Rect.unit ![0, 3, 0, 0] ![1, 1, 128, 128] inb_S1x8x128x128_S1x1x128x128_0_3_0_0))⟩,
     ⟨Rect.unit ![0, 2, 0, 0] ![1, 1, 128, 128] inb_S1x8x128x128_S1x1x128x128_0_2_0_0, k0_pay15 Q K (View.ld prev (Rect.unit ![0, 2, 0, 0] ![1, 1, 128, 128] inb_S1x8x128x128_S1x1x128x128_0_2_0_0))⟩,
     ⟨Rect.unit ![0, 1, 0, 0] ![1, 1, 128, 128] inb_S1x8x128x128_S1x1x128x128_0_1_0_0, k0_pay14 (k0_pay12 Q) (k0_pay13 K) (View.ld prev (Rect.unit ![0, 1, 0, 0] ![1, 1, 128, 128] inb_S1x8x128x128_S1x1x128x128_0_1_0_0))⟩,
     ⟨Rect.unit ![0, 0, 0, 0] ![1, 1, 128, 128] inb_S1x8x128x128_S1x1x128x128_0_0_0_0, k0_pay11 Q K (View.ld prev (Rect.unit ![0, 0, 0, 0] ![1, 1, 128, 128] inb_S1x8x128x128_S1x1x128x128_0_0_0_0))⟩] ?_ (ix4 z hp a b) ?_
  · intro p hp'
    simp only [List.mem_cons, List.not_mem_nil, or_false] at hp'
    rcases hp' with rfl | rfl | rfl | rfl | rfl | rfl | rfl | rfl
    all_goals
      intro (x : S1x1x128x128.Idx)
      obtain ⟨z0, z1, a', b', rfl⟩ : ∃ (z0 z1 : Fin 1) (a' b' : Fin 128), x = ix4 z0 z1 a' b' := ⟨x 0, x 1, x 2, x 3, eq_ix4 x⟩
      have hz1' : z1.val = 0 := by have := z1.isLt; omega
    · refine (pay_pair7 Q K _ z0 z1 a' b').trans (congrArg₂ (· + ·) rfl (QK_congr Q K ?_ ?_ ?_))
      · show 7 = 7 + 1 * z1.val; omega
      · show a'.val = 0 + 1 * a'.val; omega
      · show b'.val = 0 + 1 * b'.val; omega
    · refine (pay_pair6 Q K _ z0 z1 a' b').trans (congrArg₂ (· + ·) rfl (QK_congr Q K ?_ ?_ ?_))
      · show 6 = 6 + 1 * z1.val; omega
      · show a'.val = 0 + 1 * a'.val; omega
      · show b'.val = 0 + 1 * b'.val; omega
    · refine (pay_pair5 Q K _ z0 z1 a' b').trans (congrArg₂ (· + ·) rfl (QK_congr Q K ?_ ?_ ?_))
      · show 5 = 5 + 1 * z1.val; omega
      · show a'.val = 0 + 1 * a'.val; omega
      · show b'.val = 0 + 1 * b'.val; omega
    · refine (pay_pair4 Q K _ z0 z1 a' b').trans (congrArg₂ (· + ·) rfl (QK_congr Q K ?_ ?_ ?_))
      · show 4 = 4 + 1 * z1.val; omega
      · show a'.val = 0 + 1 * a'.val; omega
      · show b'.val = 0 + 1 * b'.val; omega
    · refine (pay_pair3 Q K _ z0 z1 a' b').trans (congrArg₂ (· + ·) rfl (QK_congr Q K ?_ ?_ ?_))
      · show 3 = 3 + 1 * z1.val; omega
      · show a'.val = 0 + 1 * a'.val; omega
      · show b'.val = 0 + 1 * b'.val; omega
    · refine (pay_pair2 Q K _ z0 z1 a' b').trans (congrArg₂ (· + ·) rfl (QK_congr Q K ?_ ?_ ?_))
      · show 2 = 2 + 1 * z1.val; omega
      · show a'.val = 0 + 1 * a'.val; omega
      · show b'.val = 0 + 1 * b'.val; omega
    · refine (pay_pair1 Q K _ z0 z1 a' b').trans (congrArg₂ (· + ·) rfl (QK_congr Q K ?_ ?_ ?_))
      · show 1 = 1 + 1 * z1.val; omega
      · show a'.val = 0 + 1 * a'.val; omega
      · show b'.val = 0 + 1 * b'.val; omega
    · refine (pay_pair0 Q K _ z0 z1 a' b').trans (congrArg₂ (· + ·) rfl (QK_congr Q K ?_ ?_ ?_))
      · show 0 = 0 + 1 * z1.val; omega
      · show a'.val = 0 + 1 * a'.val; omega
      · show b'.val = 0 + 1 * b'.val; omega
  · exact View.cover_of_tiledL (s := S1x8x128x128) _ S1x1x128x128.size (by sl_kernel_rfl) _

/-! ## What a point leaves in the block, case by case -/

/-- A load of a unit-stride box after a store whose box is separated from it on axis 1 reads what the earlier stores left. -/
theorem readCov_skip_axis1 {sig' : RefSig} {κ : Kind} {sp : Space} (v : View sig' κ sp S1x8x128x128 .f32)
    (off sz : Fin 4 → ℕ) (inb : ∀ a, off a + sz a ≤ S1x8x128x128.size a)
    (w : (Rect.unit (s := S1x8x128x128) off sz inb).shape.Idx → Elt Ideal .f32)
    (L : List (View.Piece (Elt Ideal) S1x8x128x128 .f32))
    (offk szk : Fin 4 → ℕ) (inbk : ∀ a, offk a + szk a ≤ S1x8x128x128.size a)
    (h : off 1 + sz 1 ≤ offk 1 ∨ offk 1 + szk 1 ≤ off 1) :
    v.readCov (⟨Rect.unit off sz inb, w⟩ :: L) (Rect.unit offk szk inbk).toLoadRect
      = v.readCov L (Rect.unit offk szk inbk).toLoadRect :=
  View.readCov_cons_of_disjoint v ⟨Rect.unit off sz inb, w⟩ L (Rect.unit offk szk inbk).toLoadRect (Rect.unit_disjoint (inb := inb) (inb' := inbk) 1 h)

/-- A load after ONE store of the whole block reads that store's payload through the box. -/
theorem readCov_whole {sig' : RefSig} {κ : Kind} {sp : Space} (v : View sig' κ sp S1x8x128x128 .f32)
    (off : Fin 4 → ℕ) (inb : ∀ a, off a + S1x8x128x128.size a ≤ S1x8x128x128.size a)
    (Z : S1x8x128x128.Idx → Elt Ideal .f32) (r : Rect S1x8x128x128) (h : ∀ a, off a = 0) :
    v.readCov [(⟨Rect.unit off S1x8x128x128.size inb, Z⟩ : View.Piece (Elt Ideal) S1x8x128x128 .f32)] r.toLoadRect = View.ld Z r := by
  have h' : off = fun _ => 0 := funext h
  rw [View.readCov_eq_canon_ld _ _ _ (fun y => ⟨_, List.mem_singleton_self _, View.mem_set_unit_zero h' inb y⟩),
    View.canon_unit_zero h']

/-- The q tile and the k tile of a point, from its input blocks: the normalised rows times the first and the second
    1024 rows of the projection. -/
abbrev Qt (x0 : Vec Ideal S1x512x1024 .f32) (x1 : Vec Ideal S1024 .f32) (x2 : Vec Ideal S3072x1024 .bf16) : FVec Ideal S512x1024 .f32 :=
  k0_pay4 x0 x1 (View.ld x2 (Rect.unit ![0, 0] S1024x1024.size inb_S3072x1024_S1024x1024_0_0))
abbrev Kt (x0 : Vec Ideal S1x512x1024 .f32) (x1 : Vec Ideal S1024 .f32) (x2 : Vec Ideal S3072x1024 .bf16) : FVec Ideal S512x1024 .f32 :=
  k0_pay5 x0 x1 (View.ld x2 (Rect.unit ![1024, 0] S1024x1024.size inb_S3072x1024_S1024x1024_1024_0))

set_option maxHeartbeats 400000 in
/-- A point that is not the first of its batch adds its tile's inner products to what the point before left. -/
theorem outB4_apply (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S3072x1024 .bf16) (harg4 : arg4.IsWhole) (arg5 : Memref sig .tc .vmem S1x512x1024 .bf16) (harg5 : arg5.IsWhole) (arg6 : Memref sig .tc .vmem S1x8x128x128 .f32) (harg6 : arg6.IsWhole) (arg7 : Memref sig .tc .vmem S1x2x1024 .f32) (harg7 : arg7.IsWhole) (hc0 : ¬cond0_0 i)
    (x0 : Vec Ideal S1x512x1024 .f32) (x1 : Vec Ideal S1024 .f32) (x2 : Vec Ideal S3072x1024 .bf16) (xo4 : Vec Ideal S1x8x128x128 .f32) (xo5 : Vec Ideal S1x2x1024 .f32)
    (z : Fin 1) (hp : Fin 8) (a b : Fin 128) :
    out0_B_4 (F := Ideal) c i arg2 harg2 arg3 harg3 arg4 harg4 arg5 harg5 arg6 harg6 arg7 harg7 hc0 x0 x1 x2 xo4 xo5 (ix4 z hp a b)
      = xo4 (ix4 z hp a b) + QK (Qt x0 x1 x2) (Kt x0 x1 x2) hp a b := by
  unfold out0_B_4
  rw [View.read_writes_eq_canon _ _ _ (cover0_B_4 c i arg2 harg2 arg3 harg3 arg4 harg4 arg5 harg5 arg6 harg6 arg7 harg7 hc0 x0 x1 x2 xo4 xo5)]
  unfold kernelRun0_B
  dsimp only
  sl_unfold_words
  simp only [View.readAt_eq_ld, harg2.read_unread, harg3.read_unread, harg4.read_unread, harg6.read_unread,
    View.ld_unit_zero (S := S1x512x1024) hz3, View.ld_unit_zero (S := S1024) hz1]
  exact gramPieces_canon (Qt x0 x1 x2) (Kt x0 x1 x2) xo4 [] z hp a b

set_option maxHeartbeats 1000000 in
/-- The first point of a batch resets the block to zero and then adds its tile's inner products. -/
theorem outA4_apply (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S3072x1024 .bf16) (harg4 : arg4.IsWhole) (arg5 : Memref sig .tc .vmem S1x512x1024 .bf16) (harg5 : arg5.IsWhole) (arg6 : Memref sig .tc .vmem S1x8x128x128 .f32) (harg6 : arg6.IsWhole) (arg7 : Memref sig .tc .vmem S1x2x1024 .f32) (harg7 : arg7.IsWhole) (hc0 : cond0_0 i)
    (x0 : Vec Ideal S1x512x1024 .f32) (x1 : Vec Ideal S1024 .f32) (x2 : Vec Ideal S3072x1024 .bf16)
    (z : Fin 1) (hp : Fin 8) (a b : Fin 128) :
    out0_A_4 (F := Ideal) c i arg2 harg2 arg3 harg3 arg4 harg4 arg5 harg5 arg6 harg6 arg7 harg7 hc0 x0 x1 x2 (ix4 z hp a b)
      = QK (Qt x0 x1 x2) (Kt x0 x1 x2) hp a b := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  simp (disch := decide) only [↓readCov_skip_axis1, ↓readCov_whole]
  simp only [View.readAt_eq_ld, harg2.read_unread, harg3.read_unread, harg4.read_unread,
    View.ld_unit_zero (S := S1x512x1024) hz3, View.ld_unit_zero (S := S1024) hz1]
  refine (gramPieces_canon (Qt x0 x1 x2) (Kt x0 x1 x2) (k0_pay7 (F := Ideal)) [⟨Rect.unit ![0, 0, 0, 0] S1x8x128x128.size inb_S1x8x128x128_S1x8x128x128_0_0_0_0, k0_pay7 (F := Ideal)⟩] z hp a b).trans ?_
  have h0 : k0_pay7 (F := Ideal) (ix4 z hp a b) = 0 := Ideal.ofBits_zero_f32
  rw [h0, zero_add]

/-! ## The running sum over the tiles of a batch -/

variable (V : (c : Dev nD) → (b : Ref sig .tc) → Buf (Elt Ideal) ((c : Thread nD τ).loc b))

/-- The arrays the first call reads, at their literal types. -/
abbrev xarr (c : Dev nD) : XCov.SX.Idx → EReal := V c main_arg0
abbrev garr (c : Dev nD) : XCov.SGam.Idx → EReal := V c main_arg1
abbrev warr (c : Dev nD) : XCov.SW.Idx → EReal := V c main_v0

/-- Tile `tl`'s share of the inner product of q-feature a and k-feature b' of head pair hp in batch bb (zero past the
    eighth tile, so that sums over ranges of tiles can be written). -/
def tileSum (c : Dev nD) (bb : Fin 4) (hp : Fin 8) (a b' : Fin 128) (tl : ℕ) : EReal :=
  if h : tl < 8 then
    ∑ r : Fin 512, XCov.proj (warr V c) (XCov.xnK (xarr V c) (garr V c)) bb (XCov.tok ⟨tl, h⟩ r) (XCov.oQ (XCov.featP hp a))
      * XCov.proj (warr V c) (XCov.xnK (xarr V c) (garr V c)) bb (XCov.tok ⟨tl, h⟩ r) (XCov.oK (XCov.featP hp b'))
  else 0

/-- The inner products of a point's q tile and k tile are its tile's share. -/
theorem QK_tile (c : Dev nD) (t : Fin cfg0.N) (hb : t.val / 8 < 4) (hp : Fin 8) (a b' : Fin 128) :
    QK (Qt (iblk0 V c 0 t) (iblk0 V c 1 t) (iblk0 V c 2 t)) (Kt (iblk0 V c 0 t) (iblk0 V c 1 t) (iblk0 V c 2 t)) hp a b'
      = tileSum V c ⟨t.val / 8, hb⟩ hp a b' (t.val % 8) := by
  have htl : t.val % 8 < 8 := Nat.mod_lt _ (by decide)
  unfold QK tileSum
  rw [dif_pos htl]
  refine Finset.sum_congr rfl fun r _ => ?_
  exact congrArg₂ (· * ·) (qTile V c t r _ hb htl) (kTile V c t r _ hb htl)

/-- After point n the block of head-pair products holds the sum over the tiles of n's batch up to n's tile. -/
theorem gram_inv (c : Dev nD) : ∀ (n : ℕ) (h : n < cfg0.N) (hb : n / 8 < 4) (z : Fin 1) (hp : Fin 8) (a b' : Fin 128),
    (outsAt0 V c n h).2.1 (ix4 z hp a b') = ∑ tl ∈ Finset.range (n % 8 + 1), tileSum V c ⟨n / 8, hb⟩ hp a b' tl
  | 0, h, hb, z, hp, a, b' => by
    rw [outsAt0_A V c ⟨0, h⟩ rfl]
    dsimp only
    refine (outA4_apply c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl)
      (iblk0 V c 0 ⟨0, h⟩) (iblk0 V c 1 ⟨0, h⟩) (iblk0 V c 2 ⟨0, h⟩) z hp a b').trans ?_
    rw [QK_tile V c ⟨0, h⟩ hb hp a b']
    exact (Finset.sum_range_one _).symm
  | n + 1, h, hb, z, hp, a, b' => by
    have hN : cfg0.N = 32 := N_0
    by_cases h0 : (n + 1) % 8 = 0
    · rw [outsAt0_A V c ⟨n + 1, h⟩ h0]
      dsimp only
      refine (outA4_apply c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) ((hcond0_0 ⟨n + 1, h⟩).mpr h0)
        (iblk0 V c 0 ⟨n + 1, h⟩) (iblk0 V c 1 ⟨n + 1, h⟩) (iblk0 V c 2 ⟨n + 1, h⟩) z hp a b').trans ?_
      rw [QK_tile V c ⟨n + 1, h⟩ hb hp a b']
      show tileSum V c ⟨(n + 1) / 8, hb⟩ hp a b' ((n + 1) % 8) = _
      rw [h0]
      exact (Finset.sum_range_one _).symm
    · rw [outsAt0_B V c ⟨n + 1, h⟩ h0]
      dsimp only
      have hb' : n / 8 < 4 := by omega
      refine (outB4_apply c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => h0 ((hcond0_0 ⟨n + 1, h⟩).mp hh))
        (iblk0 V c 0 ⟨n + 1, h⟩) (iblk0 V c 1 ⟨n + 1, h⟩) (iblk0 V c 2 ⟨n + 1, h⟩)
        (outsAt0 V c n (Nat.lt_of_succ_lt h)).2.1 (outsAt0 V c n (Nat.lt_of_succ_lt h)).2.2 z hp a b').trans ?_
      rw [gram_inv c n (Nat.lt_of_succ_lt h) hb' z hp a b', QK_tile V c ⟨n + 1, h⟩ hb hp a b']
      show _ + tileSum V c ⟨(n + 1) / 8, hb⟩ hp a b' ((n + 1) % 8) = _
      have e1 : (⟨n / 8, hb'⟩ : Fin 4) = ⟨(n + 1) / 8, hb⟩ := Fin.ext (by show n / 8 = (n + 1) / 8; omega)
      have e2 : n % 8 + 1 = (n + 1) % 8 := by omega
      rw [e1, e2, Finset.sum_range_succ]

/-! ## The array after the call -/

/-- The whole-array function: the block of batch bb is the sum over all eight tiles. -/
theorem gramK_eq_range (c : Dev nD) (bb : Fin 4) (hp : Fin 8) (a b' : Fin 128) :
    XCov.gramK (xarr V c) (garr V c) (warr V c) bb hp a b' = ∑ tl ∈ Finset.range 8, tileSum V c bb hp a b' tl := by
  rw [← Fin.sum_univ_eq_sum_range (fun tl => tileSum V c bb hp a b' tl) 8]
  unfold XCov.gramK
  refine Finset.sum_congr rfl fun tl _ => ?_
  unfold tileSum
  rw [dif_pos tl.isLt]

/-- What a batch's last point writes back is the batch's block of the array of sums over all tiles. -/
theorem gram_flushed (c : Dev nD) (t : Fin cfg0.N) (hf : (cfg0.win 4).flush t = true) :
    (dat0 (F := Ideal) V c).flushed 4 t
      = ((cfg0.win 4).blk t).view.read (Elt Ideal) (XCov.gramKarr (V c main_arg0) (V c main_arg1) (V c main_v0)) := by
  have hN : cfg0.N = 32 := N_0
  have h7 : t.val % 8 = 7 := (flush0_4 t).mp hf
  have hb : t.val / 8 < 4 := by have := t.isLt; omega
  obtain ⟨-, -, -, e0, e1, e2, e3, -⟩ := Covers.idx0 t
  show (cfg0.win 4).cut (grid0.coords t) ((dat0 (F := Ideal) V c).after 4 t) = _
  rw [after0_4]
  funext y
  obtain ⟨z, hp, a, b', rfl⟩ : ∃ (z : Fin 1) (hp : Fin 8) (a b' : Fin 128), y = ix4 z hp a b' := ⟨y 0, y 1, y 2, y 3, eq_ix4 y⟩
  have hz : z.val = 0 := by have := z.isLt; omega
  show (outsAt0 V c t.val t.isLt).2.1 (ix4 z hp a b') = XCov.gramKarr (xarr V c) (garr V c) (warr V c) (((cfg0.win 4).blk t).view.emb (ix4 z hp a b'))
  have hemb : ((cfg0.win 4).blk t).view.emb (ix4 z hp a b') = (ix4 (⟨t.val / 8, hb⟩ : Fin 4) hp a b' : XCov.SGram.Idx) := by
    funext ax; apply Fin.ext
    match ax with
    | ⟨0, _⟩ => show win0_4.index t (0 : Fin 4) * 1 + 1 * z.val = t.val / 8; omega
    | ⟨1, _⟩ => show win0_4.index t (1 : Fin 4) * 8 + 1 * hp.val = hp.val; omega
    | ⟨2, _⟩ => show win0_4.index t (2 : Fin 4) * 128 + 1 * a.val = a.val; omega
    | ⟨3, _⟩ => show win0_4.index t (3 : Fin 4) * 128 + 1 * b'.val = b'.val; omega
  rw [hemb, gram_inv V c t.val t.isLt hb z hp a b', h7]
  exact (gramK_eq_range V c ⟨t.val / 8, hb⟩ hp a b').symm

end Gram

variable (V : (c : Dev nD) → (b : Ref sig .tc) → Buf (Elt Ideal) ((c : Thread nD τ).loc b))

/-- Every batch's block is written back once, after its eighth tile, and the blocks cover the array: the array of head-pair
    inner products ends holding, at (b, hp, i, j), the sum over the eight tiles and their 512 tokens of q times k. -/
theorem arr4 (c : Dev nD) : (dat0 (F := Ideal) V c).arrAt 4 cfg0.N = XCov.gramKarr (V c main_arg0) (V c main_arg1) (V c main_v0) :=
  (dat0 (F := Ideal) V c).arrAt_eq_of_cover 4 (XCov.gramKarr (V c main_arg0) (V c main_arg1) (V c main_v0))
    (fun t hf => Gram.gram_flushed V c t hf) (Covers.cover0_4 c)

end Cert.KernelIdeal.R0

end
-- ==== Proof.R0Ssq.lean ====
/- What the first call's write-backs leave in the array of sums of squares: the sum over the eight tiles. -/
import proofs.«430979_j3951369912721_3_alg».proof.Proof.Gen.KernelIdeal.Frame
import proofs.«430979_j3951369912721_3_alg».proof.Proof.Spec
import proofs.«430979_j3951369912721_3_alg».proof.Proof.Covers
import proofs.«430979_j3951369912721_3_alg».proof.Proof.R0Tile
import Idealize.ShloMosaic.Lib.Pipeline.Value
import Idealize.ShloMosaic.Lib.Tactic
import Idealize.ShloMosaic.Lib.ValueIdx
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat)

namespace Ssq

/-! ## The two row payloads and the reset payload, read at an index over the extended reals -/

/-- Row store into row 0 read at lane f: the loaded row plus the sum over the 512 tokens of the squares. -/
theorem pay9_at (v25 : FVec Ideal S512x1024 .f32) (v41 : Vec Ideal S1x1x1024 .f32) (f : Fin 1024) :
    k0_pay9 (F := Ideal) v25 v41 (ix3 0 0 f) = v41 (ix3 0 0 f) + ∑ r : Fin 512, v25 (ix2 r f) * v25 (ix2 r f) := by
  unfold k0_pay9
  refine (shapeCast_addUnit_apply ![1, 1024] _ _ (ix3 0 0 f)).trans ?_
  refine congrArg₂ (· + ·) ?_ ?_
  · refine (shapeCast_dropUnit_apply ![1, 1024] v41 _ _).trans ?_
    exact congrArg v41 (funext fun a => by match a with | ⟨0, _⟩ => rfl | ⟨1, _⟩ => rfl | ⟨2, _⟩ => rfl)
  · refine (shapeCast_addUnit_apply ![1024] _ _ _).trans ?_
    refine (Ideal.multiReduction_add_single _ _ reduces_S512x1024_S1024 _ _ _).trans ?_
    refine Finset.sum_congr rfl fun r _ => ?_
    have e : Shape.Reduces.lift reduces_S512x1024_S1024 (fun a : Fin 1 => (fun a : Fin 2 => (ix3 (0 : Fin 1) (0 : Fin 1) f) a.succ) a.succ) r = ix2 r f := by
      funext a
      apply Fin.ext
      match a with
      | ⟨0, _⟩ => rfl
      | ⟨1, _⟩ => rfl
    exact congrArg (fun z => v25 z * v25 z) e

/-- Row store into row 1 read at lane f: the loaded row plus the sum over the 512 tokens of the squares. -/
theorem pay10_at (v26 : FVec Ideal S512x1024 .f32) (v47 : Vec Ideal S1x1x1024 .f32) (f : Fin 1024) :
    k0_pay10 (F := Ideal) v26 v47 (ix3 0 0 f) = v47 (ix3 0 0 f) + ∑ r : Fin 512, v26 (ix2 r f) * v26 (ix2 r f) := by
  unfold k0_pay10
  refine (shapeCast_addUnit_apply ![1, 1024] _ _ (ix3 0 0 f)).trans ?_
  refine congrArg₂ (· + ·) ?_ ?_
  · refine (shapeCast_dropUnit_apply ![1, 1024] v47 _ _).trans ?_
    exact congrArg v47 (funext fun a => by match a with | ⟨0, _⟩ => rfl | ⟨1, _⟩ => rfl | ⟨2, _⟩ => rfl)
  · refine (shapeCast_addUnit_apply ![1024] _ _ _).trans ?_
    refine (Ideal.multiReduction_add_single _ _ reduces_S512x1024_S1024 _ _ _).trans ?_
    refine Finset.sum_congr rfl fun r _ => ?_
    have e : Shape.Reduces.lift reduces_S512x1024_S1024 (fun a : Fin 1 => (fun a : Fin 2 => (ix3 (0 : Fin 1) (0 : Fin 1) f) a.succ) a.succ) r = ix2 r f := by
      funext a
      apply Fin.ext
      match a with
      | ⟨0, _⟩ => rfl
      | ⟨1, _⟩ => rfl
    exact congrArg (fun z => v26 z * v26 z) e

/-- The reset block is zero everywhere. -/
theorem pay8_at (j : S1x2x1024.Idx) : k0_pay8 (F := Ideal) j = 0 := by
  unfold k0_pay8
  refine (shapeCast_addUnit_apply ![2, 1024] _ _ j).trans ?_
  exact Ideal.ofBits_zero_f32

/-! ## A block written a row at a time: which store an index reads -/

section Rows
variable {Val : EltTy → Type} [∀ e, Nonempty (Val e)] {e : EltTy}

/-- The newest piece is row b of the [1, 2, 1024] block: at (0, b, f) the contents are its payload at (0, 0, f). -/
theorem canon_row_hit (b : Nat) (hb : b < 2) (f : Fin 1024)
    (inb : ∀ a, (![0, b, 0] : Fin 3 → Nat) a + (![1, 1, 1024] : Fin 3 → Nat) a ≤ S1x2x1024.size a)
    (w : (Rect.unit (s := S1x2x1024) ![0, b, 0] ![1, 1, 1024] inb).shape.Idx → Val e) (L : List (View.Piece Val S1x2x1024 e)) :
    View.canon ((⟨Rect.unit (s := S1x2x1024) ![0, b, 0] ![1, 1, 1024] inb, w⟩ : View.Piece Val S1x2x1024 e) :: L) (ix3 0 ⟨b, hb⟩ f)
      = w (ix3 (0 : Fin 1) (0 : Fin 1) f) := by
  have he : (Rect.unit (s := S1x2x1024) ![0, b, 0] ![1, 1, 1024] inb).emb (ix3 (0 : Fin 1) (0 : Fin 1) f) = ix3 0 ⟨b, hb⟩ f := by
    funext x; apply Fin.ext
    match x with
    | ⟨0, _⟩ => show 0 + 1 * 0 = 0; omega
    | ⟨1, _⟩ => show b + 1 * 0 = b; omega
    | ⟨2, _⟩ => show 0 + 1 * f.val = f.val; omega
  exact (congrArg (View.canon _) he.symm).trans (View.canon_cons_emb _ w L (ix3 (0 : Fin 1) (0 : Fin 1) f))

/-- The newest piece is row b': at (0, b, f) with b ≠ b' the contents are the older pieces'. -/
theorem canon_row_miss (b' : Nat) (b : Fin 2) (hne : b' ≠ b.val) (f : Fin 1024)
    (inb : ∀ a, (![0, b', 0] : Fin 3 → Nat) a + (![1, 1, 1024] : Fin 3 → Nat) a ≤ S1x2x1024.size a)
    (w : (Rect.unit (s := S1x2x1024) ![0, b', 0] ![1, 1, 1024] inb).shape.Idx → Val e) (L : List (View.Piece Val S1x2x1024 e)) :
    View.canon ((⟨Rect.unit (s := S1x2x1024) ![0, b', 0] ![1, 1, 1024] inb, w⟩ : View.Piece Val S1x2x1024 e) :: L) (ix3 0 b f)
      = View.canon L (ix3 0 b f) := by
  refine View.canon_cons_of_not_mem _ L ?_
  intro hm
  have hm' : ix3 0 b f ∈ (Rect.unit (s := S1x2x1024) ![0, b', 0] ![1, 1, 1024] inb).set := hm
  have h1 := (Rect.mem_set_unit.mp hm') (1 : Fin 3)
  have h1' : b' ≤ b.val ∧ b.val < b' + 1 := h1
  omega

end Rows

/-- Row b of the block read through its own rectangle at (0, 0, f) is the block at (0, b, f). -/
theorem idx_row (b : Nat) (hb : b < 2) (f : Fin 1024)
    (inb : ∀ a, (![0, b, 0] : Fin 3 → Nat) a + S1x1x1024.size a ≤ S1x2x1024.size a) :
    (Rect.unit (s := S1x2x1024) ![0, b, 0] S1x1x1024.size inb).idx (ix3 (0 : Fin 1) (0 : Fin 1) f) = ix3 0 ⟨b, hb⟩ f := by
  funext x; apply Fin.ext
  match x with
  | ⟨0, _⟩ => show 0 + 1 * 0 = 0; omega
  | ⟨1, _⟩ => show b + 1 * 0 = b; omega
  | ⟨2, _⟩ => show 0 + 1 * f.val = f.val; omega

/-! ## What each control case leaves in the block, as stores over the point's loads -/

section Pieces
variable {F : FTy → Type} [FloatOps F]

theorem hz3 : (![0, 0, 0] : Fin 3 → Nat) = fun _ => 0 := funext fun a => by fin_cases a <;> rfl
theorem hz1 : (![0] : Fin 1 → Nat) = fun _ => 0 := funext fun a => by fin_cases a <;> rfl

/-- A load of what the reset alone left reads the reset's payload through the load's rectangle. -/
theorem readCov_reset {sig' : RefSig} {κ : Kind} {sp : Space} (v : View sig' κ sp S1x2x1024 .f32)
    (w : S1x2x1024.Idx → Elt F .f32) (r : Rect S1x2x1024) :
    v.readCov [(⟨Rect.unit (s := S1x2x1024) ![0, 0, 0] S1x2x1024.size inb_S1x2x1024_S1x2x1024_0_0_0, w⟩ : View.Piece (Elt F) S1x2x1024 .f32)] r.toLoadRect = View.ld w r := by
  rw [View.readCov_eq_canon_ld _ _ _ (fun y => ⟨_, List.mem_singleton_self _, View.mem_set_unit_zero hz3 inb_S1x2x1024_S1x2x1024_0_0_0 y⟩),
    View.canon_unit_zero hz3]

/-- A load of row 1 passes over a store into row 0. -/
theorem readCov_row1_skip_row0 {sig' : RefSig} {κ : Kind} {sp : Space} (v : View sig' κ sp S1x2x1024 .f32)
    (w0 : (Rect.unit (s := S1x2x1024) ![0, 0, 0] S1x1x1024.size inb_S1x2x1024_S1x1x1024_0_0_0).shape.Idx → Elt F .f32) (L : List (View.Piece (Elt F) S1x2x1024 .f32)) :
    v.readCov ((⟨Rect.unit (s := S1x2x1024) ![0, 0, 0] S1x1x1024.size inb_S1x2x1024_S1x1x1024_0_0_0, w0⟩ : View.Piece (Elt F) S1x2x1024 .f32) :: L) (Rect.unit (s := S1x2x1024) ![0, 1, 0] S1x1x1024.size inb_S1x2x1024_S1x1x1024_0_1_0).toLoadRect
      = v.readCov L (Rect.unit (s := S1x2x1024) ![0, 1, 0] S1x1x1024.size inb_S1x2x1024_S1x1x1024_0_1_0).toLoadRect :=
  View.readCov_cons_of_disjoint v _ L _ (Rect.unit_disjoint (inb := inb_S1x2x1024_S1x1x1024_0_0_0) (inb' := inb_S1x2x1024_S1x1x1024_0_1_0) 1 (Or.inl (by decide)))

/-- The later points of a batch: the two row stores, each over the loaded row of what the point before left. -/
theorem outB5_eq (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S3072x1024 .bf16) (harg4 : arg4.IsWhole) (arg5 : Memref sig .tc .vmem S1x512x1024 .bf16) (harg5 : arg5.IsWhole) (arg6 : Memref sig .tc .vmem S1x8x128x128 .f32) (harg6 : arg6.IsWhole) (arg7 : Memref sig .tc .vmem S1x2x1024 .f32) (harg7 : arg7.IsWhole) (hc0 : ¬cond0_0 i)
    (x0 : Vec F S1x512x1024 .f32) (x1 : Vec F S1024 .f32) (x2 : Vec F S3072x1024 .bf16) (xo4 : Vec F S1x8x128x128 .f32) (xo5 : Vec F S1x2x1024 .f32) :
    out0_B_5 c i arg2 harg2 arg3 harg3 arg4 harg4 arg5 harg5 arg6 harg6 arg7 harg7 hc0 x0 x1 x2 xo4 xo5
      = View.canon [(⟨Rect.unit (s := S1x2x1024) ![0, 1, 0] ![1, 1, 1024] inb_S1x2x1024_S1x1x1024_0_1_0, k0_pay10 (k0_pay5 x0 x1 (View.ld (Val := Elt F) x2 (Rect.unit (s := S3072x1024) ![1024, 0] S1024x1024.size inb_S3072x1024_S1024x1024_1024_0))) (View.ld (Val := Elt F) xo5 (Rect.unit (s := S1x2x1024) ![0, 1, 0] S1x1x1024.size inb_S1x2x1024_S1x1x1024_0_1_0))⟩ : View.Piece (Elt F) S1x2x1024 .f32),
          ⟨Rect.unit (s := S1x2x1024) ![0, 0, 0] ![1, 1, 1024] inb_S1x2x1024_S1x1x1024_0_0_0, k0_pay9 (k0_pay4 x0 x1 (View.ld (Val := Elt F) x2 (Rect.unit (s := S3072x1024) ![0, 0] S1024x1024.size inb_S3072x1024_S1024x1024_0_0))) (View.ld (Val := Elt F) xo5 (Rect.unit (s := S1x2x1024) ![0, 0, 0] S1x1x1024.size inb_S1x2x1024_S1x1x1024_0_0_0))⟩] := by
  unfold out0_B_5
  rw [View.read_writes_eq_canon _ _ _ (cover0_B_5 c i arg2 harg2 arg3 harg3 arg4 harg4 arg5 harg5 arg6 harg6 arg7 harg7 hc0 x0 x1 x2 xo4 xo5)]
  unfold kernelRun0_B
  dsimp only
  sl_unfold_words
  simp only [View.readAt_eq_ld, harg2.read_unread, harg3.read_unread, harg4.read_unread, harg7.read_unread,
    View.ld_unit_zero (S := S1x512x1024) hz3, View.ld_unit_zero (S := S1024) hz1]

/-- The first point of a batch: the reset of the whole block, then the two row stores over the rows of the reset. -/
theorem outA5_eq (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S3072x1024 .bf16) (harg4 : arg4.IsWhole) (arg5 : Memref sig .tc .vmem S1x512x1024 .bf16) (harg5 : arg5.IsWhole) (arg6 : Memref sig .tc .vmem S1x8x128x128 .f32) (harg6 : arg6.IsWhole) (arg7 : Memref sig .tc .vmem S1x2x1024 .f32) (harg7 : arg7.IsWhole) (hc0 : cond0_0 i)
    (x0 : Vec F S1x512x1024 .f32) (x1 : Vec F S1024 .f32) (x2 : Vec F S3072x1024 .bf16) :
    out0_A_5 c i arg2 harg2 arg3 harg3 arg4 harg4 arg5 harg5 arg6 harg6 arg7 harg7 hc0 x0 x1 x2
      = View.canon [(⟨Rect.unit (s := S1x2x1024) ![0, 1, 0] ![1, 1, 1024] inb_S1x2x1024_S1x1x1024_0_1_0, k0_pay10 (k0_pay5 x0 x1 (View.ld (Val := Elt F) x2 (Rect.unit (s := S3072x1024) ![1024, 0] S1024x1024.size inb_S3072x1024_S1024x1024_1024_0))) (View.ld (Val := Elt F) (k0_pay8 (F := F)) (Rect.unit (s := S1x2x1024) ![0, 1, 0] S1x1x1024.size inb_S1x2x1024_S1x1x1024_0_1_0))⟩ : View.Piece (Elt F) S1x2x1024 .f32),
          ⟨Rect.unit (s := S1x2x1024) ![0, 0, 0] ![1, 1, 1024] inb_S1x2x1024_S1x1x1024_0_0_0, k0_pay9 (k0_pay4 x0 x1 (View.ld (Val := Elt F) x2 (Rect.unit (s := S3072x1024) ![0, 0] S1024x1024.size inb_S3072x1024_S1024x1024_0_0))) (View.ld (Val := Elt F) (k0_pay8 (F := F)) (Rect.unit (s := S1x2x1024) ![0, 0, 0] S1x1x1024.size inb_S1x2x1024_S1x1x1024_0_0_0))⟩,
          ⟨Rect.unit (s := S1x2x1024) ![0, 0, 0] S1x2x1024.size inb_S1x2x1024_S1x2x1024_0_0_0, k0_pay8 (F := F)⟩] := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  simp only [View.readAt_eq_ld, harg2.read_unread, harg3.read_unread, harg4.read_unread,
    View.ld_unit_zero (S := S1x512x1024) hz3, View.ld_unit_zero (S := S1024) hz1]
  rw [readCov_reset, readCov_row1_skip_row0, readCov_reset]

end Pieces

/-! ## The block after the two row stores, at an index -/

/-- The two row stores over a block holding xo, above any older stores: at (0, s, f) the block holds xo there plus
    the sum over the tile's 512 tokens of the squares of the q tile (s = 0) or the k tile (s = 1). -/
theorem rows_at (Q K : FVec Ideal S512x1024 .f32) (xo : Vec Ideal S1x2x1024 .f32)
    (L : List (View.Piece (Elt Ideal) S1x2x1024 .f32)) (s : Fin 2) (f : Fin 1024) :
    View.canon ((⟨Rect.unit (s := S1x2x1024) ![0, 1, 0] ![1, 1, 1024] inb_S1x2x1024_S1x1x1024_0_1_0, k0_pay10 K (View.ld (Val := Elt Ideal) xo (Rect.unit (s := S1x2x1024) ![0, 1, 0] S1x1x1024.size inb_S1x2x1024_S1x1x1024_0_1_0))⟩ : View.Piece (Elt Ideal) S1x2x1024 .f32)
      :: ⟨Rect.unit (s := S1x2x1024) ![0, 0, 0] ![1, 1, 1024] inb_S1x2x1024_S1x1x1024_0_0_0, k0_pay9 Q (View.ld (Val := Elt Ideal) xo (Rect.unit (s := S1x2x1024) ![0, 0, 0] S1x1x1024.size inb_S1x2x1024_S1x1x1024_0_0_0))⟩ :: L) (ix3 0 s f)
    = xo (ix3 0 s f) + ∑ r : Fin 512, (if s.val = 0 then Q else K) (ix2 r f) * (if s.val = 0 then Q else K) (ix2 r f) := by
  match s with
  | ⟨0, h⟩ =>
    refine (canon_row_miss 1 ⟨0, h⟩ Nat.one_ne_zero f _ _ _).trans ?_
    refine (canon_row_hit 0 h f _ _ _).trans ?_
    refine (pay9_at Q _ f).trans ?_
    exact congrArg₂ (· + ·) (congrArg xo (idx_row 0 h f _)) rfl
  | ⟨1, h⟩ =>
    refine (canon_row_hit 1 h f _ _ _).trans ?_
    refine (pay10_at K _ f).trans ?_
    exact congrArg₂ (· + ·) (congrArg xo (idx_row 1 h f _)) rfl

/-! ## The running sum over the points of a batch -/

section Inv
variable (V : (c : Dev nD) → (b : Ref sig .tc) → Buf (Elt Ideal) ((c : Thread nD τ).loc b))

/-- The input blocks of a point, at their literal shapes. -/
abbrev X0 (c : Dev nD) (t : Fin cfg0.N) : Vec Ideal S1x512x1024 .f32 := iblk0 V c 0 t
abbrev X1 (c : Dev nD) (t : Fin cfg0.N) : Vec Ideal S1024 .f32 := iblk0 V c 1 t
abbrev X2 (c : Dev nD) (t : Fin cfg0.N) : Vec Ideal S3072x1024 .bf16 := iblk0 V c 2 t

/-- The q and k tiles of a point. -/
abbrev Qt (c : Dev nD) (t : Fin cfg0.N) : FVec Ideal S512x1024 .f32 :=
  k0_pay4 (F := Ideal) (X0 V c t) (X1 V c t) (View.ld (Val := Elt Ideal) (X2 V c t) (Rect.unit (s := S3072x1024) ![0, 0] S1024x1024.size inb_S3072x1024_S1024x1024_0_0))
abbrev Kt (c : Dev nD) (t : Fin cfg0.N) : FVec Ideal S512x1024 .f32 :=
  k0_pay5 (F := Ideal) (X0 V c t) (X1 V c t) (View.ld (Val := Elt Ideal) (X2 V c t) (Rect.unit (s := S3072x1024) ![1024, 0] S1024x1024.size inb_S3072x1024_S1024x1024_1024_0))

def fin4 (k : ℕ) : Fin 4 := ⟨k % 4, Nat.mod_lt _ (by decide)⟩
def fin8 (k : ℕ) : Fin 8 := ⟨k % 8, Nat.mod_lt _ (by decide)⟩

/-- The projected feature whose squares are summed: q-feature f (s = 0) or k-feature f (s = 1) of token r of tile tl of batch b. -/
abbrev pj (c : Dev nD) (b : Fin 4) (s : Fin 2) (f : Fin 1024) (tl : Fin 8) (r : Fin 512) : EReal :=
  XCov.proj (V c main_v0) (XCov.xnK (V c main_arg0) (V c main_arg1)) b (XCov.tok tl r) (if s.val = 0 then XCov.oQ f else XCov.oK f)

/-- One tile's share of the sum of squares. -/
def part (c : Dev nD) (b : Fin 4) (s : Fin 2) (f : Fin 1024) (tl : ℕ) : EReal :=
  ∑ r : Fin 512, pj V c b s f (fin8 tl) r * pj V c b s f (fin8 tl) r

/-- The sum over a point's 512 tokens of the squares of its tile is that tile's share. -/
theorem tile_sq (c : Dev nD) (t : Fin cfg0.N) (s : Fin 2) (f : Fin 1024) :
    ∑ r : Fin 512, (if s.val = 0 then Qt V c t else Kt V c t) (ix2 r f) * (if s.val = 0 then Qt V c t else Kt V c t) (ix2 r f)
      = part V c (fin4 (t.val / 8)) s f (t.val % 8) := by
  have hN : cfg0.N = 32 := N_0
  have ht := t.isLt
  have hb : t.val / 8 < 4 := by omega
  have htl : t.val % 8 < 8 := by omega
  have e4 : fin4 (t.val / 8) = ⟨t.val / 8, hb⟩ := Fin.ext (Nat.mod_eq_of_lt hb)
  have e8 : fin8 (t.val % 8) = ⟨t.val % 8, htl⟩ := Fin.ext (Nat.mod_eq_of_lt htl)
  unfold part
  rw [e4, e8]
  refine Finset.sum_congr rfl fun r _ => ?_
  match s with
  | ⟨0, h⟩ =>
    show Qt V c t (ix2 r f) * Qt V c t (ix2 r f) = _
    rw [show Qt V c t (ix2 r f) = _ from qTile V c t r f hb htl]
    rfl
  | ⟨1, h⟩ =>
    show Kt V c t (ix2 r f) * Kt V c t (ix2 r f) = _
    rw [show Kt V c t (ix2 r f) = _ from kTile V c t r f hb htl]
    rfl

/-- After point n the block holds, at (0, s, f), the shares of the tiles 0 .. n % 8 of batch n / 8. -/
theorem ssq_inv (c : Dev nD) : ∀ (n : ℕ) (h : n < cfg0.N) (s : Fin 2) (f : Fin 1024),
    (outsAt0 V c n h).2.2 (ix3 0 s f) = ∑ tl ∈ Finset.range (n % 8 + 1), part V c (fin4 (n / 8)) s f tl := by
  intro n
  induction n using Nat.strong_induction_on with
  | _ n ih =>
    intro h s f
    by_cases h0 : n % 8 = 0
    · rw [outsAt0_A V c ⟨n, h⟩ h0]
      dsimp only
      refine (congrFun (outA5_eq (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr h0) (X0 V c ⟨n, h⟩) (X1 V c ⟨n, h⟩) (X2 V c ⟨n, h⟩)) (ix3 0 s f)).trans ?_
      refine (rows_at (Qt V c ⟨n, h⟩) (Kt V c ⟨n, h⟩) (k0_pay8 (F := Ideal)) _ s f).trans ?_
      rw [pay8_at, zero_add, tile_sq V c ⟨n, h⟩ s f]
      show part V c (fin4 (n / 8)) s f (n % 8) = _
      rw [h0, Finset.sum_range_one]
    · rw [outsAt0_B V c ⟨n, h⟩ h0]
      dsimp only
      refine (congrFun (outB5_eq (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (fun hh => h0 ((hcond0_0 ⟨n, h⟩).mp hh)) (X0 V c ⟨n, h⟩) (X1 V c ⟨n, h⟩) (X2 V c ⟨n, h⟩)
        (outsAt0 V c (n - 1) (Nat.lt_of_le_of_lt (Nat.sub_le _ _) h)).2.1 (outsAt0 V c (n - 1) (Nat.lt_of_le_of_lt (Nat.sub_le _ _) h)).2.2) (ix3 0 s f)).trans ?_
      refine (rows_at (Qt V c ⟨n, h⟩) (Kt V c ⟨n, h⟩) _ _ s f).trans ?_
      rw [ih (n - 1) (by omega) _ s f, tile_sq V c ⟨n, h⟩ s f]
      show _ + part V c (fin4 (n / 8)) s f (n % 8) = _
      rw [show (n - 1) % 8 + 1 = n % 8 from by omega, show (n - 1) / 8 = n / 8 from by omega, Finset.sum_range_succ]

end Inv

/-! ## The write-back and the array after the call -/

section Final
variable (V : (c : Dev nD) → (b : Ref sig .tc) → Buf (Elt Ideal) ((c : Thread nD τ).loc b))

/-- The sum over the eight tiles is the sum of the eight shares. -/
theorem ssqK_eq_range (c : Dev nD) (b : Fin 4) (s : Fin 2) (f : Fin 1024) :
    XCov.ssqK (V c main_arg0) (V c main_arg1) (V c main_v0) b s f = ∑ tl ∈ Finset.range 8, part V c b s f tl := by
  unfold XCov.ssqK
  rw [← Fin.sum_univ_eq_sum_range (fun tl => part V c b s f tl) 8]
  refine Finset.sum_congr rfl fun tl _ => ?_
  unfold part
  rw [show fin8 tl.val = tl from Fin.ext (Nat.mod_eq_of_lt tl.isLt)]

/-- A write-back (after the last tile of a batch) writes the batch's block of the sums over all eight tiles. -/
theorem flushed5 (c : Dev nD) (t : Fin cfg0.N) (hf : (cfg0.win 5).flush t = true) :
    (dat0 (F := Ideal) V c).flushed 5 t
      = ((cfg0.win 5).blk t).view.read (Elt Ideal) (XCov.ssqKarr (V c main_arg0) (V c main_arg1) (V c main_v0)) := by
  have hN : cfg0.N = 32 := N_0
  have ht := t.isLt
  have hb : t.val / 8 < 4 := by omega
  have h7 : t.val % 8 = 7 := (flush0_5 t).mp hf
  obtain ⟨-, -, -, -, -, -, -, i0, i1, i2⟩ := Covers.idx0 t
  show (cfg0.win 5).cut (grid0.coords t) ((dat0 (F := Ideal) V c).after 5 t) = _
  rw [after0_5]
  funext j
  have h0 : (j 0).val < 1 := (j 0).isLt
  have h1 : (j 1).val < 2 := (j 1).isLt
  have h2 : (j 2).val < 1024 := (j 2).isLt
  have e : (cfg0.win 5).xinj (grid0.coords t) j = ix3 0 ⟨(j 1).val, h1⟩ ⟨(j 2).val, h2⟩ := by
    funext a; apply Fin.ext
    match a with
    | ⟨0, _⟩ => show (j 0).val = 0; omega
    | ⟨1, _⟩ => rfl
    | ⟨2, _⟩ => rfl
  show (outsAt0 V c t.val t.isLt).2.2 ((cfg0.win 5).xinj (grid0.coords t) j) = _
  rw [e, ssq_inv V c t.val t.isLt _ _, h7, View.read_apply]
  have key : ∀ i : XCov.SSsq.Idx, (i 0).val = t.val / 8 → (i 1).val = (j 1).val → (i 2).val = (j 2).val →
      XCov.ssqKarr (V c main_arg0) (V c main_arg1) (V c main_v0) i
        = ∑ tl ∈ Finset.range 8, part V c (fin4 (t.val / 8)) ⟨(j 1).val, h1⟩ ⟨(j 2).val, h2⟩ tl := by
    intro i e0 e1 e2
    show XCov.ssqK _ _ _ (i 0) (i 1) (i 2) = _
    rw [show i 0 = fin4 (t.val / 8) from Fin.ext (by rw [e0]; exact (Nat.mod_eq_of_lt hb).symm),
      show i 1 = ⟨(j 1).val, h1⟩ from Fin.ext e1, show i 2 = ⟨(j 2).val, h2⟩ from Fin.ext e2]
    exact ssqK_eq_range V c _ _ _
  refine (key _ ?_ ?_ ?_).symm
  · show win0_5.index t (0 : Fin 3) * 1 + 1 * (j 0).val = t.val / 8
    rw [i0]; omega
  · show win0_5.index t (1 : Fin 3) * 2 + 1 * (j 1).val = (j 1).val
    rw [i1]; omega
  · show win0_5.index t (2 : Fin 3) * 1024 + 1 * (j 2).val = (j 2).val
    rw [i2]; omega

end Final

end Ssq

open Ssq

variable (V : (c : Dev nD) → (b : Ref sig .tc) → Buf (Elt Ideal) ((c : Thread nD τ).loc b))

/-- After the first call the array of sums of squares holds, at (b, s, f), the sum over the eight tiles and their 512 tokens of
    the squares of q-feature f (s = 0) or k-feature f (s = 1). -/
theorem arr5 (c : Dev nD) : (dat0 (F := Ideal) V c).arrAt 5 cfg0.N = XCov.ssqKarr (V c main_arg0) (V c main_arg1) (V c main_v0) :=
  (dat0 (F := Ideal) V c).arrAt_eq_of_cover 5 _ (flushed5 V c) (Covers.cover0_5 c)

end Cert.KernelIdeal.R0

end
-- ==== Proof.R1Out.lean ====
/- What the second call's write-backs leave in the result: the four head groups' partial output projections added.

   A grid point t = (b * 4 + nb) * 4 + g reads the 256 v-features of head group g of the 1024 tokens of block nb of
   batch b, the four 64 x 64 attention matrices of the group's heads, and the 256 columns of the output projection that
   belong to the group.  It lays the four attention matrices on the diagonal of a 256 x 256 matrix that is zero
   elsewhere, applies that matrix to the v block, projects, and adds the outcome to the result block of (b, nb): the
   block is zeroed at g = 0 and written back at g = 3.  Read index by index, the block therefore holds after point t
   the parts of the groups 0, …, g, and what is written back is the sum over all four groups. -/
import proofs.«430979_j3951369912721_3_alg».proof.Proof.Gen.KernelIdeal.Frame
import proofs.«430979_j3951369912721_3_alg».proof.Proof.Spec
import proofs.«430979_j3951369912721_3_alg».proof.Proof.Covers
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat)

/-! ## What each case of the body leaves in the result block -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The hh-th 64 x 64 block of the attention window, as the body loads it. -/
abbrev att (x1 : Vec F S1x4x64x64 .f32) (hh : Fin 4) : Vec F S1x1x64x64 .f32 :=
  match hh with
  | ⟨0, _⟩ => View.ld x1 (Rect.unit (s := S1x4x64x64) ![0, 0, 0, 0] S1x1x64x64.size inb_S1x4x64x64_S1x1x64x64_0_0_0_0)
  | ⟨1, _⟩ => View.ld x1 (Rect.unit (s := S1x4x64x64) ![0, 1, 0, 0] S1x1x64x64.size inb_S1x4x64x64_S1x1x64x64_0_1_0_0)
  | ⟨2, _⟩ => View.ld x1 (Rect.unit (s := S1x4x64x64) ![0, 2, 0, 0] S1x1x64x64.size inb_S1x4x64x64_S1x1x64x64_0_2_0_0)
  | ⟨3, _⟩ => View.ld x1 (Rect.unit (s := S1x4x64x64) ![0, 3, 0, 0] S1x1x64x64.size inb_S1x4x64x64_S1x1x64x64_0_3_0_0)

/-- The partial output projection of one point as one term of the three input blocks. -/
abbrev part (x0 : Vec F S1x1024x256 .bf16) (x1 : Vec F S1x4x64x64 .f32) (x2 : Vec F S1024x256 .bf16) : FVec F S1024x1024 .f32 :=
  k1_pay3 x0 (att x1 0) (att x1 1) (att x1 2) (att x1 3) x2

/-- A point with g ≠ 0 leaves the previous contents plus the partial. -/
theorem pieceB (c : Dev nD) (i : grid1.Coords) (a3 : Memref sig .tc .vmem S1x1024x256 .bf16) (h3 : a3.IsWhole)
    (a4 : Memref sig .tc .vmem S1x4x64x64 .f32) (h4 : a4.IsWhole) (a5 : Memref sig .tc .vmem S1024x256 .bf16) (h5 : a5.IsWhole)
    (a6 : Memref sig .tc .vmem S1x1024x1024 .f32) (h6 : a6.IsWhole) (hc : ¬cond1_0 i)
    (x0 : Vec F S1x1024x256 .bf16) (x1 : Vec F S1x4x64x64 .f32) (x2 : Vec F S1024x256 .bf16) (xo3 : Vec F S1x1024x1024 .f32) :
    out1_B_3 c i a3 h3 a4 h4 a5 h5 a6 h6 hc x0 x1 x2 xo3 = k1_pay1 (part x0 x1 x2) (k1_pay4 xo3) := by
  unfold out1_B_3
  rw [View.read_writes_eq_canon _ _ _ (cover1_B_3 c i a3 h3 a4 h4 a5 h5 a6 h6 hc x0 x1 x2 xo3)]
  unfold kernelRun1_B
  dsimp only
  sl_unfold_words
  rw [View.canon_unit_zero hz3]
  simp only [View.readAt_eq_ld, h3.read_unread, h4.read_unread, h5.read_unread, h6.read_unread,
    View.ld_unit_zero (S := S1x1024x256) hz3, View.ld_unit_zero (S := S1024x256) hz2, View.ld_unit_zero (S := S1x1024x1024) hz3]

/-- A point with g = 0 resets the block to zero first, so it leaves zero plus the partial. -/
theorem pieceA (c : Dev nD) (i : grid1.Coords) (a3 : Memref sig .tc .vmem S1x1024x256 .bf16) (h3 : a3.IsWhole)
    (a4 : Memref sig .tc .vmem S1x4x64x64 .f32) (h4 : a4.IsWhole) (a5 : Memref sig .tc .vmem S1024x256 .bf16) (h5 : a5.IsWhole)
    (a6 : Memref sig .tc .vmem S1x1024x1024 .f32) (h6 : a6.IsWhole) (hc : cond1_0 i)
    (x0 : Vec F S1x1024x256 .bf16) (x1 : Vec F S1x4x64x64 .f32) (x2 : Vec F S1024x256 .bf16) :
    out1_A_3 c i a3 h3 a4 h4 a5 h5 a6 h6 hc x0 x1 x2 = k1_pay1 (part x0 x1 x2) (k1_pay4 (k1_pay2 (F := F))) := by
  unfold out1_A_3
  rw [View.read_writes_eq_canon _ _ _ (cover1_A_3 c i a3 h3 a4 h4 a5 h5 a6 h6 hc x0 x1 x2)]
  unfold kernelRun1_A
  dsimp only
  sl_unfold_words
  rw [View.canon_cons_unit_zero (S := S1x1024x1024) hz3]
  simp only [View.readAt_eq_ld, h3.read_unread, h4.read_unread, h5.read_unread, h6.read_unread, View.readCov_unit_zero (S := S1x1024x1024) _ hz3,
    View.ld_unit_zero (S := S1x1024x256) hz3, View.ld_unit_zero (S := S1024x256) hz2, View.ld_unit_zero (S := S1x1024x1024) hz3]

end Pieces

/-! ## The body's arithmetic at an index, over the extended reals -/

/-- A [1,1,64,64] block read as a 64 x 64 matrix. -/
theorem cast64 (v : FVec Ideal S1x1x64x64 .f32) (d e : Fin 64) :
    shapeCast S64x64 v shapeCasts_S1x1x64x64_S64x64 (ix2 d e) = v (ix4 (0 : Fin 1) (0 : Fin 1) d e) :=
  shapeCast_apply v shapeCasts_S1x1x64x64_S64x64 _ _ (by
    rw [Shape.rowMajor_val_four, Shape.rowMajor_val_two]
    show ((0 * 1 + 0) * 64 + d.val) * 64 + e.val = d.val * 64 + e.val
    omega)

/-- Four 64 x 64 pieces side by side: column i falls in piece i / 64 at column i % 64. -/
theorem catCols (p : Fin 4 → FVec Ideal S64x64 .f32) (d : Fin 64) (i : Fin 256) :
    concatenate S64x256 1 [⟨S64x64, p 0⟩, ⟨S64x64, p 1⟩, ⟨S64x64, p 2⟩, ⟨S64x64, p 3⟩] concatenates_S64x64_S64x64_S64x64_S64x64_S64x256_d1 (ix2 d i)
      = p ⟨i.val / 64, by omega⟩ (ix2 d ⟨i.val % 64, by omega⟩) := by
  refine concatenate_ofFn_apply (t := S64x256) (s₁ := S64x64) (1 : Fin 2) (N := 4) p concatenates_S64x64_S64x64_S64x64_S64x64_S64x256_d1 rfl 64 rfl (ix2 d i)
    ⟨i.val / 64, by omega⟩ rfl (ix2 d ⟨i.val % 64, by omega⟩) rfl ?_
  intro b hb
  match b with
  | ⟨0, _⟩ => rfl
  | ⟨1, _⟩ => exact absurd rfl hb

theorem lhs_app_0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
theorem lhs_app_1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q
theorem rhs_app_0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
theorem rhs_app_1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q

theorem lhs_prj_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_prj_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_prj_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_prj_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The first product at an index: row n of the left operand against row j of the right operand. -/
theorem mmApp (l : FVec Ideal S1024x256 .bf16) (r : FVec Ideal S256x256 .bf16) (n : Fin 1024) (j : Fin 256) :
    matmul dot_S1024x256_S256x256_S1024x256_1_1_0_0_n_n none l r (constant (F := Ideal) S1024x256 .f32 0x00000000#32) (ix2 n j)
      = ∑ k : Fin 256, l (ix2 n k) * r (ix2 j k) := by
  show FloatOps.matmul dot_S1024x256_S256x256_S1024x256_1_1_0_0_n_n none l r (constant (F := Ideal) S1024x256 .f32 0x00000000#32) (ix2 n j) = _
  rw [Ideal.matmul_constant_zero_apply, ← Equiv.sum_comp (ValueIdx.contrEquiv1 dot_S1024x256_S256x256_S1024x256_1_1_0_0_n_n 256 rfl rfl).symm]
  refine Finset.sum_congr rfl fun k _ => ?_
  have hk := ValueIdx.contrEquiv1_symm_val dot_S1024x256_S256x256_S1024x256_1_1_0_0_n_n 256 rfl rfl k
  have el : dot_S1024x256_S256x256_S1024x256_1_1_0_0_n_n.lhsIdx (ix2 n j) ((ValueIdx.contrEquiv1 dot_S1024x256_S256x256_S1024x256_1_1_0_0_n_n 256 rfl rfl).symm k) = ix2 n k := funext fun a => Fin.ext (by
    match a with
    | ⟨0, _⟩ => exact lhs_app_0 _ _
    | ⟨1, _⟩ => exact (lhs_app_1 _ _).trans hk)
  have er : dot_S1024x256_S256x256_S1024x256_1_1_0_0_n_n.rhsIdx (ix2 n j) ((ValueIdx.contrEquiv1 dot_S1024x256_S256x256_S1024x256_1_1_0_0_n_n 256 rfl rfl).symm k) = ix2 j k := funext fun a => Fin.ext (by
    match a with
    | ⟨0, _⟩ => exact rhs_app_0 _ _
    | ⟨1, _⟩ => exact (rhs_app_1 _ _).trans hk)
  rw [el, er]

/-- The second product at an index: row n of the left operand against row o of the right operand. -/
theorem mmPrj (l : FVec Ideal S1024x256 .bf16) (r : FVec Ideal S1024x256 .bf16) (n : Fin 1024) (o : Fin 1024) :
    matmul dot_S1024x256_S1024x256_S1024x1024_1_1_0_0_n_n none l r (constant (F := Ideal) S1024x1024 .f32 0x00000000#32) (ix2 n o)
      = ∑ k : Fin 256, l (ix2 n k) * r (ix2 o k) := by
  show FloatOps.matmul dot_S1024x256_S1024x256_S1024x1024_1_1_0_0_n_n none l r (constant (F := Ideal) S1024x1024 .f32 0x00000000#32) (ix2 n o) = _
  rw [Ideal.matmul_constant_zero_apply, ← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 n o) ((ValueIdx.contrEquiv1 dot_S1024x256_S1024x256_S1024x1024_1_1_0_0_n_n 256 rfl rfl).symm k) = ix2 n k := funext fun a => Fin.ext (by
    match a with
    | ⟨0, _⟩ => exact lhs_prj_0 _ _
    | ⟨1, _⟩ => exact (lhs_prj_1 _ _).trans hk)
  have er : dot_S1024x256_S1024x256_S1024x1024_1_1_0_0_n_n.rhsIdx (ix2 n o) ((ValueIdx.contrEquiv1 dot_S1024x256_S1024x256_S1024x1024_1_1_0_0_n_n 256 rfl rfl).symm k) = ix2 o k := funext fun a => Fin.ext (by
    match a with
    | ⟨0, _⟩ => exact rhs_prj_0 _ _
    | ⟨1, _⟩ => exact (rhs_prj_1 _ _).trans hk)
  rw [el, er]

/-- The 64 x 64 zero block the body places off the diagonal. -/
abbrev zero64 : FVec Ideal S64x64 .f32 := broadcast S64x64 (Scalar.ofBits .f32 0x00000000#32)

/-- Row block hh of the 256 x 256 matrix: the attention block a in place hh, zero blocks in the other three places. -/
def rowBlk (hh : Fin 4) (a : FVec Ideal S64x64 .f32) : FVec Ideal S64x256 .f32 :=
  concatenate S64x256 1 [⟨S64x64, if (0 : Fin 4) = hh then a else zero64⟩, ⟨S64x64, if (1 : Fin 4) = hh then a else zero64⟩,
    ⟨S64x64, if (2 : Fin 4) = hh then a else zero64⟩, ⟨S64x64, if (3 : Fin 4) = hh then a else zero64⟩]
    concatenates_S64x64_S64x64_S64x64_S64x64_S64x256_d1

/-- Entry (d, i) of row block hh: the attention block inside column block hh, zero outside. -/
theorem rowBlk_apply (hh : Fin 4) (a : FVec Ideal S64x64 .f32) (d : Fin 64) (i : Fin 256) :
    rowBlk hh a (ix2 d i) = if i.val / 64 = hh.val then a (ix2 d ⟨i.val % 64, by omega⟩) else 0 := by
  unfold rowBlk
  refine (catCols (fun k => if k = hh then a else zero64) d i).trans ?_
  by_cases h : i.val / 64 = hh.val
  · rw [if_pos h]
    show (if (⟨i.val / 64, _⟩ : Fin 4) = hh then a else zero64) _ = _
    rw [if_pos (Fin.ext h)]
  · rw [if_neg h]
    show (if (⟨i.val / 64, _⟩ : Fin 4) = hh then a else zero64) _ = _
    rw [if_neg (fun e => h (congrArg Fin.val e))]
    exact Ideal.ofBits_zero_f32

/-- The 256 x 256 matrix: the four row blocks stacked. -/
def blockMat (a : Fin 4 → FVec Ideal S64x64 .f32) : FVec Ideal S256x256 .f32 :=
  concatenate S256x256 0 [⟨S64x256, rowBlk 0 (a 0)⟩, ⟨S64x256, rowBlk 1 (a 1)⟩, ⟨S64x256, rowBlk 2 (a 2)⟩, ⟨S64x256, rowBlk 3 (a 3)⟩]
    concatenates_S64x256_S64x256_S64x256_S64x256_S256x256_d0

/-- Four 64 x 256 pieces stacked: row j falls in piece j / 64 at row j % 64. -/
theorem catRows (p : Fin 4 → FVec Ideal S64x256 .f32) (j : Fin 256) (i : Fin 256) :
    concatenate S256x256 0 [⟨S64x256, p 0⟩, ⟨S64x256, p 1⟩, ⟨S64x256, p 2⟩, ⟨S64x256, p 3⟩] concatenates_S64x256_S64x256_S64x256_S64x256_S256x256_d0 (ix2 j i)
      = p ⟨j.val / 64, by omega⟩ (ix2 ⟨j.val % 64, by omega⟩ i) := by
  refine concatenate_ofFn_apply (t := S256x256) (s₁ := S64x256) (0 : Fin 2) (N := 4) p concatenates_S64x256_S64x256_S64x256_S64x256_S256x256_d0 rfl 64 rfl (ix2 j i)
    ⟨j.val / 64, by omega⟩ rfl (ix2 ⟨j.val % 64, by omega⟩ i) rfl ?_
  intro b hb
  match b with
  | ⟨0, _⟩ => exact absurd rfl hb
  | ⟨1, _⟩ => rfl

/-- Entry (j, i) of the matrix: the attention block of j's 64-block when i is in the same 64-block, zero otherwise. -/
theorem blockMat_apply (a : Fin 4 → FVec Ideal S64x64 .f32) (j i : Fin 256) :
    blockMat a (ix2 j i)
      = if j.val / 64 = i.val / 64 then a ⟨j.val / 64, by omega⟩ (ix2 ⟨j.val % 64, by omega⟩ ⟨i.val % 64, by omega⟩) else 0 := by
  unfold blockMat
  refine (catRows (fun k => rowBlk k (a k)) j i).trans ?_
  refine (rowBlk_apply _ _ _ _).trans ?_
  exact if_congr ⟨fun h => h.symm, fun h => h.symm⟩ rfl rfl

/-- The point's partial output projection as a composition of the named pieces. -/
def partTerm (x0 : Vec Ideal S1x1024x256 .bf16) (a : Fin 4 → FVec Ideal S64x64 .f32) (x2 : Vec Ideal S1024x256 .bf16) : FVec Ideal S1024x1024 .f32 :=
  matmul dot_S1024x256_S1024x256_S1024x1024_1_1_0_0_n_n none
    (truncf .bf16 (matmul dot_S1024x256_S256x256_S1024x256_1_1_0_0_n_n none (shapeCast S1024x256 x0 shapeCasts_S1x1024x256_S1024x256 : FVec Ideal S1024x256 .bf16)
      (truncf .bf16 (blockMat a) bitsLt_bf16_f32 : FVec Ideal S256x256 .bf16) (constant (F := Ideal) S1024x256 .f32 0x00000000#32)) bitsLt_bf16_f32 : FVec Ideal S1024x256 .bf16)
    (shapeCast S1024x256 x2 shapeCasts_S1024x256_S1024x256 : FVec Ideal S1024x256 .bf16) (constant (F := Ideal) S1024x1024 .f32 0x00000000#32)

theorem pay3_eq (x0 : Vec Ideal S1x1024x256 .bf16) (v5 v7 v9 v11 : Vec Ideal S1x1x64x64 .f32) (x2 : Vec Ideal S1024x256 .bf16) :
    k1_pay3 (F := Ideal) x0 v5 v7 v9 v11 x2
      = partTerm x0 ![shapeCast S64x64 v5 shapeCasts_S1x1x64x64_S64x64, shapeCast S64x64 v7 shapeCasts_S1x1x64x64_S64x64,
          shapeCast S64x64 v9 shapeCasts_S1x1x64x64_S64x64, shapeCast S64x64 v11 shapeCasts_S1x1x64x64_S64x64] x2 := rfl

/-- The partial output projection at an index, over the three blocks. -/
theorem partTerm_apply (x0 : Vec Ideal S1x1024x256 .bf16) (a : Fin 4 → FVec Ideal S64x64 .f32) (x2 : Vec Ideal S1024x256 .bf16)
    (r : Fin 1024) (o : Fin 1024) :
    partTerm x0 a x2 (ix2 r o)
      = ∑ j : Fin 256, (∑ i : Fin 256, x0 (ix3 (0 : Fin 1) r i)
          * (if j.val / 64 = i.val / 64 then a ⟨j.val / 64, by omega⟩ (ix2 ⟨j.val % 64, by omega⟩ ⟨i.val % 64, by omega⟩) else 0))
          * x2 (ix2 o j) := by
  unfold partTerm
  refine (mmPrj _ _ r o).trans ?_
  refine Finset.sum_congr rfl fun j _ => ?_
  rw [shapeCast_self]
  refine congrArg (· * x2 (ix2 o j)) ?_
  show matmul dot_S1024x256_S256x256_S1024x256_1_1_0_0_n_n none _ _ (constant (F := Ideal) S1024x256 .f32 0x00000000#32) (ix2 r j) = _
  refine (mmApp _ _ r j).trans ?_
  refine Finset.sum_congr rfl fun i _ => ?_
  rw [shapeCast_1ab_ab_apply]
  refine congrArg (x0 (ix3 (0 : Fin 1) r i) * ·) ?_
  exact blockMat_apply a j i

/-- The stored block at (0, r, o): the previous contents plus the partial. -/
theorem pay1_apply (v24 v26 : FVec Ideal S1024x1024 .f32) (r o : Fin 1024) :
    k1_pay1 (F := Ideal) v24 v26 (ix3 (0 : Fin 1) r o) = v26 (ix2 r o) + v24 (ix2 r o) := by
  unfold k1_pay1
  exact shapeCast_ab_1ab_apply _ _ _ _ _

/-- The reset block is zero everywhere. -/
theorem pay2_apply (r o : Fin 1024) : k1_pay2 (F := Ideal) (ix3 (0 : Fin 1) r o) = 0 := by
  unfold k1_pay2
  refine (shapeCast_ab_1ab_apply _ _ _ _ _).trans ?_
  exact Ideal.ofBits_zero_f32

/-- The loaded previous contents read as a 1024 x 1024 matrix. -/
theorem pay4_apply (v25 : Vec Ideal S1x1024x1024 .f32) (r o : Fin 1024) :
    k1_pay4 (F := Ideal) v25 (ix2 r o) = v25 (ix3 (0 : Fin 1) r o) := by
  unfold k1_pay4
  exact shapeCast_1ab_ab_apply _ _ _ _

/-- The hh-th loaded attention block is head hh of the window. -/
theorem att_apply (x1 : Vec Ideal S1x4x64x64 .f32) (hh : Fin 4) (d e : Fin 64) :
    att x1 hh (ix4 (0 : Fin 1) (0 : Fin 1) d e) = x1 (ix4 (0 : Fin 1) hh d e) := by
  match hh with
  | ⟨0, _⟩ => exact congrArg x1 (funext fun a => Fin.ext (by
      match a with
      | ⟨0, _⟩ => rfl
      | ⟨1, _⟩ => rfl
      | ⟨2, _⟩ => show 0 + 1 * d.val = d.val; omega
      | ⟨3, _⟩ => show 0 + 1 * e.val = e.val; omega))
  | ⟨1, _⟩ => exact congrArg x1 (funext fun a => Fin.ext (by
      match a with
      | ⟨0, _⟩ => rfl
      | ⟨1, _⟩ => rfl
      | ⟨2, _⟩ => show 0 + 1 * d.val = d.val; omega
      | ⟨3, _⟩ => show 0 + 1 * e.val = e.val; omega))
  | ⟨2, _⟩ => exact congrArg x1 (funext fun a => Fin.ext (by
      match a with
      | ⟨0, _⟩ => rfl
      | ⟨1, _⟩ => rfl
      | ⟨2, _⟩ => show 0 + 1 * d.val = d.val; omega
      | ⟨3, _⟩ => show 0 + 1 * e.val = e.val; omega))
  | ⟨3, _⟩ => exact congrArg x1 (funext fun a => Fin.ext (by
      match a with
      | ⟨0, _⟩ => rfl
      | ⟨1, _⟩ => rfl
      | ⟨2, _⟩ => show 0 + 1 * d.val = d.val; omega
      | ⟨3, _⟩ => show 0 + 1 * e.val = e.val; omega))

/-- The four loaded blocks, as matrices, indexed by the head's place in the group. -/
theorem attSel (x1 : Vec Ideal S1x4x64x64 .f32) (q : Fin 4) (d e : Fin 64) :
    (![shapeCast S64x64 (att x1 0) shapeCasts_S1x1x64x64_S64x64, shapeCast S64x64 (att x1 1) shapeCasts_S1x1x64x64_S64x64,
        shapeCast S64x64 (att x1 2) shapeCasts_S1x1x64x64_S64x64, shapeCast S64x64 (att x1 3) shapeCasts_S1x1x64x64_S64x64] : Fin 4 → FVec Ideal S64x64 .f32) q (ix2 d e)
      = x1 (ix4 (0 : Fin 1) q d e) := by
  match q with
  | ⟨0, _⟩ => exact (cast64 _ d e).trans (att_apply x1 0 d e)
  | ⟨1, _⟩ => exact (cast64 _ d e).trans (att_apply x1 1 d e)
  | ⟨2, _⟩ => exact (cast64 _ d e).trans (att_apply x1 2 d e)
  | ⟨3, _⟩ => exact (cast64 _ d e).trans (att_apply x1 3 d e)

/-- One point's partial at (r, o): the attention of the group applied to the v block, then projected. -/
theorem part_apply (x0 : Vec Ideal S1x1024x256 .bf16) (x1 : Vec Ideal S1x4x64x64 .f32) (x2 : Vec Ideal S1024x256 .bf16) (r o : Fin 1024) :
    part (F := Ideal) x0 x1 x2 (ix2 r o)
      = ∑ j : Fin 256, (∑ i : Fin 256, x0 (ix3 (0 : Fin 1) r i)
          * (if j.val / 64 = i.val / 64 then x1 (ix4 (0 : Fin 1) (⟨j.val / 64, by omega⟩ : Fin 4) (⟨j.val % 64, by omega⟩ : Fin 64) (⟨i.val % 64, by omega⟩ : Fin 64)) else 0))
          * x2 (ix2 o j) := by
  refine (congrFun (pay3_eq x0 (att x1 0) (att x1 1) (att x1 2) (att x1 3) x2) (ix2 r o)).trans ?_
  refine (partTerm_apply x0 _ x2 r o).trans ?_
  refine Finset.sum_congr rfl fun j _ => ?_
  refine congrArg (· * x2 (ix2 o j)) ?_
  refine Finset.sum_congr rfl fun i _ => ?_
  refine congrArg (x0 (ix3 (0 : Fin 1) r i) * ·) ?_
  exact if_congr Iff.rfl (attSel x1 _ _ _) rfl

/-! ## Sums over the head groups up to a given one -/

/-- The sum of f over the groups 0, …, k. -/
def upto (f : Fin 4 → EReal) (k : ℕ) : EReal := ∑ g : Fin 4, if g.val ≤ k then f g else 0

theorem upto_zero (f : Fin 4 → EReal) : upto f 0 = f 0 := by
  unfold upto
  rw [Fin.sum_univ_four]
  simp

theorem upto_succ (f : Fin 4 → EReal) (k : ℕ) (hk : k + 1 < 4) : upto f (k + 1) = upto f k + f ⟨k + 1, hk⟩ := by
  unfold upto
  rw [Fin.sum_univ_four, Fin.sum_univ_four]
  have hk' : k < 3 := by omega
  interval_cases k <;> simp <;> rfl

theorem upto_three (f : Fin 4 → EReal) : upto f 3 = ∑ g : Fin 4, f g := by
  unfold upto
  exact Finset.sum_congr rfl fun g _ => if_pos (by have := g.isLt; omega)

/-! ## The windows' blocks at a point -/

variable (V : (c : Dev nD) → (b : Ref sig .tc) → Buf (Elt Ideal) ((c : Thread nD τ).loc b))

theorem lt64 (t : Fin cfg1.N) : t.val < 64 := lt_of_lt_of_eq t.isLt (show cfg1.N = 64 from N_1)

/-- Point t's batch, token block and head group: t = (b * 4 + nb) * 4 + g. -/
def ptB (t : Fin cfg1.N) : Fin 4 := ⟨t.val / 16, by have := lt64 t; omega⟩
def ptNb (t : Fin cfg1.N) : Fin 4 := ⟨t.val / 4 % 4, by omega⟩
def ptG (t : Fin cfg1.N) : Fin 4 := ⟨t.val % 4, by omega⟩

/-- The block index of each of the four windows at point t, for every one of the 64 points. -/
theorem idx_facts : ∀ t : Fin cfg1.N,
    win1_0.index t (0 : Fin 3) = t.val / 16 ∧ win1_0.index t (1 : Fin 3) = t.val / 4 % 4 ∧ win1_0.index t (2 : Fin 3) = t.val % 4
    ∧ win1_1.index t (0 : Fin 4) = t.val / 16 ∧ win1_1.index t (1 : Fin 4) = t.val % 4 ∧ win1_1.index t (2 : Fin 4) = 0 ∧ win1_1.index t (3 : Fin 4) = 0
    ∧ win1_2.index t (0 : Fin 2) = 0 ∧ win1_2.index t (1 : Fin 2) = t.val % 4
    ∧ win1_3.index t (0 : Fin 3) = t.val / 16 ∧ win1_3.index t (1 : Fin 3) = t.val / 4 % 4 ∧ win1_3.index t (2 : Fin 3) = 0 :=
  (by decide +kernel : ∀ t : Fin grid1.N, _)

/-- The three input blocks of point t: v, the attention, the output projection. -/
abbrev vblk (c : Dev nD) (t : Fin cfg1.N) : Vec Ideal S1x1024x256 .bf16 := iblk1 V c 0 t
abbrev ablk (c : Dev nD) (t : Fin cfg1.N) : Vec Ideal S1x4x64x64 .f32 := iblk1 V c 1 t
abbrev wblk (c : Dev nD) (t : Fin cfg1.N) : Vec Ideal S1024x256 .bf16 := iblk1 V c 2 t

/-- The three arrays the call reads: v, the attention, the output projection. -/
abbrev varr (c : Dev nD) : XCov.SX.Idx → EReal := V c main_v2_0
abbrev aarr (c : Dev nD) : XCov.SAtt.Idx → EReal := V c main_v51
abbrev warr (c : Dev nD) : XCov.SWo.Idx → EReal := V c main_v1

/-- The v block of point t holds the 256 features of group g of the 1024 tokens of block nb of batch b. -/
theorem vblk_apply (c : Dev nD) (t : Fin cfg1.N) (r : Fin 1024) (i : Fin 256) :
    vblk V c t (ix3 (0 : Fin 1) r i) = varr V c (ix3 (ptB t) (XCov.tokB (ptNb t) r) (XCov.featG (ptG t) i)) := by
  obtain ⟨e0, e1, e2, -⟩ := idx_facts t
  show V c main_v2_0 (((cfg1.win 0).blk t).view.emb (ix3 (0 : Fin 1) r i)) = V c main_v2_0 _
  refine congrArg (V c main_v2_0) (funext fun a => Fin.ext ?_)
  match a with
  | ⟨0, _⟩ => show win1_0.index t (0 : Fin 3) * 1 + 1 * 0 = t.val / 16; omega
  | ⟨1, _⟩ => show win1_0.index t (1 : Fin 3) * 1024 + 1 * r.val = t.val / 4 % 4 * 1024 + r.val; omega
  | ⟨2, _⟩ => show win1_0.index t (2 : Fin 3) * 256 + 1 * i.val = t.val % 4 * 256 + i.val; omega

/-- The attention block of point t holds the four heads of group g of batch b. -/
theorem ablk_apply (c : Dev nD) (t : Fin cfg1.N) (hh : Fin 4) (d e : Fin 64) :
    ablk V c t (ix4 (0 : Fin 1) hh d e) = aarr V c (ix4 (ptB t) ⟨(ptG t).val * 4 + hh.val, by have := (ptG t).isLt; omega⟩ d e) := by
  obtain ⟨-, -, -, e0, e1, e2, e3, -⟩ := idx_facts t
  show V c main_v51 (((cfg1.win 1).blk t).view.emb (ix4 (0 : Fin 1) hh d e)) = V c main_v51 _
  refine congrArg (V c main_v51) (funext fun a => Fin.ext ?_)
  match a with
  | ⟨0, _⟩ => show win1_1.index t (0 : Fin 4) * 1 + 1 * 0 = t.val / 16; omega
  | ⟨1, _⟩ => show win1_1.index t (1 : Fin 4) * 4 + 1 * hh.val = t.val % 4 * 4 + hh.val; omega
  | ⟨2, _⟩ => show win1_1.index t (2 : Fin 4) * 64 + 1 * d.val = d.val; omega
  | ⟨3, _⟩ => show win1_1.index t (3 : Fin 4) * 64 + 1 * e.val = e.val; omega

/-- The projection block of point t holds the 256 input features of group g of every output feature. -/
theorem wblk_apply (c : Dev nD) (t : Fin cfg1.N) (o : Fin 1024) (j : Fin 256) :
    wblk V c t (ix2 o j) = warr V c (ix2 o (XCov.featG (ptG t) j)) := by
  obtain ⟨-, -, -, -, -, -, -, e0, e1, -⟩ := idx_facts t
  show V c main_v1 (((cfg1.win 2).blk t).view.emb (ix2 o j)) = V c main_v1 _
  refine congrArg (V c main_v1) (funext fun a => Fin.ext ?_)
  match a with
  | ⟨0, _⟩ => show win1_2.index t (0 : Fin 2) * 1024 + 1 * o.val = o.val; omega
  | ⟨1, _⟩ => show win1_2.index t (1 : Fin 2) * 256 + 1 * j.val = t.val % 4 * 256 + j.val; omega

/-! ## One point of the grid -/

/-- Group g's part of the result at batch b, token nb * 1024 + r, output feature o. -/
def grp (c : Dev nD) (b nb : Fin 4) (r o : Fin 1024) (g : Fin 4) : EReal :=
  ∑ j : Fin 256, XCov.applyK (varr V c) (aarr V c) b (XCov.tokB nb r) g j * warr V c (ix2 o (XCov.featG g j))

/-- The partial of point t, over the arrays: its group's part at its batch and token block. -/
theorem point_apply (c : Dev nD) (t : Fin cfg1.N) (r o : Fin 1024) :
    part (F := Ideal) (vblk V c t) (ablk V c t) (wblk V c t) (ix2 r o) = grp V c (ptB t) (ptNb t) r o (ptG t) := by
  refine (part_apply (vblk V c t) (ablk V c t) (wblk V c t) r o).trans ?_
  unfold grp XCov.applyK XCov.blockDiag
  refine Finset.sum_congr rfl fun j _ => ?_
  refine congrArg₂ (· * ·) ?_ (wblk_apply V c t o j)
  refine Finset.sum_congr rfl fun i _ => ?_
  refine congrArg₂ (· * ·) (vblk_apply V c t r i) ?_
  refine if_congr Iff.rfl ?_ rfl
  exact ablk_apply V c t _ _ _

/-- A point with g = 0 leaves its own part. -/
theorem stepA (c : Dev nD) (t : Fin cfg1.N) (h0 : t.val % 4 = 0) (r o : Fin 1024) :
    outsAt1 V c t.val t.isLt (ix3 (0 : Fin 1) r o) = grp V c (ptB t) (ptNb t) r o (ptG t) := by
  rw [outsAt1_A V c t h0]
  refine (congrFun (pieceA (F := Ideal) c (grid1.coords t) (ms1_0 t) (hs1_0 t) (ms1_1 t) (hs1_1 t) (ms1_2 t) (hs1_2 t) (ms1_3 t) (hs1_3 t)
    ((hcond1_0 t).mpr h0) (vblk V c t) (ablk V c t) (wblk V c t)) (ix3 (0 : Fin 1) r o)).trans ?_
  refine (pay1_apply _ _ r o).trans ?_
  rw [pay4_apply, pay2_apply, zero_add]
  exact point_apply V c t r o

/-- A point with g ≠ 0 adds its part to what the point before left. -/
theorem stepB (c : Dev nD) (t : Fin cfg1.N) (h0 : ¬t.val % 4 = 0) (r o : Fin 1024) :
    outsAt1 V c t.val t.isLt (ix3 (0 : Fin 1) r o)
      = outsAt1 V c (t.val - 1) (Nat.lt_of_le_of_lt (Nat.sub_le _ _) t.isLt) (ix3 (0 : Fin 1) r o) + grp V c (ptB t) (ptNb t) r o (ptG t) := by
  rw [outsAt1_B V c t h0]
  refine (congrFun (pieceB (F := Ideal) c (grid1.coords t) (ms1_0 t) (hs1_0 t) (ms1_1 t) (hs1_1 t) (ms1_2 t) (hs1_2 t) (ms1_3 t) (hs1_3 t)
    (fun h => h0 ((hcond1_0 t).mp h)) (vblk V c t) (ablk V c t) (wblk V c t)
    (outsAt1 V c (t.val - 1) (Nat.lt_of_le_of_lt (Nat.sub_le _ _) t.isLt))) (ix3 (0 : Fin 1) r o)).trans ?_
  refine (pay1_apply _ _ r o).trans ?_
  rw [pay4_apply]
  exact congrArg (_ + ·) (point_apply V c t r o)

/-! ## The running contents of the result block -/

/-- After point n the block holds the parts of the groups 0, …, n % 4 of the point's batch and token block. -/
theorem running (c : Dev nD) : ∀ (n : ℕ) (h : n < cfg1.N) (r o : Fin 1024),
    outsAt1 V c n h (ix3 (0 : Fin 1) r o) = upto (grp V c (ptB ⟨n, h⟩) (ptNb ⟨n, h⟩) r o) (n % 4)
  | 0, h, r, o => by
    refine (stepA V c ⟨0, h⟩ rfl r o).trans ?_
    rw [show 0 % 4 = 0 from rfl, upto_zero]
    exact congrArg _ (Fin.ext rfl)
  | n + 1, h, r, o => by
    by_cases h0 : (n + 1) % 4 = 0
    · refine (stepA V c ⟨n + 1, h⟩ h0 r o).trans ?_
      rw [h0, upto_zero]
      exact congrArg _ (Fin.ext h0)
    · refine (stepB V c ⟨n + 1, h⟩ h0 r o).trans ?_
      show outsAt1 V c n _ (ix3 (0 : Fin 1) r o) + _ = _
      rw [running c n (Nat.lt_of_succ_lt h) r o]
      have eb : ptB ⟨n, Nat.lt_of_succ_lt h⟩ = ptB ⟨n + 1, h⟩ := Fin.ext (by show n / 16 = (n + 1) / 16; omega)
      have enb : ptNb ⟨n, Nat.lt_of_succ_lt h⟩ = ptNb ⟨n + 1, h⟩ := Fin.ext (by show n / 4 % 4 = (n + 1) / 4 % 4; omega)
      have hk : (n + 1) % 4 = n % 4 + 1 := by omega
      rw [eb, enb, hk, upto_succ _ _ (by omega)]
      exact congrArg (fun g => upto (grp V c (ptB ⟨n + 1, h⟩) (ptNb ⟨n + 1, h⟩) r o) (n % 4) + grp V c (ptB ⟨n + 1, h⟩) (ptNb ⟨n + 1, h⟩) r o g)
        (Fin.ext (show (n + 1) % 4 = n % 4 + 1 from hk))

/-! ## The write-backs and the array -/

/-- A point with g = 3 writes back its block of the four groups' parts added. -/
theorem flushed_eq (c : Dev nD) (t : Fin cfg1.N) (hf : (cfg1.win 3).flush t = true) :
    (dat1 (F := Ideal) V c).flushed 3 t
      = ((cfg1.win 3).blk t).view.read (Elt Ideal) (XCov.outKarr (varr V c) (aarr V c) (warr V c)) := by
  have h3 : t.val % 4 = 3 := (flush1_3 t).mp hf
  obtain ⟨-, -, -, -, -, -, -, -, -, e0, e1, e2⟩ := idx_facts t
  show (cfg1.win 3).cut (grid1.coords t) ((dat1 (F := Ideal) V c).after 3 t) = _
  rw [after1_3]
  funext y
  have hy0 : (y 0).val < 1 := (y 0).isLt
  have hy1 : (y 1).val < 1024 := (y 1).isLt
  have hy2 : (y 2).val < 1024 := (y 2).isLt
  have hy : (cfg1.win 3).xinj (grid1.coords t) y = ix3 (0 : Fin 1) (⟨(y 1).val, hy1⟩ : Fin 1024) (⟨(y 2).val, hy2⟩ : Fin 1024) :=
    funext fun a => Fin.ext (by
      match a with
      | ⟨0, _⟩ => show (y 0).val = 0; omega
      | ⟨1, _⟩ => rfl
      | ⟨2, _⟩ => rfl)
  show outsAt1 V c t.val t.isLt ((cfg1.win 3).xinj (grid1.coords t) y) = XCov.outKarr (varr V c) (aarr V c) (warr V c) (((cfg1.win 3).blk t).view.emb y)
  rw [hy, running V c t.val t.isLt, h3, upto_three]
  have he : ((cfg1.win 3).blk t).view.emb y = ix3 (ptB t) (XCov.tokB (ptNb t) ⟨(y 1).val, hy1⟩) (⟨(y 2).val, hy2⟩ : Fin 1024) :=
    funext fun a => Fin.ext (by
      match a with
      | ⟨0, _⟩ => show win1_3.index t (0 : Fin 3) * 1 + 1 * (y 0).val = t.val / 16; omega
      | ⟨1, _⟩ => show win1_3.index t (1 : Fin 3) * 1024 + 1 * (y 1).val = t.val / 4 % 4 * 1024 + (y 1).val; omega
      | ⟨2, _⟩ => show win1_3.index t (2 : Fin 3) * 1024 + 1 * (y 2).val = (y 2).val; omega)
  rw [he]
  rfl

/-- The result array after the second call: every index lies in the block some point with g = 3 writes back, so the
    array holds the four head groups' partial output projections added. -/
theorem out1 (c : Dev nD) : (dat1 (F := Ideal) V c).arrAt 3 cfg1.N = XCov.outKarr (V c main_v2_0) (V c main_v51) (V c main_v1) :=
  (dat1 (F := Ideal) V c).arrAt_eq_of_cover 3 (XCov.outKarr (varr V c) (aarr V c) (warr V c)) (fun t hf => flushed_eq V c t hf)
    (Cert.KernelIdeal.Covers.cover1_3 c)

end Cert.KernelIdeal.R1

end
-- ==== Proof.HostKBlocks.lean ====
/- The diagonal 64 x 64 blocks of the head pairs' 128 x 128 products, read index by index. -/
import proofs.«430979_j3951369912721_3_alg».proof.KernelIdeal
import proofs.«430979_j3951369912721_3_alg».proof.Proof.Spec
import Idealize.ShloMosaic.Lib.Pipeline.Value
import Idealize.ShloMosaic.Lib.ValueIdxRank6
import Idealize.ShloMosaic.Lib.IdealHost

set_option maxRecDepth 16384

noncomputable section

namespace Cert.KernelIdeal.HostK

open Cert.KernelIdeal Cert.KernelIdeal.Facts₀ Cert.KernelIdeal.Facts
open Idealize.ShloMosaic Idealize.ShloMosaic.ValueIdx

variable [hK : Cert.KernelIdeal.Facts]

/-- The two diagonal 64 x 64 blocks of every pair's 128 x 128 products, laid out head by head: the array is cut into
    [pair, place, row, place, column], the blocks (0, 0) and (1, 1) of the two places are taken, and stacked along the place. -/
def blocksT (G : FVec Ideal S4x8x128x128 .f32) : FVec Ideal S4x16x64x64 .f32 :=
  shapeCast S4x16x64x64
    (concatenate S4x8x2x64x64 2
      [⟨S4x8x1x64x64, broadcastInDim S4x8x1x64x64 ![0, 1, 3, 4] bcast_S4x8x64x64_S4x8x1x64x64_0_1_3_4
          (shapeCast S4x8x64x64
            (extractStridedSlice S4x8x1x64x1x64 ![0, 0, 0, 0, 0, 0]
              (shapeCast S4x8x2x64x2x64 G shapeCasts_S4x8x128x128_S4x8x2x64x2x64)
              slices_S4x8x2x64x2x64_S4x8x1x64x1x64_0_0_0_0_0_0)
            shapeCasts_S4x8x1x64x1x64_S4x8x64x64)⟩,
       ⟨S4x8x1x64x64, broadcastInDim S4x8x1x64x64 ![0, 1, 3, 4] bcast_S4x8x64x64_S4x8x1x64x64_0_1_3_4
          (shapeCast S4x8x64x64
            (extractStridedSlice S4x8x1x64x1x64 ![0, 0, 1, 0, 1, 0]
              (shapeCast S4x8x2x64x2x64 G shapeCasts_S4x8x128x128_S4x8x2x64x2x64)
              slices_S4x8x2x64x2x64_S4x8x1x64x1x64_0_0_1_0_1_0)
            shapeCasts_S4x8x1x64x1x64_S4x8x64x64)⟩]
      concatenates_S4x8x1x64x64_S4x8x1x64x64_S4x8x2x64x64_d2)
    shapeCasts_S4x8x2x64x64_S4x16x64x64

/-- Read at head h, row d, column e: the pair's product at the head's place in both coordinates. -/
theorem blocksT_apply (G : FVec Ideal S4x8x128x128 .f32) (b : Fin 4) (h : Fin 16) (d e : Fin 64) :
    blocksT G (ix4 b h d e) = G (ix4 b (XCov.pairOf h) (XCov.inPair h d) (XCov.inPair h e)) := by
  have hb := b.isLt
  have hh := h.isLt
  have hd := d.isLt
  have he := e.isLt
  unfold blocksT
  -- the outer reshape: head h is place h % 2 of pair h / 2
  refine (shapeCast_apply _ _ (ix4 b h d e) (ix5 b (XCov.pairOf h) (⟨h.val % 2, by omega⟩ : Fin 2) d e) ?_).trans ?_
  · rw [Shape.rowMajor_val_five, Shape.rowMajor_val_four]
    show (((b.val * 8 + h.val / 2) * 2 + h.val % 2) * 64 + d.val) * 64 + e.val = ((b.val * 16 + h.val) * 64 + d.val) * 64 + e.val
    omega
  by_cases hp : h.val % 2 = 0
  · -- place 0: the first piece, the block (0, 0)
    refine (concatenate_pair_apply_left (t := S4x8x2x64x64) (s₁ := S4x8x1x64x64) (s₂ := S4x8x1x64x64) 2 _ _ _ _ rfl (ix5 b (XCov.pairOf h) (0 : Fin 1) d e) ?_).trans ?_
    · intro a
      match a with
      | ⟨0, _⟩ => rfl
      | ⟨1, _⟩ => rfl
      | ⟨2, _⟩ => show 0 = h.val % 2; omega
      | ⟨3, _⟩ => rfl
      | ⟨4, _⟩ => rfl
    refine (broadcastInDim_apply _ _ _ _ (ix4 b (XCov.pairOf h) d e) ?_).trans ?_
    · intro a
      match a with
      | ⟨0, _⟩ => exact (if_neg (show ¬ (4 : Nat) = 1 by decide)).symm
      | ⟨1, _⟩ => exact (if_neg (show ¬ (8 : Nat) = 1 by decide)).symm
      | ⟨2, _⟩ => exact (if_neg (show ¬ (64 : Nat) = 1 by decide)).symm
      | ⟨3, _⟩ => exact (if_neg (show ¬ (64 : Nat) = 1 by decide)).symm
    refine (shapeCast_apply _ _ (ix4 b (XCov.pairOf h) d e) (ix6 b (XCov.pairOf h) (0 : Fin 1) d (0 : Fin 1) e) ?_).trans ?_
    · rw [Shape.rowMajor_val_six, Shape.rowMajor_val_four]
      show ((((b.val * 8 + h.val / 2) * 1 + 0) * 64 + d.val) * 1 + 0) * 64 + e.val = ((b.val * 8 + h.val / 2) * 64 + d.val) * 64 + e.val
      omega
    refine (extractStridedSlice_apply _ _ _ _ (ix6 b (XCov.pairOf h) (0 : Fin 2) d (0 : Fin 2) e) ?_).trans ?_
    · intro a
      match a with
      | ⟨0, _⟩ => exact (Nat.zero_add _).symm
      | ⟨1, _⟩ => exact (Nat.zero_add _).symm
      | ⟨2, _⟩ => rfl
      | ⟨3, _⟩ => exact (Nat.zero_add _).symm
      | ⟨4, _⟩ => rfl
      | ⟨5, _⟩ => exact (Nat.zero_add _).symm
    refine shapeCast_apply _ _ _ (ix4 b (XCov.pairOf h) (XCov.inPair h d) (XCov.inPair h e)) ?_
    rw [Shape.rowMajor_val_four, Shape.rowMajor_val_six]
    show ((b.val * 8 + h.val / 2) * 128 + (h.val % 2 * 64 + d.val)) * 128 + (h.val % 2 * 64 + e.val)
      = ((((b.val * 8 + h.val / 2) * 2 + 0) * 64 + d.val) * 2 + 0) * 64 + e.val
    omega
  · -- place 1: the second piece, the block (1, 1)
    refine (concatenate_pair_apply_right (t := S4x8x2x64x64) (s₁ := S4x8x1x64x64) (s₂ := S4x8x1x64x64) 2 _ _ _ _ rfl rfl (ix5 b (XCov.pairOf h) (0 : Fin 1) d e) ?_ ?_).trans ?_
    · intro a
      match a with
      | ⟨0, _⟩ => intro _; rfl
      | ⟨1, _⟩ => intro _; rfl
      | ⟨2, _⟩ => intro hne; exact absurd rfl hne
      | ⟨3, _⟩ => intro _; rfl
      | ⟨4, _⟩ => intro _; rfl
    · show 0 + 1 = h.val % 2
      omega
    refine (broadcastInDim_apply _ _ _ _ (ix4 b (XCov.pairOf h) d e) ?_).trans ?_
    · intro a
      match a with
      | ⟨0, _⟩ => exact (if_neg (show ¬ (4 : Nat) = 1 by decide)).symm
      | ⟨1, _⟩ => exact (if_neg (show ¬ (8 : Nat) = 1 by decide)).symm
      | ⟨2, _⟩ => exact (if_neg (show ¬ (64 : Nat) = 1 by decide)).symm
      | ⟨3, _⟩ => exact (if_neg (show ¬ (64 : Nat) = 1 by decide)).symm
    refine (shapeCast_apply _ _ (ix4 b (XCov.pairOf h) d e) (ix6 b (XCov.pairOf h) (0 : Fin 1) d (0 : Fin 1) e) ?_).trans ?_
    · rw [Shape.rowMajor_val_six, Shape.rowMajor_val_four]
      show ((((b.val * 8 + h.val / 2) * 1 + 0) * 64 + d.val) * 1 + 0) * 64 + e.val = ((b.val * 8 + h.val / 2) * 64 + d.val) * 64 + e.val
      omega
    refine (extractStridedSlice_apply _ _ _ _ (ix6 b (XCov.pairOf h) (1 : Fin 2) d (1 : Fin 2) e) ?_).trans ?_
    · intro a
      match a with
      | ⟨0, _⟩ => exact (Nat.zero_add _).symm
      | ⟨1, _⟩ => exact (Nat.zero_add _).symm
      | ⟨2, _⟩ => rfl
      | ⟨3, _⟩ => exact (Nat.zero_add _).symm
      | ⟨4, _⟩ => rfl
      | ⟨5, _⟩ => exact (Nat.zero_add _).symm
    refine shapeCast_apply _ _ _ (ix4 b (XCov.pairOf h) (XCov.inPair h d) (XCov.inPair h e)) ?_
    rw [Shape.rowMajor_val_four, Shape.rowMajor_val_six]
    show ((b.val * 8 + h.val / 2) * 128 + (h.val % 2 * 64 + d.val)) * 128 + (h.val % 2 * 64 + e.val)
      = ((((b.val * 8 + h.val / 2) * 2 + 1) * 64 + d.val) * 2 + 1) * 64 + e.val
    omega

end Cert.KernelIdeal.HostK

end
-- ==== Proof.HostK.lean ====
/- The host operations around the two calls, read as values: the two format changes before the first call are the identity on the extended reals; between the calls the diagonal blocks of the pair products are scaled and go through the row softmax. -/
import proofs.«430979_j3951369912721_3_alg».proof.Proof.Gen.KernelIdeal.Frame
import proofs.«430979_j3951369912721_3_alg».proof.Proof.Spec
import proofs.«430979_j3951369912721_3_alg».proof.Proof.HostKBlocks
import Idealize.ShloMosaic.Lib.StableHlo.Run
import Idealize.ShloMosaic.Lib.Pipeline.Value
import Idealize.ShloMosaic.Lib.IdealHost

set_option maxRecDepth 16384

noncomputable section

namespace Cert.KernelIdeal.HostK

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)
variable [hK : Cert.KernelIdeal.Facts]

/-! ## Before the first call: the two format changes are the identity on the extended reals -/

theorem V1_x (c : Dev nD) : V1 m ρ c main_arg0 = m ((c : Thread nD τ).loc main_arg0) :=
  (StableHlo.after_of_forall_not_mem (b := Proc.devRef .tc main_arg0) _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))).trans rfl

theorem V1_gam (c : Dev nD) : V1 m ρ c main_arg1 = m ((c : Thread nD τ).loc main_arg1) :=
  (StableHlo.after_of_forall_not_mem (b := Proc.devRef .tc main_arg1) _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))).trans rfl

theorem V1_w (c : Dev nD) : V1 m ρ c main_v0 = m ((c : Thread nD τ).loc main_arg2) := by
  show StableHlo.after hostOps0 (W0 m ρ c) (Proc.devRef .tc main_v0) = _
  after_results
  rfl

/-! ## Between the calls: v and the output projection pass through untouched -/

theorem V3_v (c : Dev nD) : V3 m ρ c main_v2_0 = W2 m ρ c (Proc.devRef .tc main_v2_0) :=
  (StableHlo.after_of_forall_not_mem (b := Proc.devRef .tc main_v2_0) _ _ (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne (by decide))))

theorem V3_wo (c : Dev nD) : V3 m ρ c main_v1 = m ((c : Thread nD τ).loc main_arg4) :=
  calc V3 m ρ c main_v1
    _ = W2 m ρ c (Proc.devRef .tc main_v1) := (StableHlo.after_of_forall_not_mem (b := Proc.devRef .tc main_v1) _ _ (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne (by decide))))
    _ = W1 m ρ c (Proc.devRef .tc main_v1) := W2_of_ne m ρ c main_v1 (by decide)
    _ = m ((c : Thread nD τ).loc main_arg4) := by
      show StableHlo.after hostOps0 (W0 m ρ c) (Proc.devRef .tc main_v1) = _
      after_results
      rfl

/-! ## The scaling between the two calls, as one function of the products, the sums of squares and the temperature -/

/-- q's sums of squares (row 0 of the two), head by head. -/
def ssq0T (S : FVec Ideal S4x2x1024 .f32) : FVec Ideal S4x16x64 .f32 :=
  shapeCast S4x16x64
    (shapeCast S4x1024 (extractStridedSlice S4x1x1024 ![0, 0, 0] S slices_S4x2x1024_S4x1x1024_0_0_0) shapeCasts_S4x1x1024_S4x1024)
    shapeCasts_S4x1024_S4x16x64

/-- k's sums of squares (row 1 of the two), head by head. -/
def ssq1T (S : FVec Ideal S4x2x1024 .f32) : FVec Ideal S4x16x64 .f32 :=
  shapeCast S4x16x64
    (shapeCast S4x1024 (extractStridedSlice S4x1x1024 ![0, 1, 0] S slices_S4x2x1024_S4x1x1024_0_1_0) shapeCasts_S4x1x1024_S4x1024)
    shapeCasts_S4x1024_S4x16x64

/-- One over the square root clipped below at eps. -/
def invT (x : FVec Ideal S4x16x64 .f32) : FVec Ideal S4x16x64 .f32 :=
  Host.divf (F := Ideal) (broadcastInDim S4x16x64 ![] bcast_S_S4x16x64 (constant (F := Ideal) S_ .f32 0x3F800000#32))
    (maximumf (Host.sqrt (F := Ideal) x) (broadcastInDim S4x16x64 ![] bcast_S_S4x16x64 (constant (F := Ideal) S_ .f32 0x2B8CBCCC#32)))

/-- q's reciprocal norms along the rows of every head's matrix. -/
def invqT (S : FVec Ideal S4x2x1024 .f32) : FVec Ideal S4x16x64x64 .f32 :=
  broadcastInDim S4x16x64x64 ![0, 1, 2, 3] bcast_S4x16x64x1_S4x16x64x64_0_1_2_3
    (broadcastInDim S4x16x64x1 ![0, 1, 2] bcast_S4x16x64_S4x16x64x1_0_1_2 (invT (ssq0T S)))

/-- k's reciprocal norms along the columns. -/
def invkT (S : FVec Ideal S4x2x1024 .f32) : FVec Ideal S4x16x64x64 .f32 :=
  broadcastInDim S4x16x64x64 ![0, 1, 2, 3] bcast_S4x16x1x64_S4x16x64x64_0_1_2_3
    (broadcastInDim S4x16x1x64 ![0, 1, 3] bcast_S4x16x64_S4x16x1x64_0_1_3 (invT (ssq1T S)))

/-- 8 exp(temperature), one number per head. -/
def scaleT (T : FVec Ideal S16x1x1 .f32) : FVec Ideal S4x16x64x64 .f32 :=
  broadcastInDim S4x16x64x64 ![0, 1, 2, 3] bcast_S1x16x1x1_S4x16x64x64_0_1_2_3
    (broadcastInDim S1x16x1x1 ![1] bcast_S16_S1x16x1x1_1
      (mulf (broadcastInDim S16 ![] bcast_S_S16 (constant (F := Ideal) S_ .f32 0x41000000#32))
        (shapeCast S16 (Host.exp (F := Ideal) T) shapeCasts_S16x1x1_S16)))

/-- The logits as the program computes them. -/
def logitsT (G : FVec Ideal S4x8x128x128 .f32) (S : FVec Ideal S4x2x1024 .f32) (T : FVec Ideal S16x1x1 .f32) :
    FVec Ideal S4x16x64x64 .f32 :=
  mulf (mulf (mulf (blocksT G) (invqT S)) (invkT S)) (scaleT T)

theorem ssq0T_apply (S : FVec Ideal S4x2x1024 .f32) (b : Fin 4) (h : Fin 16) (d : Fin 64) :
    ssq0T S (ix3 b h d) = S (ix3 b (0 : Fin 2) (XCov.featH h d)) := by
  unfold ssq0T
  refine (shapeCast_apply _ _ (ix3 b h d) (ix2 b (XCov.featH h d)) ?_).trans ?_
  · rw [Shape.rowMajor_val_two, Shape.rowMajor_val_three]
    show b.val * 1024 + (h.val * 64 + d.val) = (b.val * 16 + h.val) * 64 + d.val
    omega
  refine (shapeCast_apply _ _ (ix2 b (XCov.featH h d)) (ix3 b (0 : Fin 1) (XCov.featH h d)) ?_).trans ?_
  · rw [Shape.rowMajor_val_two, Shape.rowMajor_val_three]
    show (b.val * 1 + 0) * 1024 + (h.val * 64 + d.val) = b.val * 1024 + (h.val * 64 + d.val)
    omega
  exact extractStridedSlice_apply _ _ _ _ _ (fun ax => by
    match ax with
    | ⟨0, _⟩ => exact (Nat.zero_add _).symm
    | ⟨1, _⟩ => rfl
    | ⟨2, _⟩ => exact (Nat.zero_add _).symm)

theorem ssq1T_apply (S : FVec Ideal S4x2x1024 .f32) (b : Fin 4) (h : Fin 16) (d : Fin 64) :
    ssq1T S (ix3 b h d) = S (ix3 b (1 : Fin 2) (XCov.featH h d)) := by
  unfold ssq1T
  refine (shapeCast_apply _ _ (ix3 b h d) (ix2 b (XCov.featH h d)) ?_).trans ?_
  · rw [Shape.rowMajor_val_two, Shape.rowMajor_val_three]
    show b.val * 1024 + (h.val * 64 + d.val) = (b.val * 16 + h.val) * 64 + d.val
    omega
  refine (shapeCast_apply _ _ (ix2 b (XCov.featH h d)) (ix3 b (0 : Fin 1) (XCov.featH h d)) ?_).trans ?_
  · rw [Shape.rowMajor_val_two, Shape.rowMajor_val_three]
    show (b.val * 1 + 0) * 1024 + (h.val * 64 + d.val) = b.val * 1024 + (h.val * 64 + d.val)
    omega
  exact extractStridedSlice_apply _ _ _ _ _ (fun ax => by
    match ax with
    | ⟨0, _⟩ => exact (Nat.zero_add _).symm
    | ⟨1, _⟩ => rfl
    | ⟨2, _⟩ => exact (Nat.zero_add _).symm)

theorem invT_apply (x : FVec Ideal S4x16x64 .f32) (j : S4x16x64.Idx) :
    invT x j = Ideal.div XCov.one (max (Ideal.sqrt (x j)) XCov.eps) := by
  unfold invT
  rw [hostDivf_apply, maximumf_apply, broadcastInDim_scalar_apply, broadcastInDim_scalar_apply, constant_apply, constant_apply]
  rfl

theorem invqT_apply (S : FVec Ideal S4x2x1024 .f32) (b : Fin 4) (h : Fin 16) (d e : Fin 64) :
    invqT S (ix4 b h d e) = XCov.invNorm S 0 b h d := by
  unfold invqT XCov.invNorm
  rw [broadcastInDim_apply _ _ _ (ix4 b h d e) (ix4 b h d (0 : Fin 1)) (fun ax => by
        match ax with
        | ⟨0, _⟩ => rfl
        | ⟨1, _⟩ => rfl
        | ⟨2, _⟩ => rfl
        | ⟨3, _⟩ => rfl),
    broadcastInDim_apply _ _ _ (ix4 b h d (0 : Fin 1)) (ix3 b h d) (fun ax => by
        match ax with
        | ⟨0, _⟩ => rfl
        | ⟨1, _⟩ => rfl
        | ⟨2, _⟩ => rfl),
    invT_apply, ssq0T_apply]

theorem invkT_apply (S : FVec Ideal S4x2x1024 .f32) (b : Fin 4) (h : Fin 16) (d e : Fin 64) :
    invkT S (ix4 b h d e) = XCov.invNorm S 1 b h e := by
  unfold invkT XCov.invNorm
  rw [broadcastInDim_apply _ _ _ (ix4 b h d e) (ix4 b h (0 : Fin 1) e) (fun ax => by
        match ax with
        | ⟨0, _⟩ => rfl
        | ⟨1, _⟩ => rfl
        | ⟨2, _⟩ => rfl
        | ⟨3, _⟩ => rfl),
    broadcastInDim_apply _ _ _ (ix4 b h (0 : Fin 1) e) (ix3 b h e) (fun ax => by
        match ax with
        | ⟨0, _⟩ => rfl
        | ⟨1, _⟩ => rfl
        | ⟨2, _⟩ => rfl),
    invT_apply, ssq1T_apply]

theorem scaleT_apply (T : FVec Ideal S16x1x1 .f32) (b : Fin 4) (h : Fin 16) (d e : Fin 64) :
    scaleT T (ix4 b h d e) = XCov.c8 * Ideal.exp (T (ix3 h (0 : Fin 1) (0 : Fin 1))) := by
  unfold scaleT
  rw [broadcastInDim_apply _ _ _ (ix4 b h d e) (ix4 (0 : Fin 1) h (0 : Fin 1) (0 : Fin 1)) (fun ax => by
        match ax with
        | ⟨0, _⟩ => rfl
        | ⟨1, _⟩ => rfl
        | ⟨2, _⟩ => rfl
        | ⟨3, _⟩ => rfl),
    broadcastInDim_apply _ _ _ (ix4 (0 : Fin 1) h (0 : Fin 1) (0 : Fin 1)) (ix1 h) (fun ax => by
        match ax with
        | ⟨0, _⟩ => rfl),
    mulf_apply, broadcastInDim_scalar_apply, constant_apply,
    shapeCast_apply _ _ (ix1 h) (ix3 h (0 : Fin 1) (0 : Fin 1)) (by
      rw [Shape.rowMajor_val_one, Shape.rowMajor_val_three]
      show (h.val * 1 + 0) * 1 + 0 = h.val
      omega)]
  rfl

theorem logitsT_apply (G : FVec Ideal S4x8x128x128 .f32) (S : FVec Ideal S4x2x1024 .f32) (T : FVec Ideal S16x1x1 .f32)
    (b : Fin 4) (h : Fin 16) (d e : Fin 64) :
    logitsT G S T (ix4 b h d e) = XCov.logitK G S T b h d e := by
  unfold logitsT XCov.logitK
  rw [mulf_apply, mulf_apply, mulf_apply, blocksT_apply, invqT_apply, invkT_apply, scaleT_apply]

theorem logitsT_eq (G : FVec Ideal S4x8x128x128 .f32) (S : FVec Ideal S4x2x1024 .f32) (T : FVec Ideal S16x1x1 .f32) :
    logitsT G S T = XCov.logitKarr G S T :=
  funext fun j => (congrArg (logitsT G S T) (eq_ix4 j)).trans (logitsT_apply G S T (j 0) (j 1) (j 2) (j 3))

section Split
variable {F : FTy → Type} [FloatOps F]

/-- The host operations between the two calls, up to the logits. -/
abbrev opsA : List (HloOp τ sig (Elt F)) :=
  [ StableHlo.reshape main_v2_1 main_v3 rfl shapeCasts_S4x8x128x128_S4x8x2x64x2x64,
    StableHlo.unary main_v3 main_v4 ((extractStridedSlice S4x8x1x64x1x64 ![0, 0, 0, 0, 0, 0] · slices_S4x8x2x64x2x64_S4x8x1x64x1x64_0_0_0_0_0_0) : (⟨S4x8x2x64x2x64, .f32⟩ : BufTy).Contents (Elt F) → (⟨S4x8x1x64x1x64, .f32⟩ : BufTy).Contents (Elt F)),
    StableHlo.reshape main_v4 main_v5 rfl shapeCasts_S4x8x1x64x1x64_S4x8x64x64,
    StableHlo.unary main_v3 main_v6 ((extractStridedSlice S4x8x1x64x1x64 ![0, 0, 1, 0, 1, 0] · slices_S4x8x2x64x2x64_S4x8x1x64x1x64_0_0_1_0_1_0) : (⟨S4x8x2x64x2x64, .f32⟩ : BufTy).Contents (Elt F) → (⟨S4x8x1x64x1x64, .f32⟩ : BufTy).Contents (Elt F)),
    StableHlo.reshape main_v6 main_v7 rfl shapeCasts_S4x8x1x64x1x64_S4x8x64x64,
    StableHlo.unary main_v5 main_v8 (broadcastInDim S4x8x1x64x64 ![0, 1, 3, 4] bcast_S4x8x64x64_S4x8x1x64x64_0_1_3_4 : (⟨S4x8x64x64, .f32⟩ : BufTy).Contents (Elt F) → (⟨S4x8x1x64x64, .f32⟩ : BufTy).Contents (Elt F)),
    StableHlo.unary main_v7 main_v9 (broadcastInDim S4x8x1x64x64 ![0, 1, 3, 4] bcast_S4x8x64x64_S4x8x1x64x64_0_1_3_4 : (⟨S4x8x64x64, .f32⟩ : BufTy).Contents (Elt F) → (⟨S4x8x1x64x64, .f32⟩ : BufTy).Contents (Elt F)),
    StableHlo.binary main_v8 main_v9 main_v10 ((fun a b => concatenate S4x8x2x64x64 2 [⟨S4x8x1x64x64, a⟩, ⟨S4x8x1x64x64, b⟩] concatenates_S4x8x1x64x64_S4x8x1x64x64_S4x8x2x64x64_d2) : (⟨S4x8x1x64x64, .f32⟩ : BufTy).Contents (Elt F) → (⟨S4x8x1x64x64, .f32⟩ : BufTy).Contents (Elt F) → (⟨S4x8x2x64x64, .f32⟩ : BufTy).Contents (Elt F)),
    StableHlo.reshape main_v10 main_v11 rfl shapeCasts_S4x8x2x64x64_S4x16x64x64,
    StableHlo.unary main_v2_2 main_v12 ((extractStridedSlice S4x1x1024 ![0, 0, 0] · slices_S4x2x1024_S4x1x1024_0_0_0) : (⟨S4x2x1024, .f32⟩ : BufTy).Contents (Elt F) → (⟨S4x1x1024, .f32⟩ : BufTy).Contents (Elt F)),
    StableHlo.reshape main_v12 main_v13 rfl shapeCasts_S4x1x1024_S4x1024,
    StableHlo.reshape main_v13 main_v14 rfl shapeCasts_S4x1024_S4x16x64,
    StableHlo.unary main_v2_2 main_v15 ((extractStridedSlice S4x1x1024 ![0, 1, 0] · slices_S4x2x1024_S4x1x1024_0_1_0) : (⟨S4x2x1024, .f32⟩ : BufTy).Contents (Elt F) → (⟨S4x1x1024, .f32⟩ : BufTy).Contents (Elt F)),
    StableHlo.reshape main_v15 main_v16 rfl shapeCasts_S4x1x1024_S4x1024,
    StableHlo.reshape main_v16 main_v17 rfl shapeCasts_S4x1024_S4x16x64,
    StableHlo.unary main_v14 main_v18 (Host.sqrt : (⟨S4x16x64, .f32⟩ : BufTy).Contents (Elt F) → (⟨S4x16x64, .f32⟩ : BufTy).Contents (Elt F)),
    StableHlo.nullary main_cst (constant S_ .f32 0x2B8CBCCC#32),
    StableHlo.unary main_cst main_v19 (broadcastInDim S4x16x64 ![] bcast_S_S4x16x64 : (⟨S_, .f32⟩ : BufTy).Contents (Elt F) → (⟨S4x16x64, .f32⟩ : BufTy).Contents (Elt F)),
    StableHlo.binary main_v18 main_v19 main_v20 (maximumf : (⟨S4x16x64, .f32⟩ : BufTy).Contents (Elt F) → (⟨S4x16x64, .f32⟩ : BufTy).Contents (Elt F) → (⟨S4x16x64, .f32⟩ : BufTy).Contents (Elt F)),
    StableHlo.nullary main_cst_0 (constant S_ .f32 0x3F800000#32),
    StableHlo.unary main_cst_0 main_v21 (broadcastInDim S4x16x64 ![] bcast_S_S4x16x64 : (⟨S_, .f32⟩ : BufTy).Contents (Elt F) → (⟨S4x16x64, .f32⟩ : BufTy).Contents (Elt F)),
    StableHlo.binary main_v21 main_v20 main_v22 (Host.divf : (⟨S4x16x64, .f32⟩ : BufTy).Contents (Elt F) → (⟨S4x16x64, .f32⟩ : BufTy).Contents (Elt F) → (⟨S4x16x64, .f32⟩ : BufTy).Contents (Elt F)),
    StableHlo.unary main_v17 main_v23 (Host.sqrt : (⟨S4x16x64, .f32⟩ : BufTy).Contents (Elt F) → (⟨S4x16x64, .f32⟩ : BufTy).Contents (Elt F)),
    StableHlo.nullary main_cst_1 (constant S_ .f32 0x2B8CBCCC#32),
    StableHlo.unary main_cst_1 main_v24 (broadcastInDim S4x16x64 ![] bcast_S_S4x16x64 : (⟨S_, .f32⟩ : BufTy).Contents (Elt F) → (⟨S4x16x64, .f32⟩ : BufTy).Contents (Elt F)),
    StableHlo.binary main_v23 main_v24 main_v25 (maximumf : (⟨S4x16x64, .f32⟩ : BufTy).Contents (Elt F) → (⟨S4x16x64, .f32⟩ : BufTy).Contents (Elt F) → (⟨S4x16x64, .f32⟩ : BufTy).Contents (Elt F)),
    StableHlo.nullary main_cst_2 (constant S_ .f32 0x3F800000#32),
    StableHlo.unary main_cst_2 main_v26 (broadcastInDim S4x16x64 ![] bcast_S_S4x16x64 : (⟨S_, .f32⟩ : BufTy).Contents (Elt F) → (⟨S4x16x64, .f32⟩ : BufTy).Contents (Elt F)),
    StableHlo.binary main_v26 main_v25 main_v27 (Host.divf : (⟨S4x16x64, .f32⟩ : BufTy).Contents (Elt F) → (⟨S4x16x64, .f32⟩ : BufTy).Contents (Elt F) → (⟨S4x16x64, .f32⟩ : BufTy).Contents (Elt F)),
    StableHlo.unary main_arg3 main_v28 (Host.exp : (⟨S16x1x1, .f32⟩ : BufTy).Contents (Elt F) → (⟨S16x1x1, .f32⟩ : BufTy).Contents (Elt F)),
    StableHlo.reshape main_v28 main_v29 rfl shapeCasts_S16x1x1_S16,
    StableHlo.unary main_v22 main_v30 (broadcastInDim S4x16x64x1 ![0, 1, 2] bcast_S4x16x64_S4x16x64x1_0_1_2 : (⟨S4x16x64, .f32⟩ : BufTy).Contents (Elt F) → (⟨S4x16x64x1, .f32⟩ : BufTy).Contents (Elt F)),
    StableHlo.unary main_v30 main_v31 (broadcastInDim S4x16x64x64 ![0, 1, 2, 3] bcast_S4x16x64x1_S4x16x64x64_0_1_2_3 : (⟨S4x16x64x1, .f32⟩ : BufTy).Contents (Elt F) → (⟨S4x16x64x64, .f32⟩ : BufTy).Contents (Elt F)),
    StableHlo.binary main_v11 main_v31 main_v32 (mulf : (⟨S4x16x64x64, .f32⟩ : BufTy).Contents (Elt F) → (⟨S4x16x64x64, .f32⟩ : BufTy).Contents (Elt F) → (⟨S4x16x64x64, .f32⟩ : BufTy).Contents (Elt F)),
    StableHlo.unary main_v27 main_v33 (broadcastInDim S4x16x1x64 ![0, 1, 3] bcast_S4x16x64_S4x16x1x64_0_1_3 : (⟨S4x16x64, .f32⟩ : BufTy).Contents (Elt F) → (⟨S4x16x1x64, .f32⟩ : BufTy).Contents (Elt F)),
    StableHlo.unary main_v33 main_v34 (broadcastInDim S4x16x64x64 ![0, 1, 2, 3] bcast_S4x16x1x64_S4x16x64x64_0_1_2_3 : (⟨S4x16x1x64, .f32⟩ : BufTy).Contents (Elt F) → (⟨S4x16x64x64, .f32⟩ : BufTy).Contents (Elt F)),
    StableHlo.binary main_v32 main_v34 main_v35 (mulf : (⟨S4x16x64x64, .f32⟩ : BufTy).Contents (Elt F) → (⟨S4x16x64x64, .f32⟩ : BufTy).Contents (Elt F) → (⟨S4x16x64x64, .f32⟩ : BufTy).Contents (Elt F)),
    StableHlo.nullary main_cst_3 (constant S_ .f32 0x41000000#32),
    StableHlo.unary main_cst_3 main_v36 (broadcastInDim S16 ![] bcast_S_S16 : (⟨S_, .f32⟩ : BufTy).Contents (Elt F) → (⟨S16, .f32⟩ : BufTy).Contents (Elt F)),
    StableHlo.binary main_v36 main_v29 main_v37 (mulf : (⟨S16, .f32⟩ : BufTy).Contents (Elt F) → (⟨S16, .f32⟩ : BufTy).Contents (Elt F) → (⟨S16, .f32⟩ : BufTy).Contents (Elt F)),
    StableHlo.unary main_v37 main_v38 (broadcastInDim S1x16x1x1 ![1] bcast_S16_S1x16x1x1_1 : (⟨S16, .f32⟩ : BufTy).Contents (Elt F) → (⟨S1x16x1x1, .f32⟩ : BufTy).Contents (Elt F)),
    StableHlo.unary main_v38 main_v39 (broadcastInDim S4x16x64x64 ![0, 1, 2, 3] bcast_S1x16x1x1_S4x16x64x64_0_1_2_3 : (⟨S1x16x1x1, .f32⟩ : BufTy).Contents (Elt F) → (⟨S4x16x64x64, .f32⟩ : BufTy).Contents (Elt F)),
    StableHlo.binary main_v35 main_v39 main_v40 (mulf : (⟨S4x16x64x64, .f32⟩ : BufTy).Contents (Elt F) → (⟨S4x16x64x64, .f32⟩ : BufTy).Contents (Elt F) → (⟨S4x16x64x64, .f32⟩ : BufTy).Contents (Elt F)) ]

/-- The row softmax that follows. -/
abbrev opsB : List (HloOp τ sig (Elt F)) :=
  [ StableHlo.nullary main_cst_4 (constant S_ .f32 0xFF800000#32),
    StableHlo.binary main_v40 main_cst_4 main_v41 ((fun x v => Host.reduce FloatOps.maximumf x v reducesTo_S4x16x64x64_S4x16x64_d3 h_S_) : (⟨S4x16x64x64, .f32⟩ : BufTy).Contents (Elt F) → (⟨S_, .f32⟩ : BufTy).Contents (Elt F) → (⟨S4x16x64, .f32⟩ : BufTy).Contents (Elt F)),
    StableHlo.nullary main_cst_5 (constant S_ .f32 0xFF800000#32),
    StableHlo.unary main_cst_5 main_v42 (broadcastInDim S4x16x64 ![] bcast_S_S4x16x64 : (⟨S_, .f32⟩ : BufTy).Contents (Elt F) → (⟨S4x16x64, .f32⟩ : BufTy).Contents (Elt F)),
    StableHlo.binary main_v42 main_v41 main_v43 (maximumf : (⟨S4x16x64, .f32⟩ : BufTy).Contents (Elt F) → (⟨S4x16x64, .f32⟩ : BufTy).Contents (Elt F) → (⟨S4x16x64, .f32⟩ : BufTy).Contents (Elt F)),
    StableHlo.unary main_v43 main_v44 (broadcastInDim S4x16x64x1 ![0, 1, 2] bcast_S4x16x64_S4x16x64x1_0_1_2 : (⟨S4x16x64, .f32⟩ : BufTy).Contents (Elt F) → (⟨S4x16x64x1, .f32⟩ : BufTy).Contents (Elt F)),
    StableHlo.unary main_v44 main_v45 (broadcastInDim S4x16x64x64 ![0, 1, 2, 3] bcast_S4x16x64x1_S4x16x64x64_0_1_2_3 : (⟨S4x16x64x1, .f32⟩ : BufTy).Contents (Elt F) → (⟨S4x16x64x64, .f32⟩ : BufTy).Contents (Elt F)),
    StableHlo.binary main_v40 main_v45 main_v46 (subf : (⟨S4x16x64x64, .f32⟩ : BufTy).Contents (Elt F) → (⟨S4x16x64x64, .f32⟩ : BufTy).Contents (Elt F) → (⟨S4x16x64x64, .f32⟩ : BufTy).Contents (Elt F)),
    StableHlo.unary main_v46 main_v47 (Host.exp : (⟨S4x16x64x64, .f32⟩ : BufTy).Contents (Elt F) → (⟨S4x16x64x64, .f32⟩ : BufTy).Contents (Elt F)),
    StableHlo.nullary main_cst_6 (constant S_ .f32 0x00000000#32),
    StableHlo.binary main_v47 main_cst_6 main_v48 ((fun x v => Host.reduceAdd x v reducesTo_S4x16x64x64_S4x16x64_d3 h_S_) : (⟨S4x16x64x64, .f32⟩ : BufTy).Contents (Elt F) → (⟨S_, .f32⟩ : BufTy).Contents (Elt F) → (⟨S4x16x64, .f32⟩ : BufTy).Contents (Elt F)),
    StableHlo.unary main_v48 main_v49 (broadcastInDim S4x16x64x1 ![0, 1, 2] bcast_S4x16x64_S4x16x64x1_0_1_2 : (⟨S4x16x64, .f32⟩ : BufTy).Contents (Elt F) → (⟨S4x16x64x1, .f32⟩ : BufTy).Contents (Elt F)),
    StableHlo.unary main_v49 main_v50 (broadcastInDim S4x16x64x64 ![0, 1, 2, 3] bcast_S4x16x64x1_S4x16x64x64_0_1_2_3 : (⟨S4x16x64x1, .f32⟩ : BufTy).Contents (Elt F) → (⟨S4x16x64x64, .f32⟩ : BufTy).Contents (Elt F)),
    StableHlo.binary main_v47 main_v50 main_v51 (Host.divf : (⟨S4x16x64x64, .f32⟩ : BufTy).Contents (Elt F) → (⟨S4x16x64x64, .f32⟩ : BufTy).Contents (Elt F) → (⟨S4x16x64x64, .f32⟩ : BufTy).Contents (Elt F)) ]

theorem hostOps1_split : (hostOps1 : List (HloOp τ sig (Elt F))) = opsA ++ opsB := rfl

end Split

/-! ## The attention matrix: the operations up to the logits, then the row softmax -/

set_option maxHeartbeats 4000000 in
/-- The last fourteen operations are the row softmax of whatever the logits' buffer holds. -/
theorem tail_eq (X : Valuation τ sig (Elt Ideal)) :
    StableHlo.after (opsB (F := Ideal)) X (Proc.devRef .tc main_v51) =
      XCov.softmaxRows reducesTo_S4x16x64x64_S4x16x64_d3 h_S_ bcast_S_S4x16x64 bcast_S4x16x64_S4x16x64x1_0_1_2 bcast_S4x16x64x1_S4x16x64x64_0_1_2_3
        (X (Proc.devRef .tc main_v40)) := by
  after_results_simp
  rfl

set_option maxHeartbeats 4000000 in
/-- The first forty-three leave in the logits' buffer the scaled diagonal blocks. -/
theorem head_eq (X : Valuation τ sig (Elt Ideal)) :
    StableHlo.after (opsA (F := Ideal)) X (Proc.devRef .tc main_v40) =
      logitsT (X (Proc.devRef .tc main_v2_1)) (X (Proc.devRef .tc main_v2_2)) (X (Proc.devRef .tc main_arg3)) := by
  after_results_simp
  try after_results
  rfl

/-- The temperature is as launched: nothing before the second call writes it. -/
theorem W2_tmp (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (StableHlo.after_of_forall_not_mem (b := Proc.devRef .tc main_arg3) _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide))))
    _ = m ((c : Thread nD τ).loc main_arg3) := rfl

theorem V3_attn (c : Dev nD) : V3 m ρ c main_v51 =
    XCov.softmaxRows reducesTo_S4x16x64x64_S4x16x64_d3 h_S_ bcast_S_S4x16x64 bcast_S4x16x64_S4x16x64x1_0_1_2 bcast_S4x16x64x1_S4x16x64x64_0_1_2_3
      (XCov.logitKarr (W2 m ρ c (Proc.devRef .tc main_v2_1)) (W2 m ρ c (Proc.devRef .tc main_v2_2)) (m ((c : Thread nD τ).loc main_arg3))) := by
  show StableHlo.after hostOps1 (W2 m ρ c) (Proc.devRef .tc main_v51) = _
  rw [hostOps1_split, StableHlo.after_append, tail_eq, head_eq, logitsT_eq, W2_tmp]

end Cert.KernelIdeal.HostK

end
-- ==== Proof.RefOut.lean ====
/- The reference's last stage, read index by index for an arbitrary attention matrix A and arbitrary v: the attention applied to v per batch and head (a sum over the 64 features of the head), the heads laid side by side as 1024 features of a token, and the output projection (a sum over those 1024 features). -/
import proofs.«430979_j3951369912721_3_alg».proof.Proof.Gen.ReferenceIdeal.Run
import proofs.«430979_j3951369912721_3_alg».proof.Proof.Gen.ReferenceIdeal.Read
import proofs.«430979_j3951369912721_3_alg».proof.Proof.Spec

noncomputable section

namespace Cert.ReferenceIdeal.RefOut

open Cert.ReferenceIdeal Cert.ReferenceIdeal.Gen Cert.ReferenceIdeal.Read
open Idealize.ShloMosaic Idealize.ShloMosaic.TcCoe Idealize.ShloMosaic.ValueIdx Idealize.SL.Sem

variable (X : XCov.SX.Idx → EReal) (Gam : XCov.SGam.Idx → EReal) (W : XCov.SW.Idx → EReal) (Tmp : XCov.STmp.Idx → EReal) (Wo : XCov.SWo.Idx → EReal)

/-- Entry (b, n, o) of the result: over the 1024 features i = head * 64 + place, the attention row of that head and
    place against v of that head at token n, times the output projection's entry (o, i). -/
theorem out_at (A : XCov.SAtt.Idx → EReal) (V : Fin 4 → Fin 16 → Fin 64 → Fin 4096 → EReal)
    (hA : val_main_v56 (F := Ideal) X Gam W Tmp = A)
    (hV : ∀ (b : Fin 4) (h : Fin 16) (e : Fin 64) (n : Fin 4096), val_main_v22 (F := Ideal) X Gam W (ix4 b h e n) = V b h e n)
    (b : Fin 4) (n : Fin 4096) (o : Fin 1024) :
    val_main_v60 (F := Ideal) X Gam W Tmp Wo (ix3 b n o)
      = ∑ i : Fin 1024, (∑ e : Fin 64, A (ix4 b (XCov.headF i) (XCov.in64F i) e) * V b (XCov.headF i) e n) * Wo (ix2 o i) := by
  have hb : b.val < 4 := b.isLt
  have hn : n.val < 4096 := n.isLt
  rw [val_main_v60_apply]
  refine Finset.sum_congr rfl fun i _ => ?_
  have hi : i.val < 1024 := i.isLt
  have e1 : lidx_main_v60 (ix3 b n o) i = ix3 b n i := funext fun a => match a with
    | ⟨0, _⟩ => rfl
    | ⟨1, _⟩ => rfl
    | ⟨2, _⟩ => rfl
  have e2 : ridx_main_v60 (ix3 b n o) i = ix2 o i := funext fun a => match a with
    | ⟨0, _⟩ => rfl
    | ⟨1, _⟩ => rfl
  rw [e1, e2]
  refine congrArg (fun z : EReal => z * Wo (ix2 o i)) ?_
  rw [val_main_v59_apply]
  have e3 : idx_main_v59 (ix3 b n i) = ix4 b n (XCov.headF i) (XCov.in64F i) := funext fun a => Fin.ext (by
    match a with
    | ⟨0, _⟩ => show ((b.val * 4096 + n.val) * 1024 + i.val) / 4194304 = b.val; omega
    | ⟨1, _⟩ => show ((b.val * 4096 + n.val) * 1024 + i.val) / 1024 % 4096 = n.val; omega
    | ⟨2, _⟩ => show ((b.val * 4096 + n.val) * 1024 + i.val) / 64 % 16 = i.val / 64; omega
    | ⟨3, _⟩ => show ((b.val * 4096 + n.val) * 1024 + i.val) % 64 = i.val % 64; omega)
  rw [e3, val_main_v58_apply]
  have e4 : idx_main_v58 (ix4 b n (XCov.headF i) (XCov.in64F i)) = ix4 b (XCov.headF i) (XCov.in64F i) n := funext fun a => match a with
    | ⟨0, _⟩ => rfl
    | ⟨1, _⟩ => rfl
    | ⟨2, _⟩ => rfl
    | ⟨3, _⟩ => rfl
  rw [e4, val_main_v57_apply]
  refine Finset.sum_congr rfl fun e _ => ?_
  have e5 : lidx_main_v57 (ix4 b (XCov.headF i) (XCov.in64F i) n) e = ix4 b (XCov.headF i) (XCov.in64F i) e := funext fun a => match a with
    | ⟨0, _⟩ => rfl
    | ⟨1, _⟩ => rfl
    | ⟨2, _⟩ => rfl
    | ⟨3, _⟩ => rfl
  have e6 : ridx_main_v57 (ix4 b (XCov.headF i) (XCov.in64F i) n) e = ix4 b (XCov.headF i) e n := funext fun a => match a with
    | ⟨0, _⟩ => rfl
    | ⟨1, _⟩ => rfl
    | ⟨2, _⟩ => rfl
    | ⟨3, _⟩ => rfl
  rw [e5, e6, hA, hV]

end Cert.ReferenceIdeal.RefOut

end
-- ==== Proof.RefValue.lean ====
/- The reference's result, read index by index: the operations as written — row normalisation, projection, normalisation of q and k along the tokens, the temperature, the inner products times 8, the row softmax, the attention applied to v, the output projection. -/
import proofs.«430979_j3951369912721_3_alg».proof.Proof.Gen.ReferenceIdeal.Run
import proofs.«430979_j3951369912721_3_alg».proof.Proof.Gen.ReferenceIdeal.Read
import proofs.«430979_j3951369912721_3_alg».proof.Proof.Spec
import proofs.«430979_j3951369912721_3_alg».proof.Proof.RefOut

noncomputable section

namespace Cert.ReferenceIdeal.RefValue

open Cert.ReferenceIdeal Cert.ReferenceIdeal.Gen
open Idealize.ShloMosaic Idealize.ShloMosaic.TcCoe Idealize.ShloMosaic.ValueIdx Idealize.SL.Sem

open Cert.ReferenceIdeal.Read

section stages
variable (X : XCov.SX.Idx → EReal) (Gam : XCov.SGam.Idx → EReal) (W : XCov.SW.Idx → EReal) (Tmp : XCov.STmp.Idx → EReal) (Wo : XCov.SWo.Idx → EReal)

/-! ## The normalised row and the projection -/

/-- The reference's normalised row: the row's sum of squares from 0, its root clipped below, the quotient, times the
    root of 1024, times the gain. -/
theorem v13_at (b : Fin 4) (n : Fin 4096) (c : Fin 1024) :
    val_main_v13 (F := Ideal) X Gam (ix3 b n c) = XCov.xnR X Gam b n c := by
  have e1 : ∀ k : Fin 1024, idx_main_v1 (idx_main_v2 (idx_main_v6 (ix3 b n c))) k = ix3 b n k := fun k =>
    funext fun a => by match a with | ⟨0, _⟩ => rfl | ⟨1, _⟩ => rfl | ⟨2, _⟩ => rfl
  have e2 : idx_main_v11 (idx_main_v12 (ix3 b n c)) = ix1 c :=
    funext fun a => by match a with | ⟨0, _⟩ => rfl
  rw [val_main_v13_apply, val_main_v10_apply, val_main_v7_apply, val_main_v6_apply, val_main_v5_apply, val_main_v3_apply,
    val_main_v2_apply, val_main_v1_apply, val_main_v4_apply, val_main_cst_0_apply, val_main_v9_apply, val_main_v8_apply, val_main_cst_1_apply,
    val_main_v12_apply, val_main_v11_apply, val_main_cst_apply]
  simp only [e1, e2, val_main_v0_apply, Ideal.mulf_def, Ideal.hostDivf_def, Ideal.maximumf_def, Ideal.hostUnary_sqrt_def, Ideal.ofBits_def,
    Ideal.ofBits_zero_f32, zero_add]
  rfl

/-- The projection to 3072 features is the sum over the 1024 channels. -/
theorem v14_at (b : Fin 4) (n : Fin 4096) (o : Fin 3072) :
    val_main_v14 (F := Ideal) X Gam W (ix3 b n o) = XCov.proj W (XCov.xnR X Gam) b n o := by
  rw [val_main_v14_apply]
  unfold XCov.proj
  refine Finset.sum_congr rfl fun k _ => ?_
  have el : lidx_main_v14 (ix3 b n o) k = ix3 b n k :=
    funext fun a => by match a with | ⟨0, _⟩ => rfl | ⟨1, _⟩ => rfl | ⟨2, _⟩ => rfl
  have er : ridx_main_v14 (ix3 b n o) k = ix2 o k :=
    funext fun a => by match a with | ⟨0, _⟩ => rfl | ⟨1, _⟩ => rfl
  rw [el, er, v13_at]

/-! ## q, k, v: feature s * 1024 + h * 64 + d of token n, read through the reshape, the transpose and the slice -/

/-- Dropping the leading axis of extent one. -/
theorem drop1 (b : Fin 4) (h : Fin 16) (d : Fin 64) (n : Fin 4096) :
    idx_main_v18 (ix4 b h d n) = ix5 (0 : Fin 1) b h d n := by
  have hb := b.isLt; have hh := h.isLt; have hd := d.isLt; have hn := n.isLt
  funext a
  match a with
  | ⟨0, _⟩ => rfl
  | ⟨1, _⟩ => exact Fin.ext (by dsimp only [idx_main_v18, ix4, ix5]; omega)
  | ⟨2, _⟩ => exact Fin.ext (by dsimp only [idx_main_v18, ix4, ix5]; omega)
  | ⟨3, _⟩ => exact Fin.ext (by dsimp only [idx_main_v18, ix4, ix5]; omega)
  | ⟨4, _⟩ => exact Fin.ext (by dsimp only [idx_main_v18, ix4, ix5]; omega)

/-- Slice 0 of the three thirds: row-major position ((b * 4096 + n) * 3 + 0) * 1024 + h * 64 + d is feature h * 64 + d of q. -/
theorem featQ (z : Fin 1) (b : Fin 4) (h : Fin 16) (d : Fin 64) (n : Fin 4096) :
    idx_main_v15 (idx_main_v16 (idx_main_v17 (ix5 z b h d n))) = ix3 b n (XCov.oQ (XCov.featH h d)) := by
  have hz : z.val < 1 := z.isLt; have hb := b.isLt; have hh := h.isLt; have hd := d.isLt; have hn := n.isLt
  funext a
  match a with
  | ⟨0, _⟩ => exact Fin.ext (by dsimp only [idx_main_v15, idx_main_v16, idx_main_v17, ix3, ix5, XCov.oQ, XCov.featH]; omega)
  | ⟨1, _⟩ => exact Fin.ext (by dsimp only [idx_main_v15, idx_main_v16, idx_main_v17, ix3, ix5, XCov.oQ, XCov.featH]; omega)
  | ⟨2, _⟩ => exact Fin.ext (by dsimp only [idx_main_v15, idx_main_v16, idx_main_v17, ix3, ix5, XCov.oQ, XCov.featH]; omega)

/-- Slice 1: feature 1024 + h * 64 + d, of k. -/
theorem featK (z : Fin 1) (b : Fin 4) (h : Fin 16) (d : Fin 64) (n : Fin 4096) :
    idx_main_v15 (idx_main_v16 (idx_main_v19 (ix5 z b h d n))) = ix3 b n (XCov.oK (XCov.featH h d)) := by
  have hz : z.val < 1 := z.isLt; have hb := b.isLt; have hh := h.isLt; have hd := d.isLt; have hn := n.isLt
  funext a
  match a with
  | ⟨0, _⟩ => exact Fin.ext (by dsimp only [idx_main_v15, idx_main_v16, idx_main_v19, ix3, ix5, XCov.oK, XCov.featH]; omega)
  | ⟨1, _⟩ => exact Fin.ext (by dsimp only [idx_main_v15, idx_main_v16, idx_main_v19, ix3, ix5, XCov.oK, XCov.featH]; omega)
  | ⟨2, _⟩ => exact Fin.ext (by dsimp only [idx_main_v15, idx_main_v16, idx_main_v19, ix3, ix5, XCov.oK, XCov.featH]; omega)

/-- Slice 2: feature 2048 + h * 64 + d, of v. -/
theorem featV (z : Fin 1) (b : Fin 4) (h : Fin 16) (d : Fin 64) (n : Fin 4096) :
    idx_main_v15 (idx_main_v16 (idx_main_v21 (ix5 z b h d n))) = ix3 b n (XCov.oV (XCov.featH h d)) := by
  have hz : z.val < 1 := z.isLt; have hb := b.isLt; have hh := h.isLt; have hd := d.isLt; have hn := n.isLt
  funext a
  match a with
  | ⟨0, _⟩ => exact Fin.ext (by dsimp only [idx_main_v15, idx_main_v16, idx_main_v21, ix3, ix5, XCov.oV, XCov.featH]; omega)
  | ⟨1, _⟩ => exact Fin.ext (by dsimp only [idx_main_v15, idx_main_v16, idx_main_v21, ix3, ix5, XCov.oV, XCov.featH]; omega)
  | ⟨2, _⟩ => exact Fin.ext (by dsimp only [idx_main_v15, idx_main_v16, idx_main_v21, ix3, ix5, XCov.oV, XCov.featH]; omega)

/-- q of batch b, head h, place d at token n. -/
theorem v18_at (b : Fin 4) (h : Fin 16) (d : Fin 64) (n : Fin 4096) :
    val_main_v18 (F := Ideal) X Gam W (ix4 b h d n) = XCov.qR X Gam W b h d n := by
  rw [val_main_v18_apply, val_main_v17_apply, val_main_v16_apply, val_main_v15_apply, drop1, featQ, v14_at]
  rfl

/-- k of batch b, head h, place d at token n. -/
theorem v20_at (b : Fin 4) (h : Fin 16) (d : Fin 64) (n : Fin 4096) :
    val_main_v20 (F := Ideal) X Gam W (ix4 b h d n) = XCov.kR X Gam W b h d n := by
  rw [val_main_v20_apply, val_main_v19_apply, val_main_v16_apply, val_main_v15_apply, show idx_main_v20 (ix4 b h d n) = idx_main_v18 (ix4 b h d n) from rfl,
    drop1, featK, v14_at]
  rfl

/-- v of batch b, head h, place d at token n. -/
theorem v22_at (b : Fin 4) (h : Fin 16) (d : Fin 64) (n : Fin 4096) :
    val_main_v22 (F := Ideal) X Gam W (ix4 b h d n) = XCov.vR X Gam W b h d n := by
  rw [val_main_v22_apply, val_main_v21_apply, val_main_v16_apply, val_main_v15_apply, show idx_main_v22 (ix4 b h d n) = idx_main_v18 (ix4 b h d n) from rfl,
    drop1, featV, v14_at]
  rfl

/-! ## The norms along the tokens, the temperature, the inner products over the tokens -/

/-- The sum of squares of q over the tokens, as the reduction reads it. -/
theorem ssq_q (b : Fin 4) (h : Fin 16) (d : Fin 64) (n : Fin 4096) :
    ∑ k : Fin 4096, val_main_v23 (F := Ideal) X Gam W (idx_main_v24 (idx_main_v25 (idx_main_v29 (ix4 b h d n))) k)
      = ∑ k : Fin 4096, XCov.qR X Gam W b h d k * XCov.qR X Gam W b h d k := by
  refine Finset.sum_congr rfl fun k _ => ?_
  have e1 : idx_main_v24 (idx_main_v25 (idx_main_v29 (ix4 b h d n))) k = ix4 b h d k :=
    funext fun a => by match a with | ⟨0, _⟩ => rfl | ⟨1, _⟩ => rfl | ⟨2, _⟩ => rfl | ⟨3, _⟩ => rfl
  rw [e1, val_main_v23_apply, v18_at]
  rfl

/-- The sum of squares of k over the tokens, as the reduction reads it. -/
theorem ssq_k (b : Fin 4) (h : Fin 16) (e : Fin 64) (n : Fin 4096) :
    ∑ k : Fin 4096, val_main_v35 (F := Ideal) X Gam W (idx_main_v36 (idx_main_v37 (idx_main_v41 (ix4 b h e n))) k)
      = ∑ k : Fin 4096, XCov.kR X Gam W b h e k * XCov.kR X Gam W b h e k := by
  refine Finset.sum_congr rfl fun k _ => ?_
  have e1 : idx_main_v36 (idx_main_v37 (idx_main_v41 (ix4 b h e n))) k = ix4 b h e k :=
    funext fun a => by match a with | ⟨0, _⟩ => rfl | ⟨1, _⟩ => rfl | ⟨2, _⟩ => rfl | ⟨3, _⟩ => rfl
  rw [e1, val_main_v35_apply, v20_at]
  rfl

/-- q divided by the clipped norm of its 4096 token values, times the exponential of the head's temperature. -/
theorem v34_at (b : Fin 4) (h : Fin 16) (d : Fin 64) (n : Fin 4096) :
    val_main_v34 (F := Ideal) X Gam W Tmp (ix4 b h d n)
      = Ideal.div (XCov.qR X Gam W b h d n) (XCov.tokNorm (XCov.qR X Gam W b h d)) * Ideal.exp (Tmp (ix3 h 0 0)) := by
  have e2 : idx_main_v32 (idx_main_v33 (ix4 b h d n)) = ix3 h 0 0 :=
    funext fun a => by match a with | ⟨0, _⟩ => rfl | ⟨1, _⟩ => rfl | ⟨2, _⟩ => rfl
  rw [val_main_v34_apply, val_main_v30_apply, val_main_v29_apply, val_main_v28_apply, val_main_v26_apply, val_main_v25_apply,
    val_main_v24_apply, val_main_v27_apply, val_main_cst_3_apply, val_main_cst_2_apply, val_main_v33_apply, val_main_v32_apply, val_main_v31_apply,
    ssq_q, e2, v18_at]
  simp only [Ideal.mulf_def, Ideal.hostDivf_def, Ideal.maximumf_def, Ideal.hostUnary_sqrt_def,
    Ideal.hostUnary_exp_def, Ideal.ofBits_def, Ideal.ofBits_zero_f32, zero_add]
  unfold XCov.tokNorm
  with_reducible rfl

/-- k divided by the clipped norm of its 4096 token values. -/
theorem v42_at (b : Fin 4) (h : Fin 16) (e : Fin 64) (n : Fin 4096) :
    val_main_v42 (F := Ideal) X Gam W (ix4 b h e n)
      = Ideal.div (XCov.kR X Gam W b h e n) (XCov.tokNorm (XCov.kR X Gam W b h e)) := by
  rw [val_main_v42_apply, val_main_v41_apply, val_main_v40_apply, val_main_v38_apply, val_main_v37_apply,
    val_main_v36_apply, val_main_v39_apply, val_main_cst_5_apply, val_main_cst_4_apply, ssq_k, v20_at]
  simp only [Ideal.mulf_def, Ideal.hostDivf_def, Ideal.maximumf_def, Ideal.hostUnary_sqrt_def,
    Ideal.ofBits_def, Ideal.ofBits_zero_f32, zero_add]
  unfold XCov.tokNorm
  with_reducible rfl

/-- The logits before the softmax: the inner product over the tokens, times 8. -/
theorem v45_at (b : Fin 4) (h : Fin 16) (d e : Fin 64) :
    val_main_v45 (F := Ideal) X Gam W Tmp (ix4 b h d e) = XCov.logitR X Gam W Tmp b h d e := by
  have hs : ∑ k : Fin 4096, val_main_v34 (F := Ideal) X Gam W Tmp (lidx_main_v43 (ix4 b h d e) k) * val_main_v42 (F := Ideal) X Gam W (ridx_main_v43 (ix4 b h d e) k)
      = ∑ n : Fin 4096, Ideal.div (XCov.qR X Gam W b h d n) (XCov.tokNorm (XCov.qR X Gam W b h d)) * Ideal.exp (Tmp (ix3 h 0 0))
          * Ideal.div (XCov.kR X Gam W b h e n) (XCov.tokNorm (XCov.kR X Gam W b h e)) := by
    refine Finset.sum_congr rfl fun k _ => ?_
    have el : lidx_main_v43 (ix4 b h d e) k = ix4 b h d k :=
      funext fun a => by match a with | ⟨0, _⟩ => rfl | ⟨1, _⟩ => rfl | ⟨2, _⟩ => rfl | ⟨3, _⟩ => rfl
    have er : ridx_main_v43 (ix4 b h d e) k = ix4 b h e k :=
      funext fun a => by match a with | ⟨0, _⟩ => rfl | ⟨1, _⟩ => rfl | ⟨2, _⟩ => rfl | ⟨3, _⟩ => rfl
    rw [el, er, v34_at, v42_at]
  rw [val_main_v45_apply, val_main_v43_apply, val_main_v44_apply, val_main_cst_6_apply, hs]
  unfold XCov.logitR
  rw [Ideal.mulf_def, Ideal.ofBits_def]

/-- The whole array of logits. -/
theorem v45_eq : val_main_v45 (F := Ideal) X Gam W Tmp = XCov.logitRarr X Gam W Tmp := by
  funext j
  exact (congrArg (val_main_v45 (F := Ideal) X Gam W Tmp) (eq_ix4 j)).trans (v45_at X Gam W Tmp (j 0) (j 1) (j 2) (j 3))

/-! ## The row softmax: the same chain of operations, kept closed -/

/-- The attention matrix is the row softmax of the logits: row maximum from -inf, subtraction, exponential, row sum from 0, quotient. -/
theorem v56_eq : val_main_v56 (F := Ideal) X Gam W Tmp
    = XCov.softmaxRows reducesTo_S4x16x64x64_S4x16x64_d3 h_S_ bcast_S_S4x16x64 bcast_S4x16x64_S4x16x64x1_0_1_2 bcast_S4x16x64x1_S4x16x64x64_0_1_2_3
        (XCov.logitRarr X Gam W Tmp) := by
  rw [← v45_eq]
  unfold XCov.softmaxRows val_main_v56 val_main_v55 val_main_v54 val_main_v53 val_main_v52 val_main_v51 val_main_v50 val_main_v49
    val_main_v48 val_main_v47 val_main_v46 val_main_cst_7 val_main_cst_8 val_main_cst_9
  with_reducible rfl

/-! ## The whole reference -/

/-- The attention applied to v over the 64 places of a head, the 16 heads side by side, and the output projection over the 1024 features. -/
theorem v60_eq : val_main_v60 (F := Ideal) X Gam W Tmp Wo
    = XCov.outRarr X Gam W Wo (XCov.softmaxRows reducesTo_S4x16x64x64_S4x16x64_d3 h_S_ bcast_S_S4x16x64 bcast_S4x16x64_S4x16x64x1_0_1_2
        bcast_S4x16x64x1_S4x16x64x64_0_1_2_3 (XCov.logitRarr X Gam W Tmp)) := by
  funext j
  refine (congrArg (val_main_v60 (F := Ideal) X Gam W Tmp Wo) (eq_ix3 j)).trans ?_
  unfold XCov.outRarr XCov.outR
  exact RefOut.out_at X Gam W Tmp Wo _ (XCov.vR X Gam W) (v56_eq X Gam W Tmp) (v22_at X Gam W) (j 0) (j 1) (j 2)

end stages

variable [hR : Cert.ReferenceIdeal.Facts]
variable (m : (ℓ : Loc nD τ sig) → Buf (Elt Ideal) ℓ)

theorem res_eq (c : Dev nD) : Cert.ReferenceIdeal.Value.res_out0 (F := Ideal) m c =
    XCov.outRarr (m ((c.tc : Thread nD τ).loc main_arg0)) (m ((c.tc : Thread nD τ).loc main_arg1)) (m ((c.tc : Thread nD τ).loc main_arg2)) (m ((c.tc : Thread nD τ).loc main_arg4))
      (XCov.softmaxRows reducesTo_S4x16x64x64_S4x16x64_d3 h_S_ bcast_S_S4x16x64 bcast_S4x16x64_S4x16x64x1_0_1_2 bcast_S4x16x64x1_S4x16x64x64_0_1_2_3
        (XCov.logitRarr (m ((c.tc : Thread nD τ).loc main_arg0)) (m ((c.tc : Thread nD τ).loc main_arg1)) (m ((c.tc : Thread nD τ).loc main_arg2)) (m ((c.tc : Thread nD τ).loc main_arg3)))) :=
  (val_main_v60_eq (F := Ideal) m c).trans (v60_eq _ _ _ _ _)

end Cert.ReferenceIdeal.RefValue

end
-- ==== Proof.Consts.lean ====
/- The float words the specification names, as the reals their bit patterns denote: 1, 32, 1024, 8, a positive clip, and sqrt 1024 = 32. -/
import proofs.«430979_j3951369912721_3_alg».proof.Proof.Spec

noncomputable section

namespace XCov

open Idealize.ShloMosaic

/-- Sign 0, exponent 127, fraction 0: 2^23 * 2^(127 - 127 - 23) = 1. -/
theorem one_eq : XCov.one = ((1 : ℝ) : EReal) := by
  simp [Ideal.ofBits, Ideal.ieee, -EReal.coe_mul]; norm_num

/-- Sign 0, exponent 132, fraction 0: 2^23 * 2^(132 - 127 - 23) = 32. -/
theorem c32_eq : XCov.c32 = ((32 : ℝ) : EReal) := by
  simp [Ideal.ofBits, Ideal.ieee, -EReal.coe_mul]; norm_num

/-- Sign 0, exponent 137, fraction 0: 2^23 * 2^(137 - 127 - 23) = 1024. -/
theorem c1024_eq : XCov.c1024 = ((1024 : ℝ) : EReal) := by
  simp [Ideal.ofBits, Ideal.ieee, -EReal.coe_mul]; norm_num

/-- Sign 0, exponent 130, fraction 0: 2^23 * 2^(130 - 127 - 23) = 8. -/
theorem c8_eq : XCov.c8 = ((8 : ℝ) : EReal) := by
  simp [Ideal.ofBits, Ideal.ieee, -EReal.coe_mul]; norm_num

/-- Sign 0, exponent 87, fraction 834764: (2^23 + 834764) * 2^(87 - 127 - 23) = 9223372 * 2^(-63), a positive real. -/
theorem eps_eq : ∃ ε : ℝ, 0 < ε ∧ XCov.eps = ((ε : ℝ) : EReal) := by
  refine ⟨(9223372 : ℝ) * (2 : ℝ) ^ (-63 : Int), by positivity, ?_⟩
  simp [Ideal.ofBits, Ideal.ieee, -EReal.coe_mul]

/-- 1024 = 32 * 32 and 32 is not negative, so the square root of 1024 is 32. -/
theorem sqrt_c1024 : Ideal.sqrt XCov.c1024 = XCov.c32 := by
  rw [c1024_eq, c32_eq, Ideal.sqrt_coe, if_neg (by norm_num)]
  congr 1
  rw [show (1024 : ℝ) = 32 ^ 2 by norm_num]
  exact Real.sqrt_sq (by norm_num)

end XCov

end
-- ==== Proof.BridgeApply.lean ====
/- The attention applied four heads at a time through a matrix that is zero off its diagonal blocks, with the four partial output projections added, is the attention applied head by head followed by one output projection: a regrouping of finite sums. -/
import proofs.«430979_j3951369912721_3_alg».proof.Proof.Spec
import Mathlib.Algebra.BigOperators.Fin
import Mathlib.Logic.Equiv.Fin.Basic

noncomputable section

namespace XCov

open Idealize.ShloMosaic Idealize.ShloMosaic.ValueIdx

/-- A sum over a * b consecutive indices is the double sum over a blocks of b: the index g * b + j runs once
    through 0 .. a * b - 1 as (g, j) runs through the pairs. -/
theorem sum_regroup {M : Type*} [AddCommMonoid M] (a b N : Nat) (hN : a * b = N) (F : Fin N → M)
    (hlt : ∀ (g : Fin a) (j : Fin b), g.val * b + j.val < N) :
    ∑ g : Fin a, ∑ j : Fin b, F ⟨g.val * b + j.val, hlt g j⟩ = ∑ i : Fin N, F i := by
  subst hN
  rw [← Fintype.sum_prod_type']
  refine Fintype.sum_equiv finProdFinEquiv _ _ ?_
  rintro ⟨g, j⟩
  refine congrArg F (Fin.ext ?_)
  simp only [finProdFinEquiv_apply_val]
  rw [Nat.mul_comm, Nat.add_comm]

variable (X : SX.Idx → EReal) (Gam : SGam.Idx → EReal) (W : SW.Idx → EReal) (Tmp : STmp.Idx → EReal) (Wo : SWo.Idx → EReal)

/-- Inside group g the 256 x 256 matrix only meets the 64 features of the head of row j: the sum over 256 collapses
    to the sum over the 64 places of that head. -/
theorem applyK_eq (V : SX.Idx → EReal) (A : SAtt.Idx → EReal) (b : Fin 4) (n : Fin 4096) (g : Fin 4) (j : Fin 256) :
    applyK V A b n g j
      = ∑ e : Fin 64, V (ix3 b n (featH (headG g j) e)) * A (ix4 b (headG g j) (in64 j) e) := by
  unfold applyK
  rw [← sum_regroup 4 64 256 (by norm_num) (fun i => V (ix3 b n (featG g i)) * blockDiag A b g j i)
    (fun hh e => by omega)]
  rw [Finset.sum_eq_single (⟨j.val / 64, by omega⟩ : Fin 4)]
  · refine Finset.sum_congr rfl fun e _ => ?_
    have h1 : featG g (⟨j.val / 64 * 64 + e.val, by omega⟩ : Fin 256) = featH (headG g j) e := by
      apply Fin.ext; simp only [featG, featH, headG]; omega
    have h2 : in64 (⟨j.val / 64 * 64 + e.val, by omega⟩ : Fin 256) = e := by
      apply Fin.ext; simp only [in64]; omega
    have h3 : j.val / 64 = (j.val / 64 * 64 + e.val) / 64 := by omega
    show V (ix3 b n (featG g ⟨j.val / 64 * 64 + e.val, _⟩)) * blockDiag A b g j ⟨j.val / 64 * 64 + e.val, _⟩ = _
    unfold blockDiag
    rw [if_pos h3, h1, h2]
  · intro hh _ hne
    refine Finset.sum_eq_zero fun e _ => ?_
    show V (ix3 b n (featG g ⟨hh.val * 64 + e.val, _⟩)) * blockDiag A b g j ⟨hh.val * 64 + e.val, _⟩ = 0
    unfold blockDiag
    have h3 : ¬ (j.val / 64 = (hh.val * 64 + e.val) / 64) := by
      intro h; apply hne; apply Fin.ext; show hh.val = j.val / 64; omega
    rw [if_neg h3, mul_zero]
  · intro h; exact absurd (Finset.mem_univ _) h

theorem out_eq (A : SAtt.Idx → EReal) (hxn : xnK X Gam = xnR X Gam) :
    outKarr (vKarr X Gam W) A Wo = outRarr X Gam W Wo A := by
  funext idx
  obtain ⟨b, n, o, rfl⟩ : ∃ b n o, idx = ix3 b n o := ⟨idx 0, idx 1, idx 2, eq_ix3 idx⟩
  show outK (vKarr X Gam W) A Wo b n o = outR X Gam W Wo A b n o
  unfold outK outR
  rw [← sum_regroup 4 256 1024 (by norm_num)
    (fun i => (∑ e : Fin 64, A (ix4 b (headF i) (in64F i) e) * vR X Gam W b (headF i) e n) * Wo (ix2 o i))
    (fun g j => by omega)]
  refine Finset.sum_congr rfl fun g _ => Finset.sum_congr rfl fun j _ => ?_
  have h1 : headF (featG g j) = headG g j := by
    apply Fin.ext; simp only [headF, featG, headG]; omega
  have h2 : in64F (featG g j) = in64 j := by
    apply Fin.ext; simp only [in64F, featG, in64]; omega
  show applyK (vKarr X Gam W) A b n g j * Wo (ix2 o (featG g j))
    = (∑ e : Fin 64, A (ix4 b (headF (featG g j)) (in64F (featG g j)) e) * vR X Gam W b (headF (featG g j)) e n)
        * Wo (ix2 o (featG g j))
  rw [h1, h2, applyK_eq]
  congr 1
  refine Finset.sum_congr rfl fun e _ => ?_
  show proj W (xnK X Gam) b n (oV (featH (headG g j) e)) * A (ix4 b (headG g j) (in64 j) e)
    = A (ix4 b (headG g j) (in64 j) e) * proj W (xnR X Gam) b n (oV (featH (headG g j) e))
  rw [hxn, mul_comm]

end XCov

end
-- ==== Proof.BridgeLogit.lean ====
/- On real inputs the two orders of normalising agree: the product with a reciprocal is the quotient, sqrt 1024 is 32, and the reciprocal norms and the scale can be taken out of the sum over tokens. -/
import proofs.«430979_j3951369912721_3_alg».proof.Proof.Spec
import proofs.«430979_j3951369912721_3_alg».proof.Proof.Consts
import proofs.«430979_j3951369912721_3_alg».proof.Proof.BridgeApply

noncomputable section

namespace XCov

open Idealize.ShloMosaic Idealize.ShloMosaic.ValueIdx

/-! ## Coercion and finite sums -/

/-- The coercion of the reals into the extended reals commutes with finite sums. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The square root of a nonnegative real, as an extended real. -/
theorem sqrt_coe_nonneg {r : ℝ} (h : 0 ≤ r) : Ideal.sqrt (r : EReal) = ((Real.sqrt r : ℝ) : EReal) := by
  rw [Ideal.sqrt_coe, if_neg (not_lt.mpr h)]

/-- A clipped norm of real entries is a positive real. -/
theorem clipNorm_real {ι : Type*} [Fintype ι] (p : ι → ℝ) :
    ∃ a : ℝ, 0 < a ∧ max (Ideal.sqrt (∑ i, (p i : EReal) * (p i : EReal))) eps = (a : EReal) := by
  obtain ⟨ε, hε, he⟩ := eps_eq
  have hs : (∑ i, (p i : EReal) * (p i : EReal)) = ((∑ i, p i * p i : ℝ) : EReal) := by
    rw [← coe_sum]; exact Finset.sum_congr rfl fun i _ => (EReal.coe_mul _ _).symm
  refine ⟨max (Real.sqrt (∑ i, p i * p i)) ε, lt_max_of_lt_right hε, ?_⟩
  rw [hs, sqrt_coe_nonneg (Finset.sum_nonneg fun i _ => mul_self_nonneg _), he,
    EReal.coe_strictMono.monotone.map_max]

variable (X : SX.Idx → EReal) (Gam : SGam.Idx → EReal) (W : SW.Idx → EReal) (Tmp : STmp.Idx → EReal) (Wo : SWo.Idx → EReal)

/-- The clipped norm of a real token row is a positive real. -/
theorem rowNorm_real (x : SX.Idx → ℝ) (hx : ∀ i, X i = (x i : EReal)) (b : Fin 4) (n : Fin 4096) :
    ∃ ρ : ℝ, 0 < ρ ∧ rowNorm X b n = (ρ : EReal) := by
  unfold rowNorm
  simp only [hx]
  exact clipNorm_real fun c : Fin 1024 => x (ix3 b n c)

/-- The kernel's and the reference's normalised rows are one function when x is real (the gain may be anything). -/
theorem xn_eq (hX : ∀ i, ∃ r : ℝ, X i = (r : EReal)) : xnK X Gam = xnR X Gam := by
  choose x hx using hX
  funext b n c
  obtain ⟨ρ, hρ, hr⟩ := rowNorm_real X x hx b n
  unfold xnK xnR
  rw [hr, Ideal.div_coe hρ.ne', Ideal.div_coe hρ.ne', one_eq, EReal.coe_one, one_mul, sqrt_c1024]

/-- With real x and gain every entry of the normalised row is real. -/
theorem xnR_real (hX : ∀ i, ∃ r : ℝ, X i = (r : EReal)) (hGam : ∀ i, ∃ r : ℝ, Gam i = (r : EReal))
    (b : Fin 4) (n : Fin 4096) (c : Fin 1024) : ∃ r : ℝ, xnR X Gam b n c = (r : EReal) := by
  choose x hx using hX
  choose gam hg using hGam
  obtain ⟨ρ, hρ, hr⟩ := rowNorm_real X x hx b n
  refine ⟨x (ix3 b n c) * (1 / ρ) * 32 * gam (ix1 c), ?_⟩
  unfold xnR
  rw [hr, Ideal.div_coe hρ.ne', sqrt_c1024, c32_eq, hx, hg, EReal.coe_mul, EReal.coe_mul, EReal.coe_mul]

/-- A projection of a real row by real weights is real. -/
theorem proj_real (xn : Fin 4 → Fin 4096 → Fin 1024 → EReal) (hxn : ∀ b n c, ∃ r : ℝ, xn b n c = (r : EReal))
    (hW : ∀ i, ∃ r : ℝ, W i = (r : EReal)) (b : Fin 4) (n : Fin 4096) (o : Fin 3072) :
    ∃ r : ℝ, proj W xn b n o = (r : EReal) := by
  choose xr hxr using hxn
  choose w hw using hW
  refine ⟨∑ c : Fin 1024, xr b n c * w (ix2 o c), ?_⟩
  unfold proj
  rw [← coe_sum]
  refine Finset.sum_congr rfl fun c _ => ?_
  rw [hxr, hw, EReal.coe_mul]

/-! ## Tiles to tokens -/

/-- Eight tiles of 512 tokens are the 4096 tokens. -/
theorem sum_tok {M : Type*} [AddCommMonoid M] (F : Fin 4096 → M) :
    ∑ tl : Fin 8, ∑ r : Fin 512, F (tok tl r) = ∑ n : Fin 4096, F n :=
  sum_regroup 8 512 4096 (by norm_num) F (fun g j => by omega)

/-- A head's feature counted inside its pair is the head's feature. -/
theorem featP_pair (h : Fin 16) (d : Fin 64) : featP (pairOf h) (inPair h d) = featH h d := by
  apply Fin.ext; simp only [featP, pairOf, inPair, featH]; omega

/-- The diagonal block of the pair's tile-by-tile products is the head's inner product over tokens. -/
theorem gramK_eq (hxn : xnK X Gam = xnR X Gam) (b : Fin 4) (h : Fin 16) (d e : Fin 64) :
    gramKarr X Gam W (ix4 b (pairOf h) (inPair h d) (inPair h e))
      = ∑ n : Fin 4096, qR X Gam W b h d n * kR X Gam W b h e n := by
  show gramK X Gam W b (pairOf h) (inPair h d) (inPair h e) = _
  unfold gramK qR kR
  rw [hxn, featP_pair, featP_pair]
  exact sum_tok fun n => proj W (xnR X Gam) b n (oQ (featH h d)) * proj W (xnR X Gam) b n (oK (featH h e))

/-- The tile-by-tile sum of squares of a q feature is its sum of squares over tokens. -/
theorem ssqK_q (hxn : xnK X Gam = xnR X Gam) (b : Fin 4) (h : Fin 16) (d : Fin 64) :
    ssqKarr X Gam W (ix3 b (0 : Fin 2) (featH h d))
      = ∑ n : Fin 4096, qR X Gam W b h d n * qR X Gam W b h d n := by
  show ssqK X Gam W b (0 : Fin 2) (featH h d) = _
  unfold ssqK qR
  rw [hxn]
  have h0 : (0 : Fin 2).val = 0 := rfl
  simp only [if_pos h0]
  exact sum_tok fun n => proj W (xnR X Gam) b n (oQ (featH h d)) * proj W (xnR X Gam) b n (oQ (featH h d))

/-- The tile-by-tile sum of squares of a k feature is its sum of squares over tokens. -/
theorem ssqK_k (hxn : xnK X Gam = xnR X Gam) (b : Fin 4) (h : Fin 16) (e : Fin 64) :
    ssqKarr X Gam W (ix3 b (1 : Fin 2) (featH h e))
      = ∑ n : Fin 4096, kR X Gam W b h e n * kR X Gam W b h e n := by
  show ssqK X Gam W b (1 : Fin 2) (featH h e) = _
  unfold ssqK kR
  rw [hxn]
  have h1 : ¬ (1 : Fin 2).val = 0 := by decide
  simp only [if_neg h1]
  exact sum_tok fun n => proj W (xnR X Gam) b n (oK (featH h e)) * proj W (xnR X Gam) b n (oK (featH h e))

/-! ## The scaling taken out of the sum -/

/-- For real q, k, nonzero real norms a, c and a real scale E: the raw inner product times both reciprocal norms
    times 8 E is the inner product of the normalised, scaled vectors times 8. -/
theorem logit_core (q k : Fin 4096 → ℝ) (a c E : ℝ) (ha : a ≠ 0) (hc : c ≠ 0) :
    (∑ n : Fin 4096, (q n : EReal) * (k n : EReal)) * Ideal.div one (a : EReal) * Ideal.div one (c : EReal)
        * (c8 * (E : EReal))
      = (∑ n : Fin 4096, Ideal.div (q n : EReal) (a : EReal) * (E : EReal) * Ideal.div (k n : EReal) (c : EReal)) * c8 := by
  simp only [Ideal.div_coe ha, Ideal.div_coe hc, one_eq, c8_eq, ← EReal.coe_mul, coe_sum]
  congr 1
  simp only [Finset.sum_mul]
  refine Finset.sum_congr rfl fun n _ => ?_
  ring

/-- The kernel's logit is the reference's, entry by entry, on real inputs. -/
theorem logit_pt (hX : ∀ i, ∃ r : ℝ, X i = (r : EReal)) (hGam : ∀ i, ∃ r : ℝ, Gam i = (r : EReal))
    (hW : ∀ i, ∃ r : ℝ, W i = (r : EReal)) (hTmp : ∀ i, ∃ r : ℝ, Tmp i = (r : EReal))
    (b : Fin 4) (h : Fin 16) (d e : Fin 64) :
    logitK (gramKarr X Gam W) (ssqKarr X Gam W) Tmp b h d e = logitR X Gam W Tmp b h d e := by
  have hxn := xn_eq X Gam hX
  have hP := proj_real W (xnR X Gam) (xnR_real X Gam hX hGam) hW b
  have hq : ∀ n, ∃ r : ℝ, qR X Gam W b h d n = (r : EReal) := fun n => hP n _
  have hk : ∀ n, ∃ r : ℝ, kR X Gam W b h e n = (r : EReal) := fun n => hP n _
  choose q hq using hq
  choose k hk using hk
  obtain ⟨t, ht⟩ := hTmp (ix3 h 0 0)
  obtain ⟨a, ha, hA⟩ := clipNorm_real q
  obtain ⟨c, hc, hC⟩ := clipNorm_real k
  unfold logitK logitR invNorm tokNorm
  rw [gramK_eq X Gam W hxn, ssqK_q X Gam W hxn, ssqK_k X Gam W hxn, ht, Ideal.exp_coe]
  simp only [hq, hk]
  rw [hA, hC]
  exact logit_core q k a c (Real.exp t) ha.ne' hc.ne'

/-- The kernel's logits (from the tile-by-tile sums) are the reference's, on real inputs. -/
theorem logit_eq (hX : ∀ i, ∃ r : ℝ, X i = (r : EReal)) (hGam : ∀ i, ∃ r : ℝ, Gam i = (r : EReal))
    (hW : ∀ i, ∃ r : ℝ, W i = (r : EReal)) (hTmp : ∀ i, ∃ r : ℝ, Tmp i = (r : EReal)) :
    logitKarr (gramKarr X Gam W) (ssqKarr X Gam W) Tmp = logitRarr X Gam W Tmp := by
  funext j
  exact logit_pt X Gam W Tmp hX hGam hW hTmp (j 0) (j 1) (j 2) (j 3)

end XCov

end
-- ==== Proof.Finite.lean ====
/- The precondition says every input entry is finite: each argument array is real-valued. -/
import proofs.«430979_j3951369912721_3_alg».proof.Defs
import proofs.«430979_j3951369912721_3_alg».proof.Proof.Gen.Pre_finite_inputs
import Idealize.ShloMosaic.Lib.ReduceAll

noncomputable section

namespace Cert.Proof.Finite

open Idealize.ShloMosaic Idealize.ShloMosaic.TcCoe Idealize.SL.Sem Cert.KernelIdeal

/-- The single-precision word of +inf is the top of the extended reals. -/
theorem ofBits_inf : Ideal.ofBits .f32 0x7F800000#32 = (⊤ : EReal) := by
  simp [Ideal.ofBits, Ideal.ieee]

/-- An extended real whose absolute value max x (-x) is strictly below +inf is a real number:
    at ⊥ and at ⊤ the absolute value is ⊤, which is not below itself. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- The scalar shape has exactly one index. -/
instance : Subsingleton Cert.Pre_finite_inputs.S_.Idx := ⟨fun a b => funext fun d => d.elim0⟩

/-- One argument array of any shape: if the conjunction over ALL its entries of |x| < +inf is true,
    every entry is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi (cmpf .olt (Host.absf x)
          (broadcastInDim s ![] hb (constant (F := Ideal) Cert.Pre_finite_inputs.S_ .f32 0x7F800000#32))) init hr hu j = 1#1)
    (i : s.Idx) : ∃ r : ℝ, x i = (r : EReal) :=
  real_of_abs_lt (x i) (Host.reduce_andi_all _ init hr hu j e i)

/-- The precondition is the conjunction of the five arrays' all-entries-finite bits; each conjunct gives its array. -/
theorem real_of_pre [hP : Cert.Pre_finite_inputs.Facts] (m : (ℓ : Loc nD τ sig) → Buf (Elt Ideal) ℓ) (h : Cert.Pre_KernelIdeal m) (c : Dev nD) :
    (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal))
    ∧ (∀ i, ∃ r : ℝ, m ((c.tc : Thread nD τ).loc main_arg3) i = (r : EReal))
    ∧ (∀ i, ∃ r : ℝ, m ((c.tc : Thread nD τ).loc main_arg4) i = (r : EReal)) := by
  have h0 := congrFun (h c) (fun d => d.elim0)
  dsimp only [Cert.Pre_finite_inputs.fn, Cert.Pre_finite_inputs.fn_part1, andi] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨fun i => real_of_all _ _ _ _ _ _ h0' i, fun i => real_of_all _ _ _ _ _ _ h1 i,
    fun i => real_of_all _ _ _ _ _ _ h2 i, fun i => real_of_all _ _ _ _ _ _ h3 i, fun i => real_of_all _ _ _ _ _ _ h4 i⟩

end Cert.Proof.Finite

end
-- ==== Proof.Assembly.lean ====
/-
  The five claims.  The three frames are the generated ones (the reference's is its run with the value dropped);
  nothing was rewritten by the idealisation, so that claim is trivial.  For the value claim the kernel program's
  result is followed backwards through its run: the second call's write-backs leave the four head groups' partial
  output projections added; its operands are v as the first call left it, the row softmax of the scaled diagonal
  blocks, and the output weights; the first call's write-backs leave v and the tile-by-tile sums of the normalised,
  projected rows.  On real inputs (the precondition) the kernel's scaled logits are the reference's, the softmax is
  one function of them, and the block-diagonal application regroups to the reference's head-by-head one.
-/
import proofs.«430979_j3951369912721_3_alg».proof.Defs
import proofs.«430979_j3951369912721_3_alg».proof.Proof.Gen.Kernel.Frame
import proofs.«430979_j3951369912721_3_alg».proof.Proof.Gen.KernelIdeal.Frame
import proofs.«430979_j3951369912721_3_alg».proof.Proof.Gen.ReferenceIdeal.Run
import proofs.«430979_j3951369912721_3_alg».proof.Proof.RunValue
import proofs.«430979_j3951369912721_3_alg».proof.Proof.R0Val
import proofs.«430979_j3951369912721_3_alg».proof.Proof.R0Gram
import proofs.«430979_j3951369912721_3_alg».proof.Proof.R0Ssq
import proofs.«430979_j3951369912721_3_alg».proof.Proof.R1Out
import proofs.«430979_j3951369912721_3_alg».proof.Proof.HostK
import proofs.«430979_j3951369912721_3_alg».proof.Proof.RefValue
import proofs.«430979_j3951369912721_3_alg».proof.Proof.BridgeLogit
import proofs.«430979_j3951369912721_3_alg».proof.Proof.BridgeApply
import proofs.«430979_j3951369912721_3_alg».proof.Proof.Finite

set_option maxRecDepth 16384

noncomputable section

open Idealize.ShloMosaic Idealize.ShloMosaic.TcCoe Idealize.SL.Sem

namespace Cert.Proof.Claims

/-! ## The kernel program's result as a function of its arguments -/

section
open Cert.KernelIdeal Cert.KernelIdeal.Gen

variable (m : (ℓ : Loc nD τ sig) → Buf (Elt Ideal) ℓ) (ρ : Dev nD → PrngReg)

/-- The kernel program's result in the specification's words: the grouped application of the softmax of the kernel's
    logits to the kernel's v, projected by the output weights — all of the argument arrays as launched. -/
theorem kernel_result (c : Dev nD) :
    W4 m ρ c (Proc.devRef .tc main_v52) =
      XCov.outKarr
        (XCov.vKarr (m ((c : Thread nD τ).loc main_arg0)) (m ((c : Thread nD τ).loc main_arg1)) (m ((c : Thread nD τ).loc main_arg2)))
        (XCov.softmaxRows reducesTo_S4x16x64x64_S4x16x64_d3 h_S_ bcast_S_S4x16x64 bcast_S4x16x64_S4x16x64x1_0_1_2 bcast_S4x16x64x1_S4x16x64x64_0_1_2_3
          (XCov.logitKarr
            (XCov.gramKarr (m ((c : Thread nD τ).loc main_arg0)) (m ((c : Thread nD τ).loc main_arg1)) (m ((c : Thread nD τ).loc main_arg2)))
            (XCov.ssqKarr (m ((c : Thread nD τ).loc main_arg0)) (m ((c : Thread nD τ).loc main_arg1)) (m ((c : Thread nD τ).loc main_arg2)))
            (m ((c : Thread nD τ).loc main_arg3))))
        (m ((c : Thread nD τ).loc main_arg4)) := by
  have hv : W2 m ρ c (Proc.devRef .tc main_v2_0)
      = XCov.vKarr (m ((c : Thread nD τ).loc main_arg0)) (m ((c : Thread nD τ).loc main_arg1)) (m ((c : Thread nD τ).loc main_arg2)) :=
    (W2_arr m ρ c 3).trans ((Cert.KernelIdeal.R0.arr3 (V1 m ρ) c).trans (by
      rw [Cert.KernelIdeal.HostK.V1_x, Cert.KernelIdeal.HostK.V1_gam, Cert.KernelIdeal.HostK.V1_w]))
  have hg : W2 m ρ c (Proc.devRef .tc main_v2_1)
      = XCov.gramKarr (m ((c : Thread nD τ).loc main_arg0)) (m ((c : Thread nD τ).loc main_arg1)) (m ((c : Thread nD τ).loc main_arg2)) :=
    (W2_arr m ρ c 4).trans ((Cert.KernelIdeal.R0.arr4 (V1 m ρ) c).trans (by
      rw [Cert.KernelIdeal.HostK.V1_x, Cert.KernelIdeal.HostK.V1_gam, Cert.KernelIdeal.HostK.V1_w]))
  have hs : W2 m ρ c (Proc.devRef .tc main_v2_2)
      = XCov.ssqKarr (m ((c : Thread nD τ).loc main_arg0)) (m ((c : Thread nD τ).loc main_arg1)) (m ((c : Thread nD τ).loc main_arg2)) :=
    (W2_arr m ρ c 5).trans ((Cert.KernelIdeal.R0.arr5 (V1 m ρ) c).trans (by
      rw [Cert.KernelIdeal.HostK.V1_x, Cert.KernelIdeal.HostK.V1_gam, Cert.KernelIdeal.HostK.V1_w]))
  refine (W4_arr m ρ c 3).trans ((Cert.KernelIdeal.R1.out1 (V3 m ρ) c).trans ?_)
  rw [Cert.KernelIdeal.HostK.V3_v, Cert.KernelIdeal.HostK.V3_attn, Cert.KernelIdeal.HostK.V3_wo, hv, hg, hs]

end

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealised programs end with the same result on real inputs: the kernel's by `kernel_result`, the
    reference's by its run read index by index, and the two specifications agree. -/
theorem algebraic : Cert.algebraic_KernelIdeal_ReferenceIdeal := by
  intro m ρ m' ρ' hpre hagree
  refine ⟨fun c => Cert.KernelIdeal.Gen.W4 m ρ c (Proc.devRef .tc Cert.KernelIdeal.main_v52), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hGam, hW, hTmp, hWo⟩ := Cert.Proof.Finite.real_of_pre m hpre c
  rw [show Cert.ReferenceIdeal.Value.res_main_v60 m' c = Cert.ReferenceIdeal.Value.res_out0 m' c from rfl,
    Cert.ReferenceIdeal.RefValue.res_eq m' c, (hagree c).1, (hagree c).2.1, (hagree c).2.2.1, (hagree c).2.2.2.1, (hagree c).2.2.2.2]
  refine Eq.trans ?_ (kernel_result m ρ c).symm
  rw [XCov.logit_eq _ _ _ _ hX hGam hW hTmp]
  exact (XCov.out_eq _ _ _ _ _ (XCov.xn_eq _ _ hX)).symm

end Cert.Proof.Claims

end
-- ==== Proof.lean ====
/-
  Cross-covariance attention after a row normalisation: a Pallas program of two calls with host operations between
  them against its jnp reference, equal as extended reals on finite inputs.  The specification of both programs is
  Proof/Spec.lean; the kernel program's values are read off its generated frame call by call (Proof/R0*.lean,
  Proof/R1Out.lean, Proof/HostK.lean over Proof/RunValue.lean), the reference's off its generated run
  (Proof/RefValue.lean); the two specifications are joined in Proof/BridgeLogit.lean and Proof/BridgeApply.lean;
  Proof/Assembly.lean states the five claims.
-/
import proofs.«430979_j3951369912721_3_alg».proof.Defs
import proofs.«430979_j3951369912721_3_alg».proof.Proof.Gen.Kernel
import proofs.«430979_j3951369912721_3_alg».proof.Proof.Gen.KernelIdeal
import proofs.«430979_j3951369912721_3_alg».proof.Proof.Gen.ReferenceIdeal
import proofs.«430979_j3951369912721_3_alg».proof.Proof.Gen.Pre_finite_inputs
import proofs.«430979_j3951369912721_3_alg».proof.Proof.Assembly

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
